-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_arg0 : IVec S1 32) (main_v67 : IVec S_ 1) : IVec S_ 1 :=
  let main_c_26 : IVec S_ 32 := constantI S_ 32 50257#32
  let main_v68 : IVec S1 32 := broadcastInDim S1 ![] bcast_S_S1 main_c_26
  let main_v69 : IVec S1 1 := cmpi .slt main_arg0 main_v68
  let main_c_27 : IVec S_ 1 := constantI S_ 1 1#1
  let main_v70 : IVec S_ 1 := (fun x v => Host.reduce IntOp.andi x v reducesTo_S1_S_d0 h_S_) main_v69 main_c_27
  let main_v71 : IVec S_ 1 := andi main_v67 main_v70
  main_v71

def fn_part3 {F : FTy → Type} [FloatOps F] (main_arg0 : IVec S1 32) (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  let main_c_24 : IVec S_ 32 := constantI S_ 32 0#32
  let main_v64 : IVec S1 32 := broadcastInDim S1 ![] bcast_S_S1 main_c_24
  let main_v65 : IVec S1 1 := cmpi .sge main_arg0 main_v64
  let main_c_25 : IVec S_ 1 := constantI S_ 1 1#1
  let main_v66 : IVec S_ 1 := (fun x v => Host.reduce IntOp.andi x v reducesTo_S1_S_d0 h_S_) main_v65 main_c_25
  let main_v67 : IVec S_ 1 := andi main_v63 main_v66
  fn_part4 (F := F) main_arg0 main_v67

def fn_part2 {F : FTy → Type} [FloatOps F] (main_arg0 : IVec S1 32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg0 main_arg12 main_arg13 main_v48 main_v49 main_v50

def fn_part1 {F : FTy → Type} [FloatOps F] (main_arg0 : IVec S1 32) (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S1 32) (main_arg1 : FVec F S1x1x1024 .f32) (main_arg2 : FVec F S512x1024 .f32) (main_arg3 : FVec F S50257x1024 .f32) (main_arg4 : FVec F S512x2048 .f32) (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S512x2048 .f32 := Host.absf main_arg4
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg0 main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x50257 : Shape := ⟨2, ![1, 50257]⟩
abbrev S16x1024 : Shape := ⟨2, ![16, 1024]⟩
abbrev S16x512 : Shape := ⟨2, ![16, 512]⟩
abbrev S2048x1024 : Shape := ⟨2, ![2048, 1024]⟩
abbrev S2048 : Shape := ⟨1, ![2048]⟩
abbrev S1x2048 : Shape := ⟨2, ![1, 2048]⟩
abbrev S8x1024 : Shape := ⟨2, ![8, 1024]⟩
abbrev S8x512 : Shape := ⟨2, ![8, 512]⟩
abbrev S1x512 : Shape := ⟨2, ![1, 512]⟩
abbrev S1x3072 : Shape := ⟨2, ![1, 3072]⟩

abbrev nBuf : Space → Nat
  | .hbm => 60
  | .vmem => 23
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1, .i32⟩
  | .hbm, ⟨23, _⟩ => ⟨S_, .i32⟩
  | .hbm, ⟨24, _⟩ => ⟨S1x1, .i32⟩
  | .hbm, ⟨25, _⟩ => ⟨S1x1, .i1⟩
  | .hbm, ⟨26, _⟩ => ⟨S1x1, .i32⟩
  | .hbm, ⟨27, _⟩ => ⟨S1x1, .i1⟩
  | .hbm, ⟨28, _⟩ => ⟨S1x1, .i1⟩
  | .hbm, ⟨29, _⟩ => ⟨S_, .i1⟩
  | .hbm, ⟨30, _⟩ => ⟨S1, .i1⟩
  | .hbm, ⟨31, _⟩ => ⟨S1x1024, .f32⟩
  | .hbm, ⟨32, _⟩ => ⟨S1x1024, .i1⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S1x1x1024, .f32⟩
  | .hbm, ⟨37, _⟩ => ⟨S1x1024, .f32⟩
  | .hbm, ⟨38, _⟩ => ⟨S1x1024, .f32⟩
  | .hbm, ⟨39, _⟩ => ⟨S1x50257, .f32⟩
  | .hbm, ⟨40, _⟩ => ⟨S16x1024, .f32⟩
  | .hbm, ⟨41, _⟩ => ⟨S16x512, .f32⟩
  | .hbm, ⟨42, _⟩ => ⟨S1x1024, .f32⟩
  | .hbm, ⟨43, _⟩ => ⟨S1x512, .f32⟩
  | .hbm, ⟨44, _⟩ => ⟨S_, .f32⟩
  | .hbm, ⟨45, _⟩ => ⟨S1, .f32⟩
  | .hbm, ⟨46, _⟩ => ⟨S_, .f32⟩
  | .hbm, ⟨47, _⟩ => ⟨S1, .f32⟩
  | .hbm, ⟨48, _⟩ => ⟨S1, .f32⟩
  | .hbm, ⟨49, _⟩ => ⟨S1x1, .f32⟩
  | .hbm, ⟨50, _⟩ => ⟨S1x50257, .f32⟩
  | .hbm, ⟨51, _⟩ => ⟨S1x50257, .f32⟩
  | .hbm, ⟨52, _⟩ => ⟨S1x50257, .f32⟩
  | .hbm, ⟨53, _⟩ => ⟨S_, .f32⟩
  | .hbm, ⟨54, _⟩ => ⟨S1, .f32⟩
  | .hbm, ⟨55, _⟩ => ⟨S1x1, .f32⟩
  | .hbm, ⟨56, _⟩ => ⟨S1x1, .f32⟩
  | .hbm, ⟨57, _⟩ => ⟨S1x50257, .f32⟩
  | .hbm, ⟨58, _⟩ => ⟨S1x50257, .f32⟩
  | .hbm, ⟨59, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S512x1024, .f32⟩
  | .local _ .vmem, ⟨3, _⟩ => ⟨S512x2048, .f32⟩
  | .local _ .vmem, ⟨4, _⟩ => ⟨S512, .f32⟩
  | .local _ .vmem, ⟨5, _⟩ => ⟨S1024x2048, .f32⟩
  | .local _ .vmem, ⟨6, _⟩ => ⟨S1024, .f32⟩
  | .local _ .vmem, ⟨7, _⟩ => ⟨S3072x1024, .f32⟩
  | .local _ .vmem, ⟨8, _⟩ => ⟨S3072x1024, .f32⟩
  | .local _ .vmem, ⟨9, _⟩ => ⟨S3072, .f32⟩
  | .local _ .vmem, ⟨10, _⟩ => ⟨S3072, .f32⟩
  | .local _ .vmem, ⟨11, _⟩ => ⟨S2048x1024, .f32⟩
  | .local _ .vmem, ⟨12, _⟩ => ⟨S2048x1024, .f32⟩
  | .local _ .vmem, ⟨13, _⟩ => ⟨S2048, .f32⟩
  | .local _ .vmem, ⟨14, _⟩ => ⟨S2048, .f32⟩
  | .local _ .vmem, ⟨15, _⟩ => ⟨S1x2048, .f32⟩
  | .local _ .vmem, ⟨16, _⟩ => ⟨S1x2048, .f32⟩
  | .local _ .vmem, ⟨17, _⟩ => ⟨S8x1024, .f32⟩
  | .local _ .vmem, ⟨18, _⟩ => ⟨S8x1024, .f32⟩
  | .local _ .vmem, ⟨19, _⟩ => ⟨S8x512, .f32⟩
  | .local _ .vmem, ⟨20, _⟩ => ⟨S8x512, .f32⟩
  | .local _ .vmem, ⟨21, _⟩ => ⟨S1x1024, .f32⟩
  | .local _ .vmem, ⟨22, _⟩ => ⟨S1x512, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_c_3 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4_0 : Ref sig .tc := ⟨.hbm, 39, rfl⟩
abbrev main_v4_1 : Ref sig .tc := ⟨.hbm, 40, rfl⟩
abbrev main_v4_2 : Ref sig .tc := ⟨.hbm, 41, rfl⟩
abbrev main_v5 : Ref sig .tc := ⟨.hbm, 42, rfl⟩
abbrev main_v6 : Ref sig .tc := ⟨.hbm, 43, rfl⟩
abbrev main_call1_cst : Ref sig .tc := ⟨.hbm, 44, rfl⟩
abbrev main_call1_v0 : Ref sig .tc := ⟨.hbm, 45, rfl⟩
abbrev main_call1_cst_0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_cst_1 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_v7 : Ref sig .tc := ⟨.hbm, 58, rfl⟩
abbrev main_v8 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem11_1 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c24_i32 : BitVec 32 := 24#32
  let v2 : BitVec 32 := Scalar.minsi v1 c24_i32
  let c0_i32 : BitVec 32 := 0#32
  let c0_i32_0 : BitVec 32 := 0#32
  ![v2.toNat, c0_i32.toNat]

def cc0_transform_12 (i : grid0.Coords) : Fin 1 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c24_i32 : BitVec 32 := 24#32
  let v2 : BitVec 32 := Scalar.minsi v1 c24_i32
  let c0_i32 : BitVec 32 := 0#32
  ![v2.toNat]

def cc0_transform_13 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c24_i32 : BitVec 32 := 24#32
  let v2 : BitVec 32 := Scalar.minsi v1 c24_i32
  let c0_i32 : BitVec 32 := 0#32
  let c0_i32_0 : BitVec 32 := 0#32
  ![c0_i32.toNat, v2.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3072x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3072x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2048x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x1024_0 : S1.BroadcastsInDim S1x1024 (![0] : Fin 1 → Fin S1x1024.rank)
  bcast_S_S1x1024 : S_.BroadcastsInDim S1x1024 (![] : Fin 0 → Fin S1x1024.rank)
  shapeCasts_S1x1024_S1x1x1024 : S1x1024.ShapeCasts S1x1x1024
  shapeCasts_S1x1x1024_S1x1024 : S1x1x1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  concatenates_S1x1024_S1x1024_S1x2048_d1 : Shape.Concatenates [S1x1024, S1x1024] S1x2048 1
  inb_S512x2048_S512x2048_0_0 : ∀ a, (![0, 0] : Fin 2 → Nat) a + S512x2048.size a ≤ S512x2048.size a
  h_S512x2048 : 0 < S512x2048.numel
  inb_S512_S512_0 : ∀ a, (![0] : Fin 1 → Nat) a + S512.size a ≤ S512.size a
  h_S512 : 0 < S512.numel
  shapeCasts_S512_S1x512 : S512.ShapeCasts S1x512
  reduces_S1x512_S1 : S1x512.Reduces [1] S1
  shapeCasts_S1_S1x1 : S1.ShapeCasts S1x1
  broadcasts_S1x1_S1x512 : S1x1.Broadcasts S1x512
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  inb_S1024_S1024_0 : ∀ a, (![0] : Fin 1 → Nat) a + S1024.size a ≤ S1024.size a
  h_S1024 : 0 < S1024.numel
  shapeCasts_S1024_S1x1024 : S1024.ShapeCasts S1x1024
  inb_S3072x1024_S3072x1024_0_0 : ∀ a, (![0, 0] : Fin 2 → Nat) a + S3072x1024.size a ≤ S3072x1024.size a
  h_S3072x1024 : 0 < S3072x1024.numel
  inb_S3072_S3072_0 : ∀ a, (![0] : Fin 1 → Nat) a + S3072.size a ≤ S3072.size a
  h_S3072 : 0 < S3072.numel
  shapeCasts_S3072_S1x3072 : S3072.ShapeCasts S1x3072
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2048x1024_S2048x1024_0_0 : ∀ a, (![0, 0] : Fin 2 → Nat) a + S2048x1024.size a ≤ S2048x1024.size a
  h_S2048x1024 : 0 < S2048x1024.numel
  inb_S2048_S2048_0 : ∀ a, (![0] : Fin 1 → Nat) a + S2048.size a ≤ S2048.size a
  h_S2048 : 0 < S2048.numel
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  broadcasts_S1x1024_S8x1024 : S1x1024.Broadcasts S8x1024
  inb_S8x1024_S8x1024_0_0 : ∀ a, (![0, 0] : Fin 2 → Nat) a + S8x1024.size a ≤ S8x1024.size a
  h_S8x1024 : 0 < S8x1024.numel
  broadcasts_S1x512_S8x512 : S1x512.Broadcasts S8x512
  inb_S8x512_S8x512_0_0 : ∀ a, (![0, 0] : Fin 2 → Nat) a + S8x512.size a ≤ S8x512.size a
  h_S8x512 : 0 < S8x512.numel
  slices_S16x1024_S1x1024_0_0 : S16x1024.Slices ![0, 0] S1x1024
  slices_S16x512_S1x512_0_0 : S16x512.Slices ![0, 0] S1x512
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S512x2048_S1x512_1_1_0_0_n_n_wf : DotDims.WF S1x2048 S512x2048 S1x512 [1] [1] [0] [0] [] []
  dot_S1x512_S512x1024_S1x1024_1_0_0_1_n_n_wf : DotDims.WF S1x512 S512x1024 S1x1024 [1] [0] [0] [1] [] []
  dot_S1x2048_S1024x2048_S1x1024_1_1_0_0_n_n_wf : DotDims.WF S1x2048 S1024x2048 S1x1024 [1] [1] [0] [0] [] []
  dot_S1x1024_S3072x1024_S1x3072_1_1_0_0_n_n_wf : DotDims.WF S1x1024 S3072x1024 S1x3072 [1] [1] [0] [0] [] []
  dot_S1x1024_S2048x1024_S1x2048_1_1_0_0_n_n_wf : DotDims.WF S1x1024 S2048x1024 S1x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3072x1024.size a ≤ S3072x1024.size a
  hwx0_7 : ∀ i : grid0.Coords, EltTy.bits .f32 = 32 ∨ (Rect.block (s := S3072x1024) S3072x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3072x1024.size a ≤ S3072x1024.size a
  hwx0_8 : ∀ i : grid0.Coords, EltTy.bits .f32 = 32 ∨ (Rect.block (s := S3072x1024) S3072x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3072.size a ≤ S3072.size a
  hwx0_9 : ∀ i : grid0.Coords, EltTy.bits .f32 = 32 ∨ (Rect.block (s := S3072) S3072.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3072.size a ≤ S3072.size a
  hwx0_10 : ∀ i : grid0.Coords, EltTy.bits .f32 = 32 ∨ (Rect.block (s := S3072) S3072.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hstart0_11 : ∀ (i : grid0.Coords) a, cc0_transform_11 i a * S2048x1024.size a < S50257x1024.size a
  hwx0_11 : ∀ i : grid0.Coords, EltTy.bits .f32 = 32 ∨ (Rect.unit (s := S50257x1024) (fun a => cc0_transform_11 i a * S2048x1024.size a) (fun a => (Pipeline.Clip.of (cc0_transform_11 i a) (S2048x1024.size a) (S50257x1024.size a)).extent (S2048x1024.size a)) fun a => Pipeline.Clip.inb (Pipeline.Clip.ok_of (hstart0_11 i a))).WholeWords (EltTy.packing .f32)
  hwxs0_11 : ∀ i : grid0.Coords, EltTy.bits .f32 = 32 ∨ (Rect.unit (s := S2048x1024) (fun _ => 0) (fun a => (Pipeline.Clip.of (cc0_transform_11 i a) (S2048x1024.size a) (S50257x1024.size a)).extent (S2048x1024.size a)) fun a => (Nat.zero_add _).trans_le (Pipeline.Clip.extent_le (Pipeline.Clip.ok_of (hstart0_11 i a)))).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hstart0_12 : ∀ (i : grid0.Coords) a, cc0_transform_12 i a * S2048.size a < S50257.size a
  hwx0_12 : ∀ i : grid0.Coords, EltTy.bits .f32 = 32 ∨ (Rect.unit (s := S50257) (fun a => cc0_transform_12 i a * S2048.size a) (fun a => (Pipeline.Clip.of (cc0_transform_12 i a) (S2048.size a) (S50257.size a)).extent (S2048.size a)) fun a => Pipeline.Clip.inb (Pipeline.Clip.ok_of (hstart0_12 i a))).WholeWords (EltTy.packing .f32)
  hwxs0_12 : ∀ i : grid0.Coords, EltTy.bits .f32 = 32 ∨ (Rect.unit (s := S2048) (fun _ => 0) (fun a => (Pipeline.Clip.of (cc0_transform_12 i a) (S2048.size a) (S50257.size a)).extent (S2048.size a)) fun a => (Nat.zero_add _).trans_le (Pipeline.Clip.extent_le (Pipeline.Clip.ok_of (hstart0_12 i a)))).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hstart0_13 : ∀ (i : grid0.Coords) a, cc0_transform_13 i a * S1x2048.size a < S1x50257.size a
  hwx0_13 : ∀ i : grid0.Coords, EltTy.bits .f32 = 32 ∨ (Rect.unit (s := S1x50257) (fun a => cc0_transform_13 i a * S1x2048.size a) (fun a => (Pipeline.Clip.of (cc0_transform_13 i a) (S1x2048.size a) (S1x50257.size a)).extent (S1x2048.size a)) fun a => Pipeline.Clip.inb (Pipeline.Clip.ok_of (hstart0_13 i a))).WholeWords (EltTy.packing .f32)
  hwxs0_13 : ∀ i : grid0.Coords, EltTy.bits .f32 = 32 ∨ (Rect.unit (s := S1x2048) (fun _ => 0) (fun a => (Pipeline.Clip.of (cc0_transform_13 i a) (S1x2048.size a) (S1x50257.size a)).extent (S1x2048.size a)) fun a => (Nat.zero_add _).trans_le (Pipeline.Clip.extent_le (Pipeline.Clip.ok_of (hstart0_13 i a)))).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8x1024.size a ≤ S16x1024.size a
  hwx0_14 : ∀ i : grid0.Coords, EltTy.bits .f32 = 32 ∨ (Rect.block (s := S16x1024) S8x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S8x512.size a ≤ S16x512.size a
  hwx0_15 : ∀ i : grid0.Coords, EltTy.bits .f32 = 32 ∨ (Rect.block (s := S16x512) S8x512.size (cc0_transform_15 i) (hinb0_15 i)).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S512x2048_S1x512_1_1_0_0_n_n : DotDims S1x2048 S512x2048 S1x512 where
  lhsContracting := [1]
  rhsContracting := [1]
  lhsNonContracting := [0]
  rhsNonContracting := [0]
  lhsBatch := []
  rhsBatch := []
  wf := dot_S1x2048_S512x2048_S1x512_1_1_0_0_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x1024_S3072x1024_S1x3072_1_1_0_0_n_n : DotDims S1x1024 S3072x1024 S1x3072 where
  lhsContracting := [1]
  rhsContracting := [1]
  lhsNonContracting := [0]
  rhsNonContracting := [0]
  lhsBatch := []
  rhsBatch := []
  wf := dot_S1x1024_S3072x1024_S1x3072_1_1_0_0_n_n_wf
def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf

abbrev win0_0 : Pipeline.Window sig grid0 :=
  Pipeline.Window.ofSpec (Memref.whole main_v2) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S3072x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S3072x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S3072.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S3072.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpecClip (Memref.whole main_arg12) S2048x1024.size cc0_transform_11 reads0_11 false false 2 stage0_11 sem0_11
    hrank0 hreads0_11 hstart0_11 nbuf0_11 (Memref.isWhole_whole _) hwx0_11 hwxs0_11 hstage0_11

abbrev win0_12 : Pipeline.Window sig grid0 :=
  Pipeline.Window.ofSpecClip (Memref.whole main_arg13) S2048.size cc0_transform_12 reads0_12 false false 2 stage0_12 sem0_12
    hrank0 hreads0_12 hstart0_12 nbuf0_12 (Memref.isWhole_whole _) hwx0_12 hwxs0_12 hstage0_12

abbrev win0_13 : Pipeline.Window sig grid0 :=
  Pipeline.Window.ofSpecClip (Memref.whole main_v4_0) S1x2048.size cc0_transform_13 reads0_13 true false 2 stage0_13 sem0_13
    hrank0 hreads0_13 hstart0_13 nbuf0_13 (Memref.isWhole_whole _) hwx0_13 hwxs0_13 hstage0_13

abbrev win0_14 : Pipeline.Window sig grid0 :=
  Pipeline.Window.ofSpec (Memref.whole main_v4_1) S8x1024.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v4_2) S8x512.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x512 : Shape := ⟨2, ![2048, 512]⟩
abbrev S1x512 : Shape := ⟨2, ![1, 512]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 115
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S1x1024, .f32⟩
  | .hbm, ⟨26, _⟩ => ⟨S1x2048, .f32⟩
  | .hbm, ⟨27, _⟩ => ⟨S2048x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1x1, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S1, .f32⟩
  | .hbm, ⟨42, _⟩ => ⟨S1x1, .f32⟩
  | .hbm, ⟨43, _⟩ => ⟨S1x512, .f32⟩
  | .hbm, ⟨44, _⟩ => ⟨S1x512, .f32⟩
  | .hbm, ⟨45, _⟩ => ⟨S1x1024, .f32⟩
  | .hbm, ⟨46, _⟩ => ⟨S1x2048, .f32⟩
  | .hbm, ⟨47, _⟩ => ⟨S2048x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S1024x3072, .f32⟩
  | .hbm, ⟨55, _⟩ => ⟨S1x3072, .f32⟩
  | .hbm, ⟨56, _⟩ => ⟨S1x3072, .f32⟩
  | .hbm, ⟨57, _⟩ => ⟨S1x3072, .f32⟩
  | .hbm, ⟨58, _⟩ => ⟨S1024x3072, .f32⟩
  | .hbm, ⟨59, _⟩ => ⟨S1x3072, .f32⟩
  | .hbm, ⟨60, _⟩ => ⟨S1x3072, .f32⟩
  | .hbm, ⟨61, _⟩ => ⟨S1x3072, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S_, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S1024x50257, .f32⟩
  | .hbm, ⟨96, _⟩ => ⟨S1x50257, .f32⟩
  | .hbm, ⟨97, _⟩ => ⟨S1x50257, .f32⟩
  | .hbm, ⟨98, _⟩ => ⟨S1x50257, .f32⟩
  | .hbm, ⟨99, _⟩ => ⟨S_, .f32⟩
  | .hbm, ⟨100, _⟩ => ⟨S1, .f32⟩
  | .hbm, ⟨101, _⟩ => ⟨S_, .f32⟩
  | .hbm, ⟨102, _⟩ => ⟨S1, .f32⟩
  | .hbm, ⟨103, _⟩ => ⟨S1, .f32⟩
  | .hbm, ⟨104, _⟩ => ⟨S1x1, .f32⟩
  | .hbm, ⟨105, _⟩ => ⟨S1x50257, .f32⟩
  | .hbm, ⟨106, _⟩ => ⟨S1x50257, .f32⟩
  | .hbm, ⟨107, _⟩ => ⟨S1x50257, .f32⟩
  | .hbm, ⟨108, _⟩ => ⟨S_, .f32⟩
  | .hbm, ⟨109, _⟩ => ⟨S1, .f32⟩
  | .hbm, ⟨110, _⟩ => ⟨S1x1, .f32⟩
  | .hbm, ⟨111, _⟩ => ⟨S1x1, .f32⟩
  | .hbm, ⟨112, _⟩ => ⟨S1x50257, .f32⟩
  | .hbm, ⟨113, _⟩ => ⟨S1x50257, .f32⟩
  | .hbm, ⟨114, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call0_cst : Ref sig .tc := ⟨.hbm, 51, rfl⟩
abbrev main_call0_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_3 : Ref sig .tc := ⟨.hbm, 71, rfl⟩
abbrev main_v50 : Ref sig .tc := ⟨.hbm, 72, rfl⟩
abbrev main_v51 : Ref sig .tc := ⟨.hbm, 73, rfl⟩
abbrev main_cst_4 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_5 : Ref sig .tc := ⟨.hbm, 80, rfl⟩
abbrev main_v57 : Ref sig .tc := ⟨.hbm, 81, rfl⟩
abbrev main_v58 : Ref sig .tc := ⟨.hbm, 82, rfl⟩
abbrev main_cst_6 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_7 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_call1_cst : Ref sig .tc := ⟨.hbm, 99, rfl⟩
abbrev main_call1_v0 : Ref sig .tc := ⟨.hbm, 100, rfl⟩
abbrev main_call1_cst_0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_cst_1 : Ref sig .tc := ⟨.hbm, 108, rfl⟩
abbrev main_call1_v7 : Ref sig .tc := ⟨.hbm, 109, rfl⟩
abbrev main_call1_v8 : Ref sig .tc := ⟨.hbm, 110, rfl⟩
abbrev main_call1_v9 : Ref sig .tc := ⟨.hbm, 111, rfl⟩
abbrev main_call1_v10 : Ref sig .tc := ⟨.hbm, 112, rfl⟩
abbrev main_v73 : Ref sig .tc := ⟨.hbm, 113, rfl⟩
abbrev main_v74 : Ref sig .tc := ⟨.hbm, 114, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1024_S1x1x1024 : S1x1024.ShapeCasts S1x1x1024
  shapeCasts_S1x1x1024_S1x1024 : S1x1x1024.ShapeCasts S1x1024
  concatenates_S1x1024_S1x1024_S1x2048_d1 : Shape.Concatenates [S1x1024, S1x1024] S1x2048 1
  transposes_S512x2048_S2048x512_1_0 : S512x2048.Transposes [1, 0] S2048x512
  bcast_S512_S1x512_1 : S512.BroadcastsInDim S1x512 (![1] : Fin 1 → Fin S1x512.rank)
  reducesTo_S1x512_S1_d1 : S1x512.ReducesTo [1] S1
  h_S_ : 0 < S_.numel
  bcast_S1x1_S1x512_0_1 : S1x1.BroadcastsInDim S1x512 (![0, 1] : Fin 2 → Fin S1x512.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x512_S1x512_1_0_0_1_n_n_wf : DotDims.WF S1x2048 S2048x512 S1x512 [1] [0] [0] [1] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.K.Runs.lean ====
import proofs.«416905_j23579370455621_3_alg».proof.Proof.Gen.Kernel.Frame
import proofs.«416905_j23579370455621_3_alg».proof.Proof.Gen.Kernel.Skeleton
import Idealize.ShloMosaic.Lib.Pipeline.Value

/-! The kernel body run once on arbitrary whole staging buffers, in its two control cases: at a core's
first tile (the decoder step is computed, kept in the two scratch rows, and used) and at every later
tile (the scratch rows are read back). Each case is stated with what every buffer holds afterwards as
a named function of what the input buffers held. -/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The new hidden state as the body computes it from the eleven decoder operands' buffers
    (e0, h0, encoder outputs, attention weight and bias, combine weight and bias, W_ih, W_hh, b_ih, b_hh). -/
def hnOf (x0 : Vec F S1x1024 .f32) (x1 : Vec F S1x1024 .f32) (x2 : Vec F S512x1024 .f32) (x3 : Vec F S512x2048 .f32) (x4 : Vec F S512 .f32)
    (x5 : Vec F S1024x2048 .f32) (x6 : Vec F S1024 .f32) (x7 : Vec F S3072x1024 .f32) (x8 : Vec F S3072x1024 .f32) (x9 : Vec F S3072 .f32)
    (x10 : Vec F S3072 .f32) : FVec F S1x1024 .f32 :=
  k0_pay1 (k0_pay7 x1) (k0_pay9 x0 x1 x3 x4 x2 x5 x6 x7 x9) x8 x10

/-- The attention weights as the body computes them. -/
def awOf (x0 : Vec F S1x1024 .f32) (x1 : Vec F S1x1024 .f32) (x3 : Vec F S512x2048 .f32) (x4 : Vec F S512 .f32) : FVec F S1x512 .f32 :=
  k0_pay2 (k0_pay8 x0 x1 x3 x4)

/-- The body's branch condition: the tile coordinate is 0. -/
abbrev condA (i : grid0.Coords) : Prop := (Scalar.cmpi .ne (Scalar.extui (Scalar.cmpi .eq (BitVec.ofNat 32 (i 1).val) 0#32)) 0#32) = 1#1

/-- The two-coordinate and one-coordinate zero offsets, as constant functions. -/
theorem hz2 : (![0, 0] : Fin 2 → ℕ) = fun _ => 0 := by funext a; fin_cases a <;> rfl
theorem hz1 : (![0] : Fin 1 → ℕ) = fun _ => 0 := by funext a; fin_cases a; rfl

/-- One store through the whole-shape rectangle at zero offsets leaves its payload, whatever the buffer held. -/
theorem read_store_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

/-- A load through the whole-shape rectangle at zero offsets of a whole memref held at contents `X` reads `X`. -/
theorem readAt_unread {sp : Space} {S : Shape} {e : EltTy} {m : Memref sig .tc sp S e} (hm : m.IsWhole)
    {off : Fin S.rank → ℕ} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

/-- It holds exactly at each core's first tile: points 0 and 13 of the 26. -/
theorem hcondA : ∀ t : Fin cfg0.N, condA (grid0.coords t) ↔ t.val % 13 = 0 :=
  (by decide +kernel : ∀ t : Fin grid0.N, condA (grid0.coords t) ↔ t.val % 13 = 0)

set_option maxHeartbeats 4000000 in
/-- First tile of a core: whatever the output and scratch buffers held, the body leaves the scratch rows at the
    decoder step's results and the three output buffers at the logits tile and the two broadcasts. -/
theorem runA (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512 .f32) (harg6 : arg6.IsWhole) (arg7 : Memref sig .tc .vmem S1024x2048 .f32) (harg7 : arg7.IsWhole) (arg8 : Memref sig .tc .vmem S1024 .f32) (harg8 : arg8.IsWhole) (arg9 : Memref sig .tc .vmem S3072x1024 .f32) (harg9 : arg9.IsWhole) (arg10 : Memref sig .tc .vmem S3072x1024 .f32) (harg10 : arg10.IsWhole) (arg11 : Memref sig .tc .vmem S3072 .f32) (harg11 : arg11.IsWhole) (arg12 : Memref sig .tc .vmem S3072 .f32) (harg12 : arg12.IsWhole) (arg13 : Memref sig .tc .vmem S2048x1024 .f32) (harg13 : arg13.IsWhole) (arg14 : Memref sig .tc .vmem S2048 .f32) (harg14 : arg14.IsWhole) (arg15 : Memref sig .tc .vmem S1x2048 .f32) (harg15 : arg15.IsWhole) (arg16 : Memref sig .tc .vmem S8x1024 .f32) (harg16 : arg16.IsWhole) (arg17 : Memref sig .tc .vmem S8x512 .f32) (harg17 : arg17.IsWhole) (arg18 : Memref sig .tc .vmem S1x1024 .f32) (harg18 : arg18.IsWhole) (arg19 : Memref sig .tc .vmem S1x512 .f32) (harg19 : arg19.IsWhole) (hc : condA i)
    (x0 : Vec F S1x1024 .f32) (x1 : Vec F S1x1024 .f32) (x2 : Vec F S512x1024 .f32) (x3 : Vec F S512x2048 .f32) (x4 : Vec F S512 .f32) (x5 : Vec F S1024x2048 .f32) (x6 : Vec F S1024 .f32) (x7 : Vec F S3072x1024 .f32) (x8 : Vec F S3072x1024 .f32) (x9 : Vec F S3072 .f32) (x10 : Vec F S3072 .f32) (x11 : Vec F S2048x1024 .f32) (x12 : Vec F S2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
        ∗ (∃ d, owns (c : Thread nD τ) arg15 fullShare d) ∗ (∃ d, owns (c : Thread nD τ) arg16 fullShare d) ∗ (∃ d, owns (c : Thread nD τ) arg17 fullShare d)
        ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
            ∗ owns (c : Thread nD τ) arg15 fullShare (k0_pay3 (hnOf x0 x1 x2 x3 x4 x5 x6 x7 x8 x9 x10) x11 x12)
            ∗ owns (c : Thread nD τ) arg16 fullShare (k0_pay4 (hnOf x0 x1 x2 x3 x4 x5 x6 x7 x8 x9 x10))
            ∗ owns (c : Thread nD τ) arg17 fullShare (k0_pay5 (awOf x0 x1 x3 x4))
            ∗ owns (c : Thread nD τ) arg18 fullShare (hnOf x0 x1 x2 x3 x4 x5 x6 x7 x8 x9 x10)
            ∗ owns (c : Thread nD τ) arg19 fullShare (awOf x0 x1 x3 x4)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr
    rotate_left
    · iexact H13
    · ipureintro
      unfold hnOf; sl_unfold_run_names
      rw [read_store_whole _ _ hz2, View.readCov_unit_zero (S := S1x1024) _ hz2, readAt_unread harg3 hz2, readAt_unread harg2 hz2, readAt_unread harg5 hz2, readAt_unread harg6 hz1, readAt_unread harg4 hz2, readAt_unread harg7 hz2, readAt_unread harg8 hz1, readAt_unread harg9 hz2, readAt_unread harg11 hz1, readAt_unread harg10 hz2, readAt_unread harg12 hz1, readAt_unread harg13 hz2, readAt_unread harg14 hz1]
  isplitl [H14]
  · iexists _; isplitr
    rotate_left
    · iexact H14
    · ipureintro
      unfold hnOf; sl_unfold_run_names
      rw [read_store_whole _ _ hz2, View.readCov_unit_zero (S := S1x1024) _ hz2, readAt_unread harg3 hz2, readAt_unread harg2 hz2, readAt_unread harg5 hz2, readAt_unread harg6 hz1, readAt_unread harg4 hz2, readAt_unread harg7 hz2, readAt_unread harg8 hz1, readAt_unread harg9 hz2, readAt_unread harg11 hz1, readAt_unread harg10 hz2, readAt_unread harg12 hz1]
  isplitl [H15]
  · iexists _; isplitr
    rotate_left
    · iexact H15
    · ipureintro
      unfold awOf; sl_unfold_run_names
      rw [read_store_whole _ _ hz2, View.readCov_unit_zero (S := S1x512) _ hz2, readAt_unread harg2 hz2, readAt_unread harg3 hz2, readAt_unread harg5 hz2, readAt_unread harg6 hz1]
  isplitl [H16]
  · iexists _; isplitr
    rotate_left
    · iexact H16
    · ipureintro
      unfold hnOf; sl_unfold_run_names
      rw [read_store_whole _ _ hz2, readAt_unread harg3 hz2, readAt_unread harg2 hz2, readAt_unread harg5 hz2, readAt_unread harg6 hz1, readAt_unread harg4 hz2, readAt_unread harg7 hz2, readAt_unread harg8 hz1, readAt_unread harg9 hz2, readAt_unread harg11 hz1, readAt_unread harg10 hz2, readAt_unread harg12 hz1]
  · iexists _; isplitr
    rotate_left
    · iexact H17
    · ipureintro
      unfold awOf; sl_unfold_run_names
      rw [read_store_whole _ _ hz2, readAt_unread harg2 hz2, readAt_unread harg3 hz2, readAt_unread harg5 hz2, readAt_unread harg6 hz1]

set_option maxHeartbeats 4000000 in
/-- A later tile: the scratch rows hold `s0` and `s1`; the body leaves them there and the three output buffers at
    the logits tile and the two broadcasts of them. -/
theorem runB (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512 .f32) (harg6 : arg6.IsWhole) (arg7 : Memref sig .tc .vmem S1024x2048 .f32) (harg7 : arg7.IsWhole) (arg8 : Memref sig .tc .vmem S1024 .f32) (harg8 : arg8.IsWhole) (arg9 : Memref sig .tc .vmem S3072x1024 .f32) (harg9 : arg9.IsWhole) (arg10 : Memref sig .tc .vmem S3072x1024 .f32) (harg10 : arg10.IsWhole) (arg11 : Memref sig .tc .vmem S3072 .f32) (harg11 : arg11.IsWhole) (arg12 : Memref sig .tc .vmem S3072 .f32) (harg12 : arg12.IsWhole) (arg13 : Memref sig .tc .vmem S2048x1024 .f32) (harg13 : arg13.IsWhole) (arg14 : Memref sig .tc .vmem S2048 .f32) (harg14 : arg14.IsWhole) (arg15 : Memref sig .tc .vmem S1x2048 .f32) (harg15 : arg15.IsWhole) (arg16 : Memref sig .tc .vmem S8x1024 .f32) (harg16 : arg16.IsWhole) (arg17 : Memref sig .tc .vmem S8x512 .f32) (harg17 : arg17.IsWhole) (arg18 : Memref sig .tc .vmem S1x1024 .f32) (harg18 : arg18.IsWhole) (arg19 : Memref sig .tc .vmem S1x512 .f32) (harg19 : arg19.IsWhole) (hc : ¬condA i)
    (x0 : Vec F S1x1024 .f32) (x1 : Vec F S1x1024 .f32) (x2 : Vec F S512x1024 .f32) (x3 : Vec F S512x2048 .f32) (x4 : Vec F S512 .f32) (x5 : Vec F S1024x2048 .f32) (x6 : Vec F S1024 .f32) (x7 : Vec F S3072x1024 .f32) (x8 : Vec F S3072x1024 .f32) (x9 : Vec F S3072 .f32) (x10 : Vec F S3072 .f32) (x11 : Vec F S2048x1024 .f32) (x12 : Vec F S2048 .f32) (s0 : Vec F S1x1024 .f32) (s1 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
        ∗ (∃ d, owns (c : Thread nD τ) arg15 fullShare d) ∗ (∃ d, owns (c : Thread nD τ) arg16 fullShare d) ∗ (∃ d, owns (c : Thread nD τ) arg17 fullShare d)
        ∗ owns (c : Thread nD τ) arg18 fullShare s0 ∗ owns (c : Thread nD τ) arg19 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
            ∗ owns (c : Thread nD τ) arg15 fullShare (k0_pay3 s0 x11 x12)
            ∗ owns (c : Thread nD τ) arg16 fullShare (k0_pay4 s0)
            ∗ owns (c : Thread nD τ) arg17 fullShare (k0_pay5 s1)
            ∗ owns (c : Thread nD τ) arg18 fullShare s0
            ∗ owns (c : Thread nD τ) arg19 fullShare s1) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg18.eq_unread hf16; obtain rfl := harg19.eq_unread hf17
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr
    rotate_left
    · iexact H13
    · ipureintro
      rw [read_store_whole _ _ hz2, readAt_unread harg18 hz2, readAt_unread harg13 hz2, readAt_unread harg14 hz1]
  isplitl [H14]
  · iexists _; isplitr
    rotate_left
    · iexact H14
    · ipureintro
      rw [read_store_whole _ _ hz2, readAt_unread harg18 hz2]
  isplitl [H15]
  · iexists _; isplitr
    rotate_left
    · iexact H15
    · ipureintro
      rw [read_store_whole _ _ hz2, readAt_unread harg19 hz2]
  isplitl [H16]
  · iexists _; isplitr; · ipureintro; exact harg18.read_unread _
    iexact H16
  · iexists _; isplitr; · ipureintro; exact harg19.read_unread _
    iexact H17

end Cert.Kernel.Body

end
-- ==== Proof.K.Frame.lean ====
import proofs.«416905_j23579370455621_3_alg».proof.Proof.K.Runs

/-! The word-level kernel's frame: it runs to the end, faults nowhere, and leaves its argument arrays unchanged.
Nothing is claimed of what the buffers hold: every window's buffer and both scratch rows are handed to the body
at whatever they hold and taken back at whatever it leaves. -/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten: nothing is said of what any staging buffer holds. -/
def forgetsAll : Fin 16 → Bool := fun _ => true

/-- The proof data on core `c`: the arrays as the region finds them; nothing named of any buffer. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- The class invariant with the two scratch rows as whole memrefs owned at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at point `t`: the class invariant, what the core owes, and every window's
    current staging buffer at whatever it holds. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d)
    ∗ (∃ d, owns (c : Thread nD τ) (win0_14.stage (cfg0.slots t 14)) fullShare d)
    ∗ (∃ d, owns (c : Thread nD τ) (win0_15.stage (cfg0.slots t 15)) fullShare d))

/-- What it returns: the same, every buffer at whatever the body left. -/
def bodyPost (c : Dev nD) (t : Fin cfg0.N) : sProp 𝕄 :=
  iprop((dats m 0 c).Φ t.succ ∗ (dats m 0 c).owesAt () t.succ
    ∗ (∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d)
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d)
    ∗ (∃ d, owns (c : Thread nD τ) (win0_14.stage (cfg0.slots t 14)) fullShare d)
    ∗ (∃ d, owns (c : Thread nD τ) (win0_15.stage (cfg0.slots t 15)) fullShare d))

/-- The body at any point, from any contents to some contents: at a core's first tile by the first case's run,
    at a later tile by the second's; the invariant's scratch rows go in at what they hold and come back at what
    the body leaves; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl, PhiA0_eq]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, H15⟩
  by_cases h : t.val % 13 = 0
  · iapply (runA (F := F) c (grid0.coords t) _ _ _ _ _ _ _ _ _ _ _ _ _ _ _ _ _ _ _ _ _ _ _ _ _ _ _ _ _ _ _ _ _ _ _ _ ((hcondA t).mpr h) d0 d1 d2 d3 d4 d5 d6 d7 d8 d9 d10 d11 d12 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS0]; · iexists _; iexact HS0
    isplitl [HS1]; · iexists _; iexact HS1
    iintro ⟨H0, H1, H2, H3, H4, H5, H6, H7, H8, H9, H10, H11, H12, H13, H14, H15, HS0, HS1⟩
    isplitl [HS0 HS1 Hg]
    · isplitl [HS0 HS1]
      · isplitl [HS0]
        · iexists _; iexact HS0
        · iexists _; iexact HS1
      · iexact Hg
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15
  · iapply (runB (F := F) c (grid0.coords t) _ _ _ _ _ _ _ _ _ _ _ _ _ _ _ _ _ _ _ _ _ _ _ _ _ _ _ _ _ _ _ _ _ _ _ _ (fun hc => h ((hcondA t).mp hc)) d0 d1 d2 d3 d4 d5 d6 d7 d8 d9 d10 d11 d12 s0 s1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    iintro ⟨H0, H1, H2, H3, H4, H5, H6, H7, H8, H9, H10, H11, H12, H13, H14, H15, HS0, HS1⟩
    isplitl [HS0 HS1 Hg]
    · isplitl [HS0 HS1]
      · isplitl [HS0]
        · iexists _; iexact HS0
        · iexists _; iexact HS1
      · iexact Hg
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

/-- The body obligation with every window forgotten, at every point. -/
theorem body_obligation (c : Dev nD) : BodyObligationLoose (dats (F := F) m 0 c) (defs₀ (F := F)) Variants.none () Set.univ forgetsAll := fun t => by
  rw [bigSep_W0, bigSep_W0]
  exact sound_body m c t

/-! ## The run and the frame -/

/-- The buffers the host lines after the region write: each line's own result. -/
def tailW : Finset (Ref sig .tc) :=
  {main_v5, main_v6, main_call1_cst, main_call1_v0, main_call1_cst_0, main_call1_v1, main_call1_v2, main_call1_v3,
    main_call1_v4, main_call1_v5, main_call1_v6, main_call1_cst_1, main_call1_v7, main_call1_v8, main_call1_v9,
    main_call1_v10, main_v7, main_v8}

set_option maxHeartbeats 576000 in
/-- Every line after the region writes a buffer of `tailW` only. -/
theorem tail_writes : ∀ ops ∈ ([hostOps1, hostOps1_1, hostOps1_2] : List (List (HloOp τ sig (Elt F)))), ∀ op ∈ ops,
    ∀ b : Ref sig .tc, Proc.devRef .tc b ∈ op.writes → b ∈ tailW := by
  intro ops hops op hop
  simp only [List.mem_cons, List.mem_nil_iff, or_false] at hops
  rcases hops with rfl | rfl | rfl
  · simp only [hostOps1, List.mem_cons, List.mem_nil_iff, or_false] at hop
    rcases hop with rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      decide
  · simp only [hostOps1_1, List.mem_cons, List.mem_nil_iff, or_false] at hop
    rcases hop with rfl | rfl | rfl | rfl | rfl | rfl | rfl | rfl | rfl | rfl | rfl | rfl | rfl | rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      decide
  · simp only [hostOps1_2, List.mem_cons, List.mem_nil_iff, or_false] at hop
    rcases hop with rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      decide

set_option backward.isDefEq.respectTransparency.types false in
/-- From any memory with zero counters every weakly fair execution of the program on the TensorCores terminates, and
    every final state has each input window's array at its region-entry contents and every unscoped buffer that no
    window stages and no later host line writes at its region-entry contents. -/
theorem run_main : θ_run defs (onTc (τ := τ) (main (F := F))) (s₀ m ρ)
    (Pipeline.RDat.FramePostR (cfgs 0) (fun c => (dats m 0 c).toRForget forgetsAll) tailW (fun c b => V0 m c (Proc.devRef .tc b))) :=
  Pipeline.RDat.θ_run_frame_around_T cfgs (0 : Fin 1) launch0 defs₀ Variants.none (fun c => (dats m 0 c).toRForget forgetsAll) tailW m ρ main
    (hbody := fun c => (body_obligation m c).toRForget) (hshare := fun c => ((dats m 0 c).toRForget forgetsAll).share_full fun _ => rfl)
    (howed := fun _ _ => rfl) (V₀ := V0 m) (opss := [hostOps1, hostOps1_1, hostOps1_2]) (hsub := sfx_sub) (hfresh := sfx_fresh)
    (hkeep := sfx_keeps) (hT := tail_writes) (hmain := hmain m Variants.none) (hA := A_eq m) (hΦ := fun _ _ => rfl)

set_option maxHeartbeats 2000000 in
/-- The frame claim of the word-level kernel, at any float instance. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono ?_ (run_main m ρ)
  intro r h c
  have hr : ∀ b : Ref sig .tc, b ∈ Pipeline.restRefs sig (cfgs 0).spec → b ∉ tailW →
      r.2.mem ((c.tc : Thread nD τ).loc b) = V0 m c (Proc.devRef .tc b) :=
    fun b h1 h2 => (h c).2 b (Finset.mem_sdiff.mpr ⟨h1, h2⟩)
  refine ⟨?_, ?_, ?_, ?_, ?_, ?_, ?_, ?_, ?_, ?_, ?_, ?_, ?_, ?_⟩
  · exact (hr main_arg0 (Pipeline.mem_restRefs_of main_arg0 (by decide) (by decide)) (by decide)).trans (V_main_arg0 m c)
  · exact (hr main_arg1 (Pipeline.mem_restRefs_of main_arg1 (by decide) (by decide)) (by decide)).trans (V_main_arg1 m c)
  · exact (Pipeline.RDat.FramePostR.arr_in h c 2 rfl).trans ((A_eq m c 2).trans (V_main_arg2 m c))
  · exact (hr main_arg3 (Pipeline.mem_restRefs_of main_arg3 (by decide) (by decide)) (by decide)).trans (V_main_arg3 m c)
  · exact (Pipeline.RDat.FramePostR.arr_in h c 3 rfl).trans ((A_eq m c 3).trans (V_main_arg4 m c))
  · exact (Pipeline.RDat.FramePostR.arr_in h c 4 rfl).trans ((A_eq m c 4).trans (V_main_arg5 m c))
  · exact (Pipeline.RDat.FramePostR.arr_in h c 5 rfl).trans ((A_eq m c 5).trans (V_main_arg6 m c))
  · exact (Pipeline.RDat.FramePostR.arr_in h c 6 rfl).trans ((A_eq m c 6).trans (V_main_arg7 m c))
  · exact (Pipeline.RDat.FramePostR.arr_in h c 7 rfl).trans ((A_eq m c 7).trans (V_main_arg8 m c))
  · exact (Pipeline.RDat.FramePostR.arr_in h c 8 rfl).trans ((A_eq m c 8).trans (V_main_arg9 m c))
  · exact (Pipeline.RDat.FramePostR.arr_in h c 9 rfl).trans ((A_eq m c 9).trans (V_main_arg10 m c))
  · exact (Pipeline.RDat.FramePostR.arr_in h c 10 rfl).trans ((A_eq m c 10).trans (V_main_arg11 m c))
  · exact (Pipeline.RDat.FramePostR.arr_in h c 11 rfl).trans ((A_eq m c 11).trans (V_main_arg12 m c))
  · exact (Pipeline.RDat.FramePostR.arr_in h c 12 rfl).trans ((A_eq m c 12).trans (V_main_arg13 m c))

end Cert.Kernel.Body

end
-- ==== Proof.KI.Runs.lean ====
import proofs.«416905_j23579370455621_3_alg».proof.Proof.Gen.KernelIdeal.Frame
import proofs.«416905_j23579370455621_3_alg».proof.Proof.Gen.KernelIdeal.Skeleton
import Idealize.ShloMosaic.Lib.Pipeline.Value

/-! The kernel body run once on arbitrary whole staging buffers, in its two control cases: at a core's
first tile (the decoder step is computed, kept in the two scratch rows, and used) and at every later
tile (the scratch rows are read back). Each case is stated with what every buffer holds afterwards as
a named function of what the input buffers held. -/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The new hidden state as the body computes it from the eleven decoder operands' buffers
    (e0, h0, encoder outputs, attention weight and bias, combine weight and bias, W_ih, W_hh, b_ih, b_hh). -/
def hnOf (x0 : Vec F S1x1024 .f32) (x1 : Vec F S1x1024 .f32) (x2 : Vec F S512x1024 .f32) (x3 : Vec F S512x2048 .f32) (x4 : Vec F S512 .f32)
    (x5 : Vec F S1024x2048 .f32) (x6 : Vec F S1024 .f32) (x7 : Vec F S3072x1024 .f32) (x8 : Vec F S3072x1024 .f32) (x9 : Vec F S3072 .f32)
    (x10 : Vec F S3072 .f32) : FVec F S1x1024 .f32 :=
  k0_pay1 (k0_pay7 x1) (k0_pay9 x0 x1 x3 x4 x2 x5 x6 x7 x9) x8 x10

/-- The attention weights as the body computes them. -/
def awOf (x0 : Vec F S1x1024 .f32) (x1 : Vec F S1x1024 .f32) (x3 : Vec F S512x2048 .f32) (x4 : Vec F S512 .f32) : FVec F S1x512 .f32 :=
  k0_pay2 (k0_pay8 x0 x1 x3 x4)

/-- The body's branch condition: the tile coordinate is 0. -/
abbrev condA (i : grid0.Coords) : Prop := (Scalar.cmpi .ne (Scalar.extui (Scalar.cmpi .eq (BitVec.ofNat 32 (i 1).val) 0#32)) 0#32) = 1#1

/-- The two-coordinate and one-coordinate zero offsets, as constant functions. -/
theorem hz2 : (![0, 0] : Fin 2 → ℕ) = fun _ => 0 := by funext a; fin_cases a <;> rfl
theorem hz1 : (![0] : Fin 1 → ℕ) = fun _ => 0 := by funext a; fin_cases a; rfl

/-- One store through the whole-shape rectangle at zero offsets leaves its payload, whatever the buffer held. -/
theorem read_store_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

/-- A load through the whole-shape rectangle at zero offsets of a whole memref held at contents `X` reads `X`. -/
theorem readAt_unread {sp : Space} {S : Shape} {e : EltTy} {m : Memref sig .tc sp S e} (hm : m.IsWhole)
    {off : Fin S.rank → ℕ} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

/-- It holds exactly at each core's first tile: points 0 and 13 of the 26. -/
theorem hcondA : ∀ t : Fin cfg0.N, condA (grid0.coords t) ↔ t.val % 13 = 0 :=
  (by decide +kernel : ∀ t : Fin grid0.N, condA (grid0.coords t) ↔ t.val % 13 = 0)

set_option maxHeartbeats 4000000 in
/-- First tile of a core: whatever the output and scratch buffers held, the body leaves the scratch rows at the
    decoder step's results and the three output buffers at the logits tile and the two broadcasts. -/
theorem runA (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512 .f32) (harg6 : arg6.IsWhole) (arg7 : Memref sig .tc .vmem S1024x2048 .f32) (harg7 : arg7.IsWhole) (arg8 : Memref sig .tc .vmem S1024 .f32) (harg8 : arg8.IsWhole) (arg9 : Memref sig .tc .vmem S3072x1024 .f32) (harg9 : arg9.IsWhole) (arg10 : Memref sig .tc .vmem S3072x1024 .f32) (harg10 : arg10.IsWhole) (arg11 : Memref sig .tc .vmem S3072 .f32) (harg11 : arg11.IsWhole) (arg12 : Memref sig .tc .vmem S3072 .f32) (harg12 : arg12.IsWhole) (arg13 : Memref sig .tc .vmem S2048x1024 .f32) (harg13 : arg13.IsWhole) (arg14 : Memref sig .tc .vmem S2048 .f32) (harg14 : arg14.IsWhole) (arg15 : Memref sig .tc .vmem S1x2048 .f32) (harg15 : arg15.IsWhole) (arg16 : Memref sig .tc .vmem S8x1024 .f32) (harg16 : arg16.IsWhole) (arg17 : Memref sig .tc .vmem S8x512 .f32) (harg17 : arg17.IsWhole) (arg18 : Memref sig .tc .vmem S1x1024 .f32) (harg18 : arg18.IsWhole) (arg19 : Memref sig .tc .vmem S1x512 .f32) (harg19 : arg19.IsWhole) (hc : condA i)
    (x0 : Vec F S1x1024 .f32) (x1 : Vec F S1x1024 .f32) (x2 : Vec F S512x1024 .f32) (x3 : Vec F S512x2048 .f32) (x4 : Vec F S512 .f32) (x5 : Vec F S1024x2048 .f32) (x6 : Vec F S1024 .f32) (x7 : Vec F S3072x1024 .f32) (x8 : Vec F S3072x1024 .f32) (x9 : Vec F S3072 .f32) (x10 : Vec F S3072 .f32) (x11 : Vec F S2048x1024 .f32) (x12 : Vec F S2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
        ∗ (∃ d, owns (c : Thread nD τ) arg15 fullShare d) ∗ (∃ d, owns (c : Thread nD τ) arg16 fullShare d) ∗ (∃ d, owns (c : Thread nD τ) arg17 fullShare d)
        ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
            ∗ owns (c : Thread nD τ) arg15 fullShare (k0_pay3 (hnOf x0 x1 x2 x3 x4 x5 x6 x7 x8 x9 x10) x11 x12)
            ∗ owns (c : Thread nD τ) arg16 fullShare (k0_pay4 (hnOf x0 x1 x2 x3 x4 x5 x6 x7 x8 x9 x10))
            ∗ owns (c : Thread nD τ) arg17 fullShare (k0_pay5 (awOf x0 x1 x3 x4))
            ∗ owns (c : Thread nD τ) arg18 fullShare (hnOf x0 x1 x2 x3 x4 x5 x6 x7 x8 x9 x10)
            ∗ owns (c : Thread nD τ) arg19 fullShare (awOf x0 x1 x3 x4)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr
    rotate_left
    · iexact H13
    · ipureintro
      unfold hnOf; sl_unfold_run_names
      rw [read_store_whole _ _ hz2, View.readCov_unit_zero (S := S1x1024) _ hz2, readAt_unread harg3 hz2, readAt_unread harg2 hz2, readAt_unread harg5 hz2, readAt_unread harg6 hz1, readAt_unread harg4 hz2, readAt_unread harg7 hz2, readAt_unread harg8 hz1, readAt_unread harg9 hz2, readAt_unread harg11 hz1, readAt_unread harg10 hz2, readAt_unread harg12 hz1, readAt_unread harg13 hz2, readAt_unread harg14 hz1]
  isplitl [H14]
  · iexists _; isplitr
    rotate_left
    · iexact H14
    · ipureintro
      unfold hnOf; sl_unfold_run_names
      rw [read_store_whole _ _ hz2, View.readCov_unit_zero (S := S1x1024) _ hz2, readAt_unread harg3 hz2, readAt_unread harg2 hz2, readAt_unread harg5 hz2, readAt_unread harg6 hz1, readAt_unread harg4 hz2, readAt_unread harg7 hz2, readAt_unread harg8 hz1, readAt_unread harg9 hz2, readAt_unread harg11 hz1, readAt_unread harg10 hz2, readAt_unread harg12 hz1]
  isplitl [H15]
  · iexists _; isplitr
    rotate_left
    · iexact H15
    · ipureintro
      unfold awOf; sl_unfold_run_names
      rw [read_store_whole _ _ hz2, View.readCov_unit_zero (S := S1x512) _ hz2, readAt_unread harg2 hz2, readAt_unread harg3 hz2, readAt_unread harg5 hz2, readAt_unread harg6 hz1]
  isplitl [H16]
  · iexists _; isplitr
    rotate_left
    · iexact H16
    · ipureintro
      unfold hnOf; sl_unfold_run_names
      rw [read_store_whole _ _ hz2, readAt_unread harg3 hz2, readAt_unread harg2 hz2, readAt_unread harg5 hz2, readAt_unread harg6 hz1, readAt_unread harg4 hz2, readAt_unread harg7 hz2, readAt_unread harg8 hz1, readAt_unread harg9 hz2, readAt_unread harg11 hz1, readAt_unread harg10 hz2, readAt_unread harg12 hz1]
  · iexists _; isplitr
    rotate_left
    · iexact H17
    · ipureintro
      unfold awOf; sl_unfold_run_names
      rw [read_store_whole _ _ hz2, readAt_unread harg2 hz2, readAt_unread harg3 hz2, readAt_unread harg5 hz2, readAt_unread harg6 hz1]

set_option maxHeartbeats 4000000 in
/-- A later tile: the scratch rows hold `s0` and `s1`; the body leaves them there and the three output buffers at
    the logits tile and the two broadcasts of them. -/
theorem runB (c : Dev nD) (i : grid0.Coords) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512 .f32) (harg6 : arg6.IsWhole) (arg7 : Memref sig .tc .vmem S1024x2048 .f32) (harg7 : arg7.IsWhole) (arg8 : Memref sig .tc .vmem S1024 .f32) (harg8 : arg8.IsWhole) (arg9 : Memref sig .tc .vmem S3072x1024 .f32) (harg9 : arg9.IsWhole) (arg10 : Memref sig .tc .vmem S3072x1024 .f32) (harg10 : arg10.IsWhole) (arg11 : Memref sig .tc .vmem S3072 .f32) (harg11 : arg11.IsWhole) (arg12 : Memref sig .tc .vmem S3072 .f32) (harg12 : arg12.IsWhole) (arg13 : Memref sig .tc .vmem S2048x1024 .f32) (harg13 : arg13.IsWhole) (arg14 : Memref sig .tc .vmem S2048 .f32) (harg14 : arg14.IsWhole) (arg15 : Memref sig .tc .vmem S1x2048 .f32) (harg15 : arg15.IsWhole) (arg16 : Memref sig .tc .vmem S8x1024 .f32) (harg16 : arg16.IsWhole) (arg17 : Memref sig .tc .vmem S8x512 .f32) (harg17 : arg17.IsWhole) (arg18 : Memref sig .tc .vmem S1x1024 .f32) (harg18 : arg18.IsWhole) (arg19 : Memref sig .tc .vmem S1x512 .f32) (harg19 : arg19.IsWhole) (hc : ¬condA i)
    (x0 : Vec F S1x1024 .f32) (x1 : Vec F S1x1024 .f32) (x2 : Vec F S512x1024 .f32) (x3 : Vec F S512x2048 .f32) (x4 : Vec F S512 .f32) (x5 : Vec F S1024x2048 .f32) (x6 : Vec F S1024 .f32) (x7 : Vec F S3072x1024 .f32) (x8 : Vec F S3072x1024 .f32) (x9 : Vec F S3072 .f32) (x10 : Vec F S3072 .f32) (x11 : Vec F S2048x1024 .f32) (x12 : Vec F S2048 .f32) (s0 : Vec F S1x1024 .f32) (s1 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
        ∗ (∃ d, owns (c : Thread nD τ) arg15 fullShare d) ∗ (∃ d, owns (c : Thread nD τ) arg16 fullShare d) ∗ (∃ d, owns (c : Thread nD τ) arg17 fullShare d)
        ∗ owns (c : Thread nD τ) arg18 fullShare s0 ∗ owns (c : Thread nD τ) arg19 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
            ∗ owns (c : Thread nD τ) arg15 fullShare (k0_pay3 s0 x11 x12)
            ∗ owns (c : Thread nD τ) arg16 fullShare (k0_pay4 s0)
            ∗ owns (c : Thread nD τ) arg17 fullShare (k0_pay5 s1)
            ∗ owns (c : Thread nD τ) arg18 fullShare s0
            ∗ owns (c : Thread nD τ) arg19 fullShare s1) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg18.eq_unread hf16; obtain rfl := harg19.eq_unread hf17
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr
    rotate_left
    · iexact H13
    · ipureintro
      rw [read_store_whole _ _ hz2, readAt_unread harg18 hz2, readAt_unread harg13 hz2, readAt_unread harg14 hz1]
  isplitl [H14]
  · iexists _; isplitr
    rotate_left
    · iexact H14
    · ipureintro
      rw [read_store_whole _ _ hz2, readAt_unread harg18 hz2]
  isplitl [H15]
  · iexists _; isplitr
    rotate_left
    · iexact H15
    · ipureintro
      rw [read_store_whole _ _ hz2, readAt_unread harg19 hz2]
  isplitl [H16]
  · iexists _; isplitr; · ipureintro; exact harg18.read_unread _
    iexact H16
  · iexists _; isplitr; · ipureintro; exact harg19.read_unread _
    iexact H17

end Cert.KernelIdeal.Body

end
-- ==== Proof.KI.Blocks.lean ====
import proofs.«416905_j23579370455621_3_alg».proof.Proof.Gen.KernelIdeal.Frame
import proofs.«416905_j23579370455621_3_alg».proof.Proof.Gen.KernelIdeal.Skeleton
import Idealize.ShloMosaic.Lib.Pipeline.Value
import Idealize.ShloMosaic.PureOps.Ideal.Laws

/-! The windows' blocks. The eleven decoder operands are staged whole: each one's block at every grid point is
the operand's array. The output weight and bias are staged in tiles of 2048 rows, the last of which runs
past the array's 50257 rows: a tile's buffer then holds the array's rows on its leading part and words
nothing names behind them; at the repeated last point the buffer is not fetched again and holds the same. -/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- Operand 0's array as the region finds it, at its literal shape. -/
abbrev arr0 (c : Dev nD) : Vec Ideal S1x1024 .f32 := V m c main_v2
/-- Operand 1's array as the region finds it, at its literal shape. -/
abbrev arr1 (c : Dev nD) : Vec Ideal S1x1024 .f32 := V m c main_v3
/-- Operand 2's array as the region finds it, at its literal shape. -/
abbrev arr2 (c : Dev nD) : Vec Ideal S512x1024 .f32 := V m c main_arg2
/-- Operand 3's array as the region finds it, at its literal shape. -/
abbrev arr3 (c : Dev nD) : Vec Ideal S512x2048 .f32 := V m c main_arg4
/-- Operand 4's array as the region finds it, at its literal shape. -/
abbrev arr4 (c : Dev nD) : Vec Ideal S512 .f32 := V m c main_arg5
/-- Operand 5's array as the region finds it, at its literal shape. -/
abbrev arr5 (c : Dev nD) : Vec Ideal S1024x2048 .f32 := V m c main_arg6
/-- Operand 6's array as the region finds it, at its literal shape. -/
abbrev arr6 (c : Dev nD) : Vec Ideal S1024 .f32 := V m c main_arg7
/-- Operand 7's array as the region finds it, at its literal shape. -/
abbrev arr7 (c : Dev nD) : Vec Ideal S3072x1024 .f32 := V m c main_arg8
/-- Operand 8's array as the region finds it, at its literal shape. -/
abbrev arr8 (c : Dev nD) : Vec Ideal S3072x1024 .f32 := V m c main_arg9
/-- Operand 9's array as the region finds it, at its literal shape. -/
abbrev arr9 (c : Dev nD) : Vec Ideal S3072 .f32 := V m c main_arg10
/-- Operand 10's array as the region finds it, at its literal shape. -/
abbrev arr10 (c : Dev nD) : Vec Ideal S3072 .f32 := V m c main_arg11

/-- Window 0's block index is 0 on every axis at every grid point. -/
theorem idx0_zero : ∀ (t : Fin cfg0.N) a, win0_0.index t a = 0 :=
  (by decide +kernel : ∀ (t : Fin grid0.N) a, win0_0.index t a = 0)
/-- Reading any array of operand 0's shape through window 0's block gives the array back: the block starts at
    index 0 on every axis and has the array's extents, so it places an index at itself. -/
theorem read_blk0 (A : Vec Ideal S1x1024 .f32) (t : Fin cfg0.N) : ((cfg0.win 0).blk t).view.read (Elt Ideal) A = A := by
  funext y
  rw [View.read_apply]
  show A (((cfg0.win 0).blk t).view.emb y) = A y
  refine congrArg A (funext fun a => Fin.ext ?_)
  show win0_0.index t a * S1x1024.size a + 1 * (y a).val = (y a).val
  rw [idx0_zero t a]; omega
/-- Window 1's block index is 0 on every axis at every grid point. -/
theorem idx1_zero : ∀ (t : Fin cfg0.N) a, win0_1.index t a = 0 :=
  (by decide +kernel : ∀ (t : Fin grid0.N) a, win0_1.index t a = 0)
/-- Reading any array of operand 1's shape through window 1's block gives the array back: the block starts at
    index 0 on every axis and has the array's extents, so it places an index at itself. -/
theorem read_blk1 (A : Vec Ideal S1x1024 .f32) (t : Fin cfg0.N) : ((cfg0.win 1).blk t).view.read (Elt Ideal) A = A := by
  funext y
  rw [View.read_apply]
  show A (((cfg0.win 1).blk t).view.emb y) = A y
  refine congrArg A (funext fun a => Fin.ext ?_)
  show win0_1.index t a * S1x1024.size a + 1 * (y a).val = (y a).val
  rw [idx1_zero t a]; omega
/-- Window 2's block index is 0 on every axis at every grid point. -/
theorem idx2_zero : ∀ (t : Fin cfg0.N) a, win0_2.index t a = 0 :=
  (by decide +kernel : ∀ (t : Fin grid0.N) a, win0_2.index t a = 0)
/-- Reading any array of operand 2's shape through window 2's block gives the array back: the block starts at
    index 0 on every axis and has the array's extents, so it places an index at itself. -/
theorem read_blk2 (A : Vec Ideal S512x1024 .f32) (t : Fin cfg0.N) : ((cfg0.win 2).blk t).view.read (Elt Ideal) A = A := by
  funext y
  rw [View.read_apply]
  show A (((cfg0.win 2).blk t).view.emb y) = A y
  refine congrArg A (funext fun a => Fin.ext ?_)
  show win0_2.index t a * S512x1024.size a + 1 * (y a).val = (y a).val
  rw [idx2_zero t a]; omega
/-- Window 3's block index is 0 on every axis at every grid point. -/
theorem idx3_zero : ∀ (t : Fin cfg0.N) a, win0_3.index t a = 0 :=
  (by decide +kernel : ∀ (t : Fin grid0.N) a, win0_3.index t a = 0)
/-- Reading any array of operand 3's shape through window 3's block gives the array back: the block starts at
    index 0 on every axis and has the array's extents, so it places an index at itself. -/
theorem read_blk3 (A : Vec Ideal S512x2048 .f32) (t : Fin cfg0.N) : ((cfg0.win 3).blk t).view.read (Elt Ideal) A = A := by
  funext y
  rw [View.read_apply]
  show A (((cfg0.win 3).blk t).view.emb y) = A y
  refine congrArg A (funext fun a => Fin.ext ?_)
  show win0_3.index t a * S512x2048.size a + 1 * (y a).val = (y a).val
  rw [idx3_zero t a]; omega
/-- Window 4's block index is 0 on every axis at every grid point. -/
theorem idx4_zero : ∀ (t : Fin cfg0.N) a, win0_4.index t a = 0 :=
  (by decide +kernel : ∀ (t : Fin grid0.N) a, win0_4.index t a = 0)
/-- Reading any array of operand 4's shape through window 4's block gives the array back: the block starts at
    index 0 on every axis and has the array's extents, so it places an index at itself. -/
theorem read_blk4 (A : Vec Ideal S512 .f32) (t : Fin cfg0.N) : ((cfg0.win 4).blk t).view.read (Elt Ideal) A = A := by
  funext y
  rw [View.read_apply]
  show A (((cfg0.win 4).blk t).view.emb y) = A y
  refine congrArg A (funext fun a => Fin.ext ?_)
  show win0_4.index t a * S512.size a + 1 * (y a).val = (y a).val
  rw [idx4_zero t a]; omega
/-- Window 5's block index is 0 on every axis at every grid point. -/
theorem idx5_zero : ∀ (t : Fin cfg0.N) a, win0_5.index t a = 0 :=
  (by decide +kernel : ∀ (t : Fin grid0.N) a, win0_5.index t a = 0)
/-- Reading any array of operand 5's shape through window 5's block gives the array back: the block starts at
    index 0 on every axis and has the array's extents, so it places an index at itself. -/
theorem read_blk5 (A : Vec Ideal S1024x2048 .f32) (t : Fin cfg0.N) : ((cfg0.win 5).blk t).view.read (Elt Ideal) A = A := by
  funext y
  rw [View.read_apply]
  show A (((cfg0.win 5).blk t).view.emb y) = A y
  refine congrArg A (funext fun a => Fin.ext ?_)
  show win0_5.index t a * S1024x2048.size a + 1 * (y a).val = (y a).val
  rw [idx5_zero t a]; omega
/-- Window 6's block index is 0 on every axis at every grid point. -/
theorem idx6_zero : ∀ (t : Fin cfg0.N) a, win0_6.index t a = 0 :=
  (by decide +kernel : ∀ (t : Fin grid0.N) a, win0_6.index t a = 0)
/-- Reading any array of operand 6's shape through window 6's block gives the array back: the block starts at
    index 0 on every axis and has the array's extents, so it places an index at itself. -/
theorem read_blk6 (A : Vec Ideal S1024 .f32) (t : Fin cfg0.N) : ((cfg0.win 6).blk t).view.read (Elt Ideal) A = A := by
  funext y
  rw [View.read_apply]
  show A (((cfg0.win 6).blk t).view.emb y) = A y
  refine congrArg A (funext fun a => Fin.ext ?_)
  show win0_6.index t a * S1024.size a + 1 * (y a).val = (y a).val
  rw [idx6_zero t a]; omega
/-- Window 7's block index is 0 on every axis at every grid point. -/
theorem idx7_zero : ∀ (t : Fin cfg0.N) a, win0_7.index t a = 0 :=
  (by decide +kernel : ∀ (t : Fin grid0.N) a, win0_7.index t a = 0)
/-- Reading any array of operand 7's shape through window 7's block gives the array back: the block starts at
    index 0 on every axis and has the array's extents, so it places an index at itself. -/
theorem read_blk7 (A : Vec Ideal S3072x1024 .f32) (t : Fin cfg0.N) : ((cfg0.win 7).blk t).view.read (Elt Ideal) A = A := by
  funext y
  rw [View.read_apply]
  show A (((cfg0.win 7).blk t).view.emb y) = A y
  refine congrArg A (funext fun a => Fin.ext ?_)
  show win0_7.index t a * S3072x1024.size a + 1 * (y a).val = (y a).val
  rw [idx7_zero t a]; omega
/-- Window 8's block index is 0 on every axis at every grid point. -/
theorem idx8_zero : ∀ (t : Fin cfg0.N) a, win0_8.index t a = 0 :=
  (by decide +kernel : ∀ (t : Fin grid0.N) a, win0_8.index t a = 0)
/-- Reading any array of operand 8's shape through window 8's block gives the array back: the block starts at
    index 0 on every axis and has the array's extents, so it places an index at itself. -/
theorem read_blk8 (A : Vec Ideal S3072x1024 .f32) (t : Fin cfg0.N) : ((cfg0.win 8).blk t).view.read (Elt Ideal) A = A := by
  funext y
  rw [View.read_apply]
  show A (((cfg0.win 8).blk t).view.emb y) = A y
  refine congrArg A (funext fun a => Fin.ext ?_)
  show win0_8.index t a * S3072x1024.size a + 1 * (y a).val = (y a).val
  rw [idx8_zero t a]; omega
/-- Window 9's block index is 0 on every axis at every grid point. -/
theorem idx9_zero : ∀ (t : Fin cfg0.N) a, win0_9.index t a = 0 :=
  (by decide +kernel : ∀ (t : Fin grid0.N) a, win0_9.index t a = 0)
/-- Reading any array of operand 9's shape through window 9's block gives the array back: the block starts at
    index 0 on every axis and has the array's extents, so it places an index at itself. -/
theorem read_blk9 (A : Vec Ideal S3072 .f32) (t : Fin cfg0.N) : ((cfg0.win 9).blk t).view.read (Elt Ideal) A = A := by
  funext y
  rw [View.read_apply]
  show A (((cfg0.win 9).blk t).view.emb y) = A y
  refine congrArg A (funext fun a => Fin.ext ?_)
  show win0_9.index t a * S3072.size a + 1 * (y a).val = (y a).val
  rw [idx9_zero t a]; omega
/-- Window 10's block index is 0 on every axis at every grid point. -/
theorem idx10_zero : ∀ (t : Fin cfg0.N) a, win0_10.index t a = 0 :=
  (by decide +kernel : ∀ (t : Fin grid0.N) a, win0_10.index t a = 0)
/-- Reading any array of operand 10's shape through window 10's block gives the array back: the block starts at
    index 0 on every axis and has the array's extents, so it places an index at itself. -/
theorem read_blk10 (A : Vec Ideal S3072 .f32) (t : Fin cfg0.N) : ((cfg0.win 10).blk t).view.read (Elt Ideal) A = A := by
  funext y
  rw [View.read_apply]
  show A (((cfg0.win 10).blk t).view.emb y) = A y
  refine congrArg A (funext fun a => Fin.ext ?_)
  show win0_10.index t a * S3072.size a + 1 * (y a).val = (y a).val
  rw [idx10_zero t a]; omega

/-- Operand 0 is staged whole: its block at any point is its array. -/
theorem iblk0 (c : Dev nD) (t : Fin cfg0.N) : iblk m c 0 t = arr0 m c := by
  unfold iblk arr0
  generalize V m c _ = A
  exact read_blk0 A t
/-- Operand 1 is staged whole: its block at any point is its array. -/
theorem iblk1 (c : Dev nD) (t : Fin cfg0.N) : iblk m c 1 t = arr1 m c := by
  unfold iblk arr1
  generalize V m c _ = A
  exact read_blk1 A t
/-- Operand 2 is staged whole: its block at any point is its array. -/
theorem iblk2 (c : Dev nD) (t : Fin cfg0.N) : iblk m c 2 t = arr2 m c := by
  unfold iblk arr2
  generalize V m c _ = A
  exact read_blk2 A t
/-- Operand 3 is staged whole: its block at any point is its array. -/
theorem iblk3 (c : Dev nD) (t : Fin cfg0.N) : iblk m c 3 t = arr3 m c := by
  unfold iblk arr3
  generalize V m c _ = A
  exact read_blk3 A t
/-- Operand 4 is staged whole: its block at any point is its array. -/
theorem iblk4 (c : Dev nD) (t : Fin cfg0.N) : iblk m c 4 t = arr4 m c := by
  unfold iblk arr4
  generalize V m c _ = A
  exact read_blk4 A t
/-- Operand 5 is staged whole: its block at any point is its array. -/
theorem iblk5 (c : Dev nD) (t : Fin cfg0.N) : iblk m c 5 t = arr5 m c := by
  unfold iblk arr5
  generalize V m c _ = A
  exact read_blk5 A t
/-- Operand 6 is staged whole: its block at any point is its array. -/
theorem iblk6 (c : Dev nD) (t : Fin cfg0.N) : iblk m c 6 t = arr6 m c := by
  unfold iblk arr6
  generalize V m c _ = A
  exact read_blk6 A t
/-- Operand 7 is staged whole: its block at any point is its array. -/
theorem iblk7 (c : Dev nD) (t : Fin cfg0.N) : iblk m c 7 t = arr7 m c := by
  unfold iblk arr7
  generalize V m c _ = A
  exact read_blk7 A t
/-- Operand 8 is staged whole: its block at any point is its array. -/
theorem iblk8 (c : Dev nD) (t : Fin cfg0.N) : iblk m c 8 t = arr8 m c := by
  unfold iblk arr8
  generalize V m c _ = A
  exact read_blk8 A t
/-- Operand 9 is staged whole: its block at any point is its array. -/
theorem iblk9 (c : Dev nD) (t : Fin cfg0.N) : iblk m c 9 t = arr9 m c := by
  unfold iblk arr9
  generalize V m c _ = A
  exact read_blk9 A t
/-- Operand 10 is staged whole: its block at any point is its array. -/
theorem iblk10 (c : Dev nD) (t : Fin cfg0.N) : iblk m c 10 t = arr10 m c := by
  unfold iblk arr10
  generalize V m c _ = A
  exact read_blk10 A t

/-- A weight tile's buffer with the array's rows on its leading part and `d` behind them. -/
abbrev tileW (c : Dev nD) (t : Fin cfg0.N) (d : Vec Ideal S2048x1024 .f32) : Vec Ideal S2048x1024 .f32 :=
  win0_11.fill (grid0.coords t) d (iblk m c 11 t)
/-- A bias tile's buffer likewise. -/
abbrev tileB (c : Dev nD) (t : Fin cfg0.N) (d : Vec Ideal S2048 .f32) : Vec Ideal S2048 .f32 :=
  win0_12.fill (grid0.coords t) d (iblk m c 12 t)

/-- Fills at two settings of the coordinates that cut alike, of parts that agree index by index, are the same
    contents. -/
theorem fill_congr_coords {G : Pipeline.Grid} (w : Window sig G) {α : Type} (i i' : G.Coords)
    (hx : ∀ a, w.xsize i a = w.xsize i' a) (d : w.block.Idx → α) (g : (w.xblock i).Idx → α) (g' : (w.xblock i').Idx → α)
    (hg : ∀ (j : (w.xblock i).Idx) (j' : (w.xblock i').Idx), (∀ a, (j a).val = (j' a).val) → g j = g' j') :
    w.fill i d g = w.fill i' d g' := by
  funext j
  unfold Window.fill
  by_cases h : w.moved i j = true
  · have h' : w.moved i' j = true := (w.moved_iff i' j).mpr fun a => hx a ▸ (w.moved_iff i j).mp h a
    rw [dif_pos h, dif_pos h']
    exact hg _ _ fun a => rfl
  · have h' : ¬ w.moved i' j = true := fun h'' => h ((w.moved_iff i j).mpr fun a => (hx a).symm ▸ (w.moved_iff i' j).mp h'' a)
    rw [dif_neg h, dif_neg h']

/-- The last two grid points. -/
abbrev t24 : Fin cfg0.N := ⟨24, by decide⟩
abbrev t25 : Fin cfg0.N := ⟨25, by decide⟩

/-- The weight window is fetched at every point but the last. -/
theorem fetch11 : ∀ t : Fin cfg0.N, (cfg0.win 11).fetch t = (t.val != 25) :=
  (by decide +kernel : ∀ t : Fin grid0.N, win0_11.fetch t = (t.val != 25))

/-- The last two points have the same weight tile: the same block index and the same cut. -/
theorem last11 : (∀ a, win0_11.xsize (grid0.coords t24) a = win0_11.xsize (grid0.coords t25) a)
    ∧ (∀ a, win0_11.index t24 a = win0_11.index t25 a) := by decide +kernel

/-- So the array's block read at the two points is the same, index by index. -/
theorem iblk11_last (c : Dev nD) (j : (win0_11.xblock (grid0.coords t24)).Idx) (j' : (win0_11.xblock (grid0.coords t25)).Idx)
    (hj : ∀ a, (j a).val = (j' a).val) : iblk m c 11 t24 j = iblk m c 11 t25 j' := by
  unfold iblk
  generalize V m c _ = A
  rw [View.read_apply, View.read_apply]
  show A (((cfg0.win 11).blk t24).view.emb j) = A (((cfg0.win 11).blk t25).view.emb j')
  refine congrArg A (funext fun a => Fin.ext ?_)
  show win0_11.index t24 a * S2048x1024.size a + 1 * (j a).val = win0_11.index t25 a * S2048x1024.size a + 1 * (j' a).val
  rw [last11.2 a, hj a]

/-- The bias window is fetched at every point but the last. -/
theorem fetch12 : ∀ t : Fin cfg0.N, (cfg0.win 12).fetch t = (t.val != 25) :=
  (by decide +kernel : ∀ t : Fin grid0.N, win0_12.fetch t = (t.val != 25))

/-- The last two points have the same bias tile: the same block index and the same cut. -/
theorem last12 : (∀ a, win0_12.xsize (grid0.coords t24) a = win0_12.xsize (grid0.coords t25) a)
    ∧ (∀ a, win0_12.index t24 a = win0_12.index t25 a) := by decide +kernel

/-- So the array's block read at the two points is the same, index by index. -/
theorem iblk12_last (c : Dev nD) (j : (win0_12.xblock (grid0.coords t24)).Idx) (j' : (win0_12.xblock (grid0.coords t25)).Idx)
    (hj : ∀ a, (j a).val = (j' a).val) : iblk m c 12 t24 j = iblk m c 12 t25 j' := by
  unfold iblk
  generalize V m c _ = A
  rw [View.read_apply, View.read_apply]
  show A (((cfg0.win 12).blk t24).view.emb j) = A (((cfg0.win 12).blk t25).view.emb j')
  refine congrArg A (funext fun a => Fin.ext ?_)
  show win0_12.index t24 a * S2048.size a + 1 * (j a).val = win0_12.index t25 a * S2048.size a + 1 * (j' a).val
  rw [last12.2 a, hj a]

/-- What the weight tile's buffer holds when the body runs, for any proof data over the arrays as found whose
    body leaves the tile in place: the tile, whatever lies behind the array's rows (fetched at every point but the
    repeated last one, where the buffer still holds the last tile). -/
theorem before11_of {c : Dev nD} (dat : Dat τ (Elt Ideal) Unit ℕ (UR sig nD τ) ℕ cfg0 c) (hA : dat.A 11 = V m c (Pipeline.arrRef spec0 11))
    (hafter : ∀ t, ∃ z, dat.after 11 t = tileW m c t z) (t : Fin cfg0.N) (d) : ∃ d', dat.before 11 t d = tileW m c t d' := by
  refine ⟨d, ?_⟩
  by_cases ht : t.val = 25
  · obtain rfl : t = t25 := Fin.ext ht
    obtain ⟨z, hz⟩ := hafter t24
    rw [dat.before_of_pos 11 t25 (by decide) (by rw [fetch11]; rfl) d]
    rw [if_neg (by decide)]
    show dat.kept 11 t24 d = _
    unfold Dat.kept
    rw [hz, Window.cut_fill]
    exact fill_congr_coords win0_11 _ _ last11.1 d _ _ (iblk11_last m c)
  · unfold Dat.before
    rw [if_pos (by rw [fetch11]; simpa using ht)]
    unfold Dat.fetched Dat.blockOf tileW iblk
    rw [hA]

/-- The bias tile's buffer likewise. -/
theorem before12_of {c : Dev nD} (dat : Dat τ (Elt Ideal) Unit ℕ (UR sig nD τ) ℕ cfg0 c) (hA : dat.A 12 = V m c (Pipeline.arrRef spec0 12))
    (hafter : ∀ t, ∃ z, dat.after 12 t = tileB m c t z) (t : Fin cfg0.N) (d) : ∃ d', dat.before 12 t d = tileB m c t d' := by
  refine ⟨d, ?_⟩
  by_cases ht : t.val = 25
  · obtain rfl : t = t25 := Fin.ext ht
    obtain ⟨z, hz⟩ := hafter t24
    rw [dat.before_of_pos 12 t25 (by decide) (by rw [fetch12]; rfl) d]
    rw [if_neg (by decide)]
    show dat.kept 12 t24 d = _
    unfold Dat.kept
    rw [hz, Window.cut_fill]
    exact fill_congr_coords win0_12 _ _ last12.1 d _ _ (iblk12_last m c)
  · unfold Dat.before
    rw [if_pos (by rw [fetch12]; simpa using ht)]
    unfold Dat.fetched Dat.blockOf tileB iblk
    rw [hA]

/-- Two fills of the same moved part agree wherever the transfer moves. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- The three tiled windows cut alike: at every point the weight tile's rows and the bias tile's entries inside
    their arrays are as many as the logits tile's lanes inside its array, and the weight tile's columns are uncut. -/
theorem clip_alike : ∀ t : Fin cfg0.N, win0_11.xsize (grid0.coords t) 0 = win0_13.xsize (grid0.coords t) 1
    ∧ win0_12.xsize (grid0.coords t) 0 = win0_13.xsize (grid0.coords t) 1 ∧ win0_11.xsize (grid0.coords t) 1 = 1024 :=
  (by decide +kernel : ∀ t : Fin grid0.N, win0_11.xsize (grid0.coords t) 0 = win0_13.xsize (grid0.coords t) 1
    ∧ win0_12.xsize (grid0.coords t) 0 = win0_13.xsize (grid0.coords t) 1 ∧ win0_11.xsize (grid0.coords t) 1 = 1024)

/-- The logits product reads, for lane `v`, row `v` of the weight tile. -/
theorem rhsIdx_row (j : S1x2048.Idx) (k : dot_S1x1024_S2048x1024_S1x2048_1_1_0_0_n_n.contr.Idx) :
    (dot_S1x1024_S2048x1024_S1x2048_1_1_0_0_n_n.rhsIdx j k 0).val = (j 1).val := rfl

/-- A logits tile on its lanes inside the vocabulary does not depend on what lies behind the arrays' rows in the
    weight and bias buffers: lane `v` reads row `v` of the weight tile and entry `v` of the bias tile only. -/
theorem pay3_cut (c : Dev nD) (t : Fin cfg0.N) (s : Vec Ideal S1x1024 .f32) (d d' : Vec Ideal S2048x1024 .f32) (e e' : Vec Ideal S2048 .f32) :
    win0_13.cut (grid0.coords t) (k0_pay3 s (tileW m c t d) (tileB m c t e))
      = win0_13.cut (grid0.coords t) (k0_pay3 s (tileW m c t d') (tileB m c t e')) := by
  funext j
  show k0_pay3 s (tileW m c t d) (tileB m c t e) (win0_13.xinj (grid0.coords t) j) = k0_pay3 s (tileW m c t d') (tileB m c t e') (win0_13.xinj (grid0.coords t) j)
  suffices hall : ∀ J : S1x2048.Idx, (J 1).val < win0_13.xsize (grid0.coords t) 1 →
      k0_pay3 s (tileW m c t d) (tileB m c t e) J = k0_pay3 s (tileW m c t d') (tileB m c t e') J from hall _ (j 1).isLt
  intro J hJ1
  obtain ⟨h0, h1, h2⟩ := clip_alike t
  have hW : ∀ k, tileW m c t d (dot_S1x1024_S2048x1024_S1x2048_1_1_0_0_n_n.rhsIdx J k)
      = tileW m c t d' (dot_S1x1024_S2048x1024_S1x2048_1_1_0_0_n_n.rhsIdx J k) := fun k => by
    apply fill_eq_of_moved
    rw [Window.moved_iff]
    intro a
    match a with
    | ⟨0, _⟩ =>
      show (dot_S1x1024_S2048x1024_S1x2048_1_1_0_0_n_n.rhsIdx J k 0).val < win0_11.xsize (grid0.coords t) 0
      rw [rhsIdx_row, h0]; exact hJ1
    | ⟨1, _⟩ =>
      show (dot_S1x1024_S2048x1024_S1x2048_1_1_0_0_n_n.rhsIdx J k 1).val < win0_11.xsize (grid0.coords t) 1
      rw [h2]; exact (dot_S1x1024_S2048x1024_S1x2048_1_1_0_0_n_n.rhsIdx J k 1).isLt
  have hM : matmul (F := Ideal) (φ₁ := .f32) (φ₂ := .f32) dot_S1x1024_S2048x1024_S1x2048_1_1_0_0_n_n none s (tileW m c t d) (constant S1x2048 FTy.f32 0#32) J
      = matmul (F := Ideal) (φ₁ := .f32) (φ₂ := .f32) dot_S1x1024_S2048x1024_S1x2048_1_1_0_0_n_n none s (tileW m c t d') (constant S1x2048 FTy.f32 0#32) J := by
    simp only [matmul]
    rw [Ideal.matmul_apply, Ideal.matmul_apply]
    exact congrArg (_ + ·) (Finset.sum_congr rfl fun k _ => by rw [hW k])
  have hk : ∀ a : Fin 1, (J 1).val < S2048.size a := fun a => by
    have h := (J 1).isLt
    match a with
    | ⟨0, _⟩ => exact h
  have hrm : (S2048.rowMajor (fun a => ⟨(J 1).val, hk a⟩ : S2048.Idx)).val = (S1x2048.rowMajor J).val := by
    rw [Shape.rowMajor_val_two, Shape.rowMajor_val_one]
    have hz : (J 0).val < 1 := (J 0).isLt
    show (J 1).val = (J 0).val * 2048 + (J 1).val
    omega
  have hB : shapeCast S1x2048 (tileB m c t e) shapeCasts_S2048_S1x2048 J = shapeCast S1x2048 (tileB m c t e') shapeCasts_S2048_S1x2048 J := by
    rw [shapeCast_apply (tileB m c t e) _ J _ hrm, shapeCast_apply (tileB m c t e') _ J _ hrm]
    apply fill_eq_of_moved
    rw [Window.moved_iff]
    intro a
    match a with
    | ⟨0, _⟩ =>
      show (J 1).val < win0_12.xsize (grid0.coords t) 0
      rw [h1]; exact hJ1
  have key : ∀ (x x' y y' : FVec Ideal S1x2048 .f32), x J = x' J → y J = y' J → addf x y J = addf x' y' J :=
    fun x x' y y' hx hy => by
      show FloatOps.addf (x J) (y J) = FloatOps.addf (x' J) (y' J)
      rw [hx, hy]
  unfold k0_pay3
  exact key _ _ _ _ hM hB

end Cert.KernelIdeal.Body

end
-- ==== Proof.KI.Frame.lean ====
import proofs.«416905_j23579370455621_3_alg».proof.Proof.KI.Runs
import proofs.«416905_j23579370455621_3_alg».proof.Proof.KI.Blocks

/-! The idealized kernel's run. The proof data: after the body at every point each decoder operand's buffer holds
the operand, the weight and bias tiles' buffers hold their tiles, the two scratch rows hold the decoder step's
hidden state and attention weights (from each core's first tile on), and the three output buffers hold the
logits tile and the two eight-row broadcasts. From it the library's frame run: the program terminates,
faults nowhere, and every array ends at what the write-backs of these buffers make of it. -/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The decoder step's two kept rows, as functions of the arrays -/

/-- The new hidden state, from the decoder operands' arrays as the region finds them. -/
def HN (c : Dev nD) : Vec Ideal S1x1024 .f32 :=
  hnOf (arr0 m c) (arr1 m c) (arr2 m c) (arr3 m c) (arr4 m c) (arr5 m c) (arr6 m c) (arr7 m c) (arr8 m c) (arr9 m c) (arr10 m c)

/-- The attention weights likewise. -/
def AW (c : Dev nD) : Vec Ideal S1x512 .f32 := awOf (arr0 m c) (arr1 m c) (arr3 m c) (arr4 m c)

/-- The zero row filling a tile's buffer behind the array's rows where the proof data must name something there. -/
abbrev zW : Vec Ideal S2048x1024 .f32 := fun _ => (0 : EReal)
abbrev zB : Vec Ideal S2048 .f32 := fun _ => (0 : EReal)

/-! ## The staging memrefs at a point, and the scratch rows -/

abbrev ms0 (t : Fin cfg0.N) : Memref sig .tc .vmem S1x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S3072x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S3072x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S3072 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S3072 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S2048x1024 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S2048 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x2048 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S8x1024 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S8x512 .f32 := win0_15.stage (cfg0.slots t 15)
abbrev hs15 (t : Fin cfg0.N) : (ms15 t).IsWhole := hstage0_15 ((cfg0.slots t 15).cast nbuf0_15)
abbrev scM0 : Memref sig .tc .vmem S1x1024 .f32 := Memref.whole cc0_scratch0
abbrev scM1 : Memref sig .tc .vmem S1x512 .f32 := Memref.whole cc0_scratch1

/-- What the launch hands the region beside the windows: the two scratch rows at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant between points: before the first point what the launch hands over; afterwards the two scratch rows at the
    decoder step's results. -/
def PhiS (c : Dev nD) : ℕ → sProp 𝕄
  | 0 => Pipeline.ΦA spec0 c
  | _ + 1 => iprop(iprop(owns (c : Thread nD τ) scM0 fullShare (HN m c) ∗ owns (c : Thread nD τ) scM1 fullShare (AW m c)) ∗ (∃ r, prngReg c r))

theorem PhiS_pos (c : Dev nD) (n : ℕ) (hn : n ≠ 0) :
    PhiS m c n = iprop(iprop(owns (c : Thread nD τ) scM0 fullShare (HN m c) ∗ owns (c : Thread nD τ) scM1 fullShare (AW m c)) ∗ (∃ r, prngReg c r)) := by
  cases n with
  | zero => exact absurd rfl hn
  | succ n => rfl

/-! ## The proof data -/

/-- After the body at point `t`: each decoder operand's buffer at its block, the tiles' buffers at their tiles (zeros behind the
    arrays' rows), the logits buffer at the tile's logits, the two small outputs at the broadcasts of the kept rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => tileW m c t zW
    | ⟨12, _⟩ => tileB m c t zB
    | ⟨13, _⟩ => k0_pay3 (HN m c) (tileW m c t zW) (tileB m c t zB)
    | ⟨14, _⟩ => k0_pay4 (HN m c)
    | ⟨15, _⟩ => k0_pay5 (AW m c)
    | ⟨_ + 16, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = tileW m c t zW := by dsimp only [dats]
theorem after12 (c : Dev nD) (t : Fin cfg0.N) : (dats m 0 c).after 12 t = tileB m c t zB := by dsimp only [dats]
theorem after13 (c : Dev nD) (t : Fin cfg0.N) : (dats m 0 c).after 13 t = k0_pay3 (HN m c) (tileW m c t zW) (tileB m c t zB) := by dsimp only [dats]
theorem after14 (c : Dev nD) (t : Fin cfg0.N) : (dats m 0 c).after 14 t = k0_pay4 (HN m c) := by dsimp only [dats]
theorem after15 (c : Dev nD) (t : Fin cfg0.N) : (dats m 0 c).after 15 t = k0_pay5 (AW m c) := by dsimp only [dats]

theorem before0 (c : Dev nD) (t : Fin cfg0.N) (d) : (dats m 0 c).before 0 t d = arr0 m c :=
  (before0_0_of m (dats m 0 c) (A_eq m c 0) (after0 m c) t d).trans (iblk0 m c t)
theorem before1 (c : Dev nD) (t : Fin cfg0.N) (d) : (dats m 0 c).before 1 t d = arr1 m c :=
  (before0_1_of m (dats m 0 c) (A_eq m c 1) (after1 m c) t d).trans (iblk1 m c t)
theorem before2 (c : Dev nD) (t : Fin cfg0.N) (d) : (dats m 0 c).before 2 t d = arr2 m c :=
  (before0_2_of m (dats m 0 c) (A_eq m c 2) (after2 m c) t d).trans (iblk2 m c t)
theorem before3 (c : Dev nD) (t : Fin cfg0.N) (d) : (dats m 0 c).before 3 t d = arr3 m c :=
  (before0_3_of m (dats m 0 c) (A_eq m c 3) (after3 m c) t d).trans (iblk3 m c t)
theorem before4 (c : Dev nD) (t : Fin cfg0.N) (d) : (dats m 0 c).before 4 t d = arr4 m c :=
  (before0_4_of m (dats m 0 c) (A_eq m c 4) (after4 m c) t d).trans (iblk4 m c t)
theorem before5 (c : Dev nD) (t : Fin cfg0.N) (d) : (dats m 0 c).before 5 t d = arr5 m c :=
  (before0_5_of m (dats m 0 c) (A_eq m c 5) (after5 m c) t d).trans (iblk5 m c t)
theorem before6 (c : Dev nD) (t : Fin cfg0.N) (d) : (dats m 0 c).before 6 t d = arr6 m c :=
  (before0_6_of m (dats m 0 c) (A_eq m c 6) (after6 m c) t d).trans (iblk6 m c t)
theorem before7 (c : Dev nD) (t : Fin cfg0.N) (d) : (dats m 0 c).before 7 t d = arr7 m c :=
  (before0_7_of m (dats m 0 c) (A_eq m c 7) (after7 m c) t d).trans (iblk7 m c t)
theorem before8 (c : Dev nD) (t : Fin cfg0.N) (d) : (dats m 0 c).before 8 t d = arr8 m c :=
  (before0_8_of m (dats m 0 c) (A_eq m c 8) (after8 m c) t d).trans (iblk8 m c t)
theorem before9 (c : Dev nD) (t : Fin cfg0.N) (d) : (dats m 0 c).before 9 t d = arr9 m c :=
  (before0_9_of m (dats m 0 c) (A_eq m c 9) (after9 m c) t d).trans (iblk9 m c t)
theorem before10 (c : Dev nD) (t : Fin cfg0.N) (d) : (dats m 0 c).before 10 t d = arr10 m c :=
  (before0_10_of m (dats m 0 c) (A_eq m c 10) (after10 m c) t d).trans (iblk10 m c t)
theorem before11 (c : Dev nD) (t : Fin cfg0.N) (d) : ∃ d', (dats m 0 c).before 11 t d = tileW m c t d' :=
  before11_of m (dats m 0 c) (A_eq m c 11) (fun t => ⟨zW, after11 m c t⟩) t d
theorem before12 (c : Dev nD) (t : Fin cfg0.N) (d) : ∃ d', (dats m 0 c).before 12 t d = tileB m c t d' :=
  before12_of m (dats m 0 c) (A_eq m c 12) (fun t => ⟨zB, after12 m c t⟩) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

/-- What it returns: the invariant of the next point, and each buffer at what the proof data names — the three clipped
    windows' (the tiles and the logits) on the part their transfers move, anything behind it. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ (∃ d, owns (c : Thread nD τ) (ms11 t) fullShare (win0_11.fill (grid0.coords t) d (win0_11.cut (grid0.coords t) ((dats m 0 c).after 11 t))))
    ∗ (∃ d, owns (c : Thread nD τ) (ms12 t) fullShare (win0_12.fill (grid0.coords t) d (win0_12.cut (grid0.coords t) ((dats m 0 c).after 12 t))))
    ∗ (∃ d, owns (c : Thread nD τ) (ms13 t) fullShare (win0_13.fill (grid0.coords t) d (win0_13.cut (grid0.coords t) ((dats m 0 c).after 13 t))))
    ∗ owns (c : Thread nD τ) (ms14 t) fullShare ((dats m 0 c).after 14 t)
    ∗ owns (c : Thread nD τ) (ms15 t) fullShare ((dats m 0 c).after 15 t))

set_option maxHeartbeats 4000000 in
/-- The body at any point: at a core's first tile the decoder step is computed and kept; at a later tile the kept rows are read. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl,
    PhiS_pos m c (t.val + 1) (Nat.succ_ne_zero _)]
  simp only [before0, before1, before2, before3, before4, before5, before6, before7, before8, before9, before10,
    after0, after1, after2, after3, after4, after5, after6, after7, after8, after9, after10, after11, after12, after13, after14, after15,
    iblk0, iblk1, iblk2, iblk3, iblk4, iblk5, iblk6, iblk7, iblk8, iblk9, iblk10, Window.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  obtain ⟨e11, he11⟩ := before11 m c t d11
  obtain ⟨e12, he12⟩ := before12 m c t d12
  rw [he11, he12]
  by_cases hA : t.val % 13 = 0
  · -- a core's first tile
    have hΦ : PhiS m c t.val ⊢ iprop(iprop((∃ d, owns (c : Thread nD τ) scM0 fullShare d) ∗ (∃ d, owns (c : Thread nD τ) scM1 fullShare d)) ∗ (∃ r, prngReg c r)) := by
      by_cases hz : t.val = 0
      · rw [hz]; show Pipeline.ΦA spec0 c ⊢ _; rw [PhiA_eq]
      · rw [PhiS_pos m c _ hz]
        iintro ⟨⟨HS0, HS1⟩, Hg⟩
        isplitl [HS0 HS1]
        · isplitl [HS0]
          · iexists _; iexact HS0
          · iexists _; iexact HS1
        · iexact Hg
    ihave HΦ' := hΦ $$ HΦ
    icases HΦ' with ⟨⟨HS0, HS1⟩, Hg⟩
    iapply (runA (F := Ideal) c (grid0.coords t) (ms0 t) (hs0 t) (ms1 t) (hs1 t) (ms2 t) (hs2 t) (ms3 t) (hs3 t) (ms4 t) (hs4 t) (ms5 t) (hs5 t)
      (ms6 t) (hs6 t) (ms7 t) (hs7 t) (ms8 t) (hs8 t) (ms9 t) (hs9 t) (ms10 t) (hs10 t) (ms11 t) (hs11 t) (ms12 t) (hs12 t) (ms13 t) (hs13 t)
      (ms14 t) (hs14 t) (ms15 t) (hs15 t) scM0 (Memref.isWhole_whole _) scM1 (Memref.isWhole_whole _) ((hcondA t).mpr hA)
      (arr0 m c) (arr1 m c) (arr2 m c) (arr3 m c) (arr4 m c) (arr5 m c) (arr6 m c) (arr7 m c) (arr8 m c) (arr9 m c) (arr10 m c)
      (tileW m c t e11) (tileB m c t e12) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [HS0]; · iexact HS0
    isplitl [HS1]; · iexact HS1
    iintro ⟨H0, H1, H2, H3, H4, H5, H6, H7, H8, H9, H10, H11, H12, H13, H14, H15, HS0, HS1⟩
    isplitl [HS0 HS1 Hg]
    · isplitl [HS0 HS1]
      · isplitl [HS0]
        · iexact HS0
        · iexact HS1
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists e11; iexact H11
    isplitl [H12]; · iexists e12; iexact H12
    isplitl [H13]
    · iexists (k0_pay3 (HN m c) (tileW m c t e11) (tileB m c t e12))
      rw [pay3_cut m c t (HN m c) zW e11 zB e12, Window.fill_cut]
      iexact H13
    isplitl [H14]; · iexact H14
    iexact H15
  · -- a later tile: the kept rows are read
    have hz : t.val ≠ 0 := fun h => hA (by rw [h])
    have hΦ : PhiS m c t.val ⊢ iprop(iprop(owns (c : Thread nD τ) scM0 fullShare (HN m c) ∗ owns (c : Thread nD τ) scM1 fullShare (AW m c)) ∗ (∃ r, prngReg c r)) := by
      rw [PhiS_pos m c _ hz]
    ihave HΦ' := hΦ $$ HΦ
    icases HΦ' with ⟨⟨HS0, HS1⟩, Hg⟩
    iapply (runB (F := Ideal) c (grid0.coords t) (ms0 t) (hs0 t) (ms1 t) (hs1 t) (ms2 t) (hs2 t) (ms3 t) (hs3 t) (ms4 t) (hs4 t) (ms5 t) (hs5 t)
      (ms6 t) (hs6 t) (ms7 t) (hs7 t) (ms8 t) (hs8 t) (ms9 t) (hs9 t) (ms10 t) (hs10 t) (ms11 t) (hs11 t) (ms12 t) (hs12 t) (ms13 t) (hs13 t)
      (ms14 t) (hs14 t) (ms15 t) (hs15 t) scM0 (Memref.isWhole_whole _) scM1 (Memref.isWhole_whole _) (fun h => hA ((hcondA t).mp h))
      (arr0 m c) (arr1 m c) (arr2 m c) (arr3 m c) (arr4 m c) (arr5 m c) (arr6 m c) (arr7 m c) (arr8 m c) (arr9 m c) (arr10 m c)
      (tileW m c t e11) (tileB m c t e12) (HN m c) (AW m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [HS0]; · iexact HS0
    isplitl [HS1]; · iexact HS1
    iintro ⟨H0, H1, H2, H3, H4, H5, H6, H7, H8, H9, H10, H11, H12, H13, H14, H15, HS0, HS1⟩
    isplitl [HS0 HS1 Hg]
    · isplitl [HS0 HS1]
      · isplitl [HS0]
        · iexact HS0
        · iexact HS1
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists e11; iexact H11
    isplitl [H12]; · iexists e12; iexact H12
    isplitl [H13]
    · iexists (k0_pay3 (HN m c) (tileW m c t e11) (tileB m c t e12))
      rw [pay3_cut m c t (HN m c) zW e11 zB e12, Window.fill_cut]
      iexact H13
    isplitl [H14]; · iexact H14
    iexact H15

/-- The library's body obligation (the three clipped windows stated on the part their transfers move). -/
theorem body_obligation (c : Dev nD) : BodyObligationLoose (dats m 0 c) (defs₀ (F := Ideal)) Variants.none () Set.univ := fun t => by
  rw [bigSep_W0, bigSep_W0]
  exact sound_body m c t

theorem hin (c : Dev nD) : Pipeline.ΦA spec0 c ⊢ (dats m 0 c).Φ 0 := by
  show Pipeline.ΦA spec0 c ⊢ PhiS m c 0
  exact BI.Entails.refl _

theorem hout (c : Dev nD) : (dats m 0 c).Φ (Fin.last cfg0.N) ⊢ Pipeline.ΦA spec0 c := by
  show PhiS m c (Fin.last cfg0.N).val ⊢ _
  rw [PhiS_pos m c _ (by rw [Fin.val_last]; have : cfg0.N = 26 := N_0; omega), PhiA_eq]
  iintro ⟨⟨HS0, HS1⟩, Hg⟩
  isplitl [HS0 HS1]
  · isplitl [HS0]
    · iexists _; iexact HS0
    · iexists _; iexact HS1
  · iexact Hg

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := Ideal))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame claim of the idealized kernel: it runs and its argument arrays end unchanged. -/
theorem frame :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Body

end
-- ==== Proof.RefSpec.lean ====
import proofs.«416905_j23579370455621_3_alg».proof.Proof.Gen.ReferenceIdeal
import Idealize.ShloMosaic.PureOps.Ideal

/-! The decoder step written once, in the host program's vocabulary, as functions of the argument
arrays: the attention weights, the new hidden state, the output logits and the log-softmax.
Both programs' results are stated through these functions. -/

noncomputable section

namespace Cert.RefSpec

open Cert.ReferenceIdeal Cert.ReferenceIdeal.Gen Idealize.ShloMosaic

variable {F : FTy → Type} [FloatOps F]

/-- The embedding row selected by the token (negative tokens count from the end), as a 1×1024 row. -/
def e0R (emb : FVec F S50257x1024 .f32) (tok : IVec S1 32) : FVec F S1x1024 .f32 :=
  shapeCast _ (shapeCast _ (Host.gather gather_S50257x1024_S1x1_S1x1024_1_0_n_n_0_1_11024 emb
    (broadcastInDim S1x1 ![0] bcast_S1_S1x1_0 (select (cmpi .slt tok (broadcastInDim S1 ![] bcast_S_S1 (constantI S_ 32 0#32)))
      (addi tok (broadcastInDim S1 ![] bcast_S_S1 (constantI S_ 32 50257#32))) tok))) shapeCasts_S1x1024_S1x1x1024) shapeCasts_S1x1x1024_S1x1024

/-- The previous hidden state as a 1×1024 row. -/
def h0R (hid : FVec F S1x1x1024 .f32) : FVec F S1x1024 .f32 := shapeCast _ hid shapeCasts_S1x1x1024_S1x1024

/-- The attention logits: [e0, h0] · attn_Wᵀ + attn_b. -/
def alR (e0 h0 : FVec F S1x1024 .f32) (attnW : FVec F S512x2048 .f32) (attnb : FVec F S512 .f32) : FVec F S1x512 .f32 :=
  addf (Host.dotGeneral dot_S1x2048_S2048x512_S1x512_1_0_0_1_n_n none
      (concatenate S1x2048 1 [⟨S1x1024, e0⟩, ⟨S1x1024, h0⟩] concatenates_S1x1024_S1x1024_S1x2048_d1)
      (transpose S2048x512 [1, 0] attnW transposes_S512x2048_S2048x512_1_0))
    (broadcastInDim S1x512 ![1] bcast_S512_S1x512_1 attnb)

/-- Softmax along the row of a 1×512 vector: exp (x − max x) / Σ exp (x − max x). -/
def softmaxR (x : FVec F S1x512 .f32) : FVec F S1x512 .f32 :=
  Host.divf
    (Host.exp (subf x (broadcastInDim S1x512 ![0, 1] bcast_S1x1_S1x512_0_1 (broadcastInDim S1x1 ![0] bcast_S1_S1x1_0
      (maximumf (broadcastInDim S1 ![] bcast_S_S1 (constant S_ .f32 0xFF800000#32))
        (Host.reduce FloatOps.maximumf x (constant S_ .f32 0xFF800000#32) reducesTo_S1x512_S1_d1 h_S_))))))
    (broadcastInDim S1x512 ![0, 1] bcast_S1x1_S1x512_0_1 (broadcastInDim S1x1 ![0] bcast_S1_S1x1_0
      (Host.reduceAdd
        (Host.exp (subf x (broadcastInDim S1x512 ![0, 1] bcast_S1x1_S1x512_0_1 (broadcastInDim S1x1 ![0] bcast_S1_S1x1_0
          (maximumf (broadcastInDim S1 ![] bcast_S_S1 (constant S_ .f32 0xFF800000#32))
            (Host.reduce FloatOps.maximumf x (constant S_ .f32 0xFF800000#32) reducesTo_S1x512_S1_d1 h_S_))))))
        (constant S_ .f32 0x00000000#32) reducesTo_S1x512_S1_d1 h_S_)))

/-- The attention weights. -/
def awR (e0 h0 : FVec F S1x1024 .f32) (attnW : FVec F S512x2048 .f32) (attnb : FVec F S512 .f32) : FVec F S1x512 .f32 :=
  softmaxR (alR e0 h0 attnW attnb)

/-- The GRU's input: relu ([e0, aw · enc] · comb_Wᵀ + comb_b). -/
def xR (e0 : FVec F S1x1024 .f32) (aw : FVec F S1x512 .f32) (enc : FVec F S512x1024 .f32) (combW : FVec F S1024x2048 .f32)
    (combb : FVec F S1024 .f32) : FVec F S1x1024 .f32 :=
  maximumf
    (addf (Host.dotGeneral dot_S1x2048_S2048x1024_S1x1024_1_0_0_1_n_n none
        (concatenate S1x2048 1 [⟨S1x1024, e0⟩, ⟨S1x1024, Host.dotGeneral dot_S1x512_S512x1024_S1x1024_1_0_0_1_n_n none aw enc⟩]
          concatenates_S1x1024_S1x1024_S1x2048_d1)
        (transpose S2048x1024 [1, 0] combW transposes_S1024x2048_S2048x1024_1_0))
      (broadcastInDim S1x1024 ![1] bcast_S1024_S1x1024_1 combb))
    (broadcastInDim S1x1024 ![] bcast_S_S1x1024 (constant S_ .f32 0x00000000#32))

/-- A gate pre-activation: v · Wᵀ + b, a 1×3072 row. -/
def gateR (v : FVec F S1x1024 .f32) (W : FVec F S3072x1024 .f32) (b : FVec F S3072 .f32) : FVec F S1x3072 .f32 :=
  addf (Host.dotGeneral dot_S1x1024_S1024x3072_S1x3072_1_0_0_1_n_n none v (transpose S1024x3072 [1, 0] W transposes_S3072x1024_S1024x3072_1_0))
    (broadcastInDim S1x3072 ![1] bcast_S3072_S1x3072_1 b)

/-- The logistic function written out: 1 / (1 + exp (−x)). -/
def sigR (x : FVec F S1x1024 .f32) : FVec F S1x1024 .f32 :=
  Host.divf (broadcastInDim S1x1024 ![] bcast_S_S1x1024 (constant S_ .f32 0x3F800000#32))
    (addf (broadcastInDim S1x1024 ![] bcast_S_S1x1024 (constant S_ .f32 0x3F800000#32)) (Host.exp (Host.negf x)))

/-- One GRU step from the two gate rows and the previous state: (1 − z) · n + z · h0. -/
def gruR (gi gh : FVec F S1x3072 .f32) (h0 : FVec F S1x1024 .f32) : FVec F S1x1024 .f32 :=
  addf
    (mulf
      (subf (broadcastInDim S1x1024 ![] bcast_S_S1x1024 (constant S_ .f32 0x3F800000#32))
        (sigR (addf (extractStridedSlice S1x1024 ![0, 1024] gi slices_S1x3072_S1x1024_0_1024) (extractStridedSlice S1x1024 ![0, 1024] gh slices_S1x3072_S1x1024_0_1024))))
      (Host.tanh (addf (extractStridedSlice S1x1024 ![0, 2048] gi slices_S1x3072_S1x1024_0_2048)
        (mulf (sigR (addf (extractStridedSlice S1x1024 ![0, 0] gi slices_S1x3072_S1x1024_0_0) (extractStridedSlice S1x1024 ![0, 0] gh slices_S1x3072_S1x1024_0_0)))
          (extractStridedSlice S1x1024 ![0, 2048] gh slices_S1x3072_S1x1024_0_2048)))))
    (mulf (sigR (addf (extractStridedSlice S1x1024 ![0, 1024] gi slices_S1x3072_S1x1024_0_1024) (extractStridedSlice S1x1024 ![0, 1024] gh slices_S1x3072_S1x1024_0_1024))) h0)

/-- The new hidden state. -/
def hnR (e0 h0 : FVec F S1x1024 .f32) (enc : FVec F S512x1024 .f32) (attnW : FVec F S512x2048 .f32) (attnb : FVec F S512 .f32)
    (combW : FVec F S1024x2048 .f32) (combb : FVec F S1024 .f32) (Wih Whh : FVec F S3072x1024 .f32) (bih bhh : FVec F S3072 .f32) :
    FVec F S1x1024 .f32 :=
  gruR (gateR (xR e0 (awR e0 h0 attnW attnb) enc combW combb) Wih bih) (gateR h0 Whh bhh) h0

/-- The output logits: hn · out_Wᵀ + out_b. -/
def logitsR (hn : FVec F S1x1024 .f32) (outW : FVec F S50257x1024 .f32) (outb : FVec F S50257 .f32) : FVec F S1x50257 .f32 :=
  addf (Host.dotGeneral dot_S1x1024_S1024x50257_S1x50257_1_0_0_1_n_n none hn (transpose S1024x50257 [1, 0] outW transposes_S50257x1024_S1024x50257_1_0))
    (broadcastInDim S1x50257 ![1] bcast_S50257_S1x50257_1 outb)

/-- Log-softmax along the row of a 1×50257 vector. -/
def lsR (x : FVec F S1x50257 .f32) : FVec F S1x50257 .f32 :=
  subf
    (subf x (broadcastInDim S1x50257 ![0, 1] bcast_S1x1_S1x50257_0_1 (broadcastInDim S1x1 ![0] bcast_S1_S1x1_0
      (maximumf (broadcastInDim S1 ![] bcast_S_S1 (constant S_ .f32 0xFF800000#32))
        (Host.reduce FloatOps.maximumf x (constant S_ .f32 0xFF800000#32) reducesTo_S1x50257_S1_d1 h_S_)))))
    (broadcastInDim S1x50257 ![0, 1] bcast_S1x1_S1x50257_0_1 (Host.log (broadcastInDim S1x1 ![0] bcast_S1_S1x1_0
      (Host.reduceAdd
        (Host.exp (subf x (broadcastInDim S1x50257 ![0, 1] bcast_S1x1_S1x50257_0_1 (broadcastInDim S1x1 ![0] bcast_S1_S1x1_0
          (maximumf (broadcastInDim S1 ![] bcast_S_S1 (constant S_ .f32 0xFF800000#32))
            (Host.reduce FloatOps.maximumf x (constant S_ .f32 0xFF800000#32) reducesTo_S1x50257_S1_d1 h_S_))))))
        (constant S_ .f32 0x00000000#32) reducesTo_S1x50257_S1_d1 h_S_))))

/-- The hidden state as the 1×1×1024 result. -/
def hn3R (hn : FVec F S1x1024 .f32) : FVec F S1x1x1024 .f32 := broadcastInDim S1x1x1024 ![1, 2] bcast_S1x1024_S1x1x1024_1_2 hn

end Cert.RefSpec

end
-- ==== Proof.Take.lean ====
import proofs.«416905_j23579370455621_3_alg».proof.Proof.Gen.KernelIdeal
import proofs.«416905_j23579370455621_3_alg».proof.Proof.Gen.Pre_finite_inputs
import proofs.«416905_j23579370455621_3_alg».proof.Proof.RefSpec
import Idealize.ShloMosaic.Lib.ValueIdx
import Idealize.ShloMosaic.Lib.ReduceAll
import Idealize.ShloMosaic.Lib.StableHlo.Predicate

/-! The embedding lookup. The kernel's program looks the token's row up with a fill for tokens out of range;
the reference's looks it up directly. Under the precondition the token lies in [0, 50257), the range test
is true on every lane, and the two lookups are one function of the table and the token. -/

noncomputable section

namespace Cert.Take

open Cert.KernelIdeal Cert.KernelIdeal.Gen Idealize.ShloMosaic Idealize.ShloMosaic.ValueIdx

variable {F : FTy → Type} [FloatOps F]

/-- The row index the kernel's program looks up: the token, a negative one counted from the end. -/
def idxK (tok : IVec S1 32) : IVec S1x1 32 :=
  broadcastInDim S1x1 ![0] bcast_S1_S1x1_0 (select (cmpi .slt tok (broadcastInDim S1 ![] bcast_S_S1 (constantI S_ 32 0#32)))
    (addi tok (broadcastInDim S1 ![] bcast_S_S1 (constantI S_ 32 50257#32))) tok)

/-- The kernel program's lookup: the gathered row where the index is in range, a fill elsewhere. -/
def takeK (emb : FVec F S50257x1024 .f32) (tok : IVec S1 32) : FVec F S1x1024 .f32 :=
  select
    (broadcastInDim S1x1024 ![0] bcast_S1_S1x1024_0
      (Host.reduce IntOp.andi
        (andi (cmpi .sge (idxK tok) (broadcastInDim S1x1 ![] bcast_S_S1x1 (constantI S_ 32 0#32)))
          (cmpi .sle (idxK tok) (broadcastInDim S1x1 ![1] bcast_S1_S1x1_1 (constantI S1 32 50256#32))))
        (constantI S_ 1 1#1) reducesTo_S1x1_S1_d1 h_S_))
    (Host.gather gather_S50257x1024_S1x1_S1x1024_1_0_n_n_0_1_11024 emb (idxK tok))
    (broadcastInDim S1x1024 ![] bcast_S_S1x1024 (constant S_ .f32 0x7FC00000#32))

/-- The kernel's first operand: the looked-up row as a 1×1024 row. -/
def e0K (emb : FVec F S50257x1024 .f32) (tok : IVec S1 32) : FVec F S1x1024 .f32 :=
  shapeCast _ (shapeCast _ (takeK emb tok) shapeCasts_S1x1024_S1x1x1024) shapeCasts_S1x1x1024_S1x1024

open Idealize.ShloMosaic.StableHlo in
/-- A word that is ≥ 0 and < 50257, both signed, is below 50257 as a natural number. -/
theorem word_in_range (w : BitVec 32) (h0 : IntOp.cmpi .sge w 0#32 = 1#1) (h1 : IntOp.cmpi .slt w 50257#32 = 1#1) :
    w.toNat < 50257 := by
  unfold IntOp.cmpi at h0 h1
  rw [Predicate.ofBool_eq_one_iff] at h0 h1
  simp only [BitVec.sle, BitVec.slt, decide_eq_true_eq] at h0 h1
  have hw := w.isLt
  have z : (0#32 : BitVec 32).toInt = 0 := by decide
  have c : (50257#32 : BitVec 32).toInt = 50257 := by decide
  rw [z, BitVec.toInt_eq_toNat_cond] at h0
  rw [c, BitVec.toInt_eq_toNat_cond] at h1
  split at h0 <;> split at h1 <;> omega

open Idealize.ShloMosaic.StableHlo in
/-- For a word in [0, 50257) the wrapped index is the word itself, and it passes the kernel's range test. -/
theorem lane_one (w : BitVec 32) (hw : w.toNat < 50257) :
    IntOp.andi (IntOp.cmpi .sge (Scalar.select (IntOp.cmpi .slt w 0#32) (IntOp.addi w 50257#32) w) 0#32)
      (IntOp.cmpi .sle (Scalar.select (IntOp.cmpi .slt w 0#32) (IntOp.addi w 50257#32) w) 50256#32) = 1#1 := by
  have hs : IntOp.cmpi .slt w 0#32 = 0#1 := by
    apply eq_zero_of_ne_one
    intro hc
    have := (Predicate.slt_iff_toNat (a := w) (b := 0#32) (by omega) (by decide)).1 hc
    simp at this
  rw [hs, select_zero]
  exact IntOp.andi_eq_one.2 ⟨(Predicate.sge_iff_toNat (by omega) (by decide)).2 (by simp),
    (Predicate.sle_iff_toNat (a := w) (b := 50256#32) (by omega) (by decide)).2 (by
      show w.toNat ≤ 50256; omega)⟩

/-- A left fold by `and` over one-bit words that are all 1, from 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- A reduce by `and` from 1 of an array of ones is 1 at every result index. -/
theorem reduce_andi_ones {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_foldl]
  exact foldl_andi_ones x hx _

/-- A select whose mask is 1 on every lane is its first branch. -/
theorem select_of_ones {s : Shape} {α : Type} (c : IVec s 1) (hc : ∀ j, c j = 1#1) (a b : s.Idx → α) : select c a b = a :=
  funext fun j => by rw [select_apply, hc j, select_one]

/-- With the token in [0, 50257) the kernel's range test passes on every lane, and its lookup is the gathered row. -/
theorem takeK_eq (emb : FVec F S50257x1024 .f32) (tok : IVec S1 32) (hw : ∀ i, (tok i).toNat < 50257) :
    takeK emb tok = Host.gather gather_S50257x1024_S1x1_S1x1024_1_0_n_n_0_1_11024 emb (idxK tok) := by
  unfold takeK
  exact select_of_ones _ (fun j => reduce_andi_ones _ (fun k => lane_one _ (hw _)) _ _ _) _ _

/-- Under the precondition (the float inputs finite and the token in [0, 50257)) the two programs look up the same row. -/
theorem e0K_eq_of_pre (a0 : IVec S1 32) (a1 : FVec Ideal S1x1x1024 .f32) (a2 : FVec Ideal S512x1024 .f32) (a3 : FVec Ideal S50257x1024 .f32) (a4 : FVec Ideal S512x2048 .f32) (a5 : FVec Ideal S512 .f32) (a6 : FVec Ideal S1024x2048 .f32) (a7 : FVec Ideal S1024 .f32) (a8 : FVec Ideal S3072x1024 .f32) (a9 : FVec Ideal S3072x1024 .f32) (a10 : FVec Ideal S3072 .f32) (a11 : FVec Ideal S3072 .f32) (a12 : FVec Ideal S50257x1024 .f32) (a13 : FVec Ideal S50257 .f32)
    (h : Cert.Pre_finite_inputs.fn (F := Ideal) a0 a1 a2 a3 a4 a5 a6 a7 a8 a9 a10 a11 a12 a13 = fun _ => 1#1) :
    e0K a3 a0 = Cert.RefSpec.e0R a3 a0 := by
  haveI : Subsingleton Cert.Pre_finite_inputs.S_.Idx := ⟨fun a b => funext fun d => d.elim0⟩
  have e := congrFun h ix0
  dsimp only [Cert.Pre_finite_inputs.fn, Cert.Pre_finite_inputs.fn_part1, Cert.Pre_finite_inputs.fn_part2,
    Cert.Pre_finite_inputs.fn_part3, Cert.Pre_finite_inputs.fn_part4, andi] at e
  rw [IntOp.andi_eq_one] at e
  obtain ⟨e67, e70⟩ := e
  rw [IntOp.andi_eq_one] at e67
  obtain ⟨-, e66⟩ := e67
  have hge : ∀ i, IntOp.cmpi .sge (a0 i) 0#32 = 1#1 := fun i => Host.reduce_andi_all _ _ _ _ _ e66 i
  have hlt : ∀ i, IntOp.cmpi .slt (a0 i) 50257#32 = 1#1 := fun i => Host.reduce_andi_all _ _ _ _ _ e70 i
  have hw : ∀ i, (a0 i).toNat < 50257 := fun i => word_in_range _ (hge i) (hlt i)
  unfold e0K
  rw [takeK_eq a3 a0 hw]
  rfl

end Cert.Take

end
-- ==== Proof.KI.Tail.lean ====
import proofs.«416905_j23579370455621_3_alg».proof.Proof.KI.Frame
import proofs.«416905_j23579370455621_3_alg».proof.Proof.Take
import proofs.«416905_j23579370455621_3_alg».proof.Proof.RefSpec
import Idealize.ShloMosaic.Lib.StableHlo.Run

/-! The host lines around the region. Before it: the kernel's first two operands are the looked-up embedding row and
the previous hidden state reshaped to rows. After it: the log-softmax of the logits array, and row 0 of each of the
two small outputs (the first given a leading unit axis). -/

set_option maxRecDepth 16384

noncomputable section

namespace Cert.KernelIdeal.Body

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ)

/-- A transport there and back is the identity. -/
private theorem tail_cast_cast {α β : Type} (h : α = β) (h' : β = α) (v : α) : cast h' (cast h v) = v := by
  subst h; rfl

/-- The buffers' contents after the host lines that follow the region. -/
abbrev tailV (c : Dev nD) (b : Ref sig .tc) : Buf (Elt Ideal) ((c.tc : Thread nD τ).loc b) :=
  Pipeline.afterTail₀ cfgs (dats m) 0 (V0 m) [hostOps1, hostOps1_1, hostOps1_2] c b

/-- The kernel's first operand is the embedding row the kernel's program looks up. -/
theorem arr0_eq (c : Dev nD) :
    arr0 m c = Cert.Take.e0K (F := Ideal) (m ((c.tc : Thread nD τ).loc main_arg3)) (m ((c.tc : Thread nD τ).loc main_arg0)) := by
  show StableHlo.after (List.flatten [hostOps0, hostOps0_1]) (fun b => m (c, b)) (Proc.devRef .tc main_v2) = _
  simp only [hostOps0, hostOps0_1, List.flatten_cons, List.flatten_nil, List.append_nil, List.cons_append, List.nil_append]
  after_results_simp
  rfl

/-- Its second operand is the previous hidden state as a row. -/
theorem arr1_eq (c : Dev nD) : arr1 m c = Cert.RefSpec.h0R (F := Ideal) (m ((c.tc : Thread nD τ).loc main_arg1)) := by
  show StableHlo.after (List.flatten [hostOps0, hostOps0_1]) (fun b => m (c, b)) (Proc.devRef .tc main_v3) = _
  simp only [hostOps0, hostOps0_1, List.flatten_cons, List.flatten_nil, List.append_nil, List.cons_append, List.nil_append]
  after_results
  rfl

/-- The first result: the log-softmax of the logits array. -/
theorem tail7 (c : Dev nD) : tailV m c main_v7 = Cert.RefSpec.lsR (F := Ideal) ((dats m 0 c).arrAt 13 cfg0.N) := by
  have h13 : Pipeline.withArrays (cfgs 0).spec c (V0 m c) (fun w => (dats m 0 c).arrAt w (cfgs 0).N) (Proc.devRef .tc main_v4_0)
      = (dats m 0 c).arrAt 13 cfg0.N := Pipeline.withArrays_arr spec0 launch0.win.arr_inj c _ _ 13
  unfold tailV Pipeline.afterTail₀
  show StableHlo.after (List.flatten [hostOps1, hostOps1_1, hostOps1_2]) _ (Proc.devRef .tc main_v7) = _
  simp only [hostOps1, hostOps1_1, hostOps1_2, List.flatten_cons, List.flatten_nil, List.append_nil, List.cons_append, List.nil_append]
  after_results_simp
  rw [h13]
  generalize (dats m 0 c).arrAt 13 cfg0.N = X
  simp only [StableHlo.TRef.ofBuf, StableHlo.TRef.toBuf, tail_cast_cast]
  refine (cast_eq _ _).trans ?_
  generalize_proofs h2
  rw [show cast h2 X = X from cast_eq _ _]
  rfl

/-- The second result: row 0 of the hidden-state output, with a leading unit axis. -/
theorem tail8 (c : Dev nD) :
    tailV m c main_v8
      = Cert.RefSpec.hn3R (F := Ideal) (extractStridedSlice S1x1024 ![0, 0] ((dats m 0 c).arrAt 14 cfg0.N) slices_S16x1024_S1x1024_0_0) := by
  have h14 : Pipeline.withArrays (cfgs 0).spec c (V0 m c) (fun w => (dats m 0 c).arrAt w (cfgs 0).N) (Proc.devRef .tc main_v4_1)
      = (dats m 0 c).arrAt 14 cfg0.N := Pipeline.withArrays_arr spec0 launch0.win.arr_inj c _ _ 14
  unfold tailV Pipeline.afterTail₀
  show StableHlo.after (List.flatten [hostOps1, hostOps1_1, hostOps1_2]) _ (Proc.devRef .tc main_v8) = _
  simp only [hostOps1, hostOps1_1, hostOps1_2, List.flatten_cons, List.flatten_nil, List.append_nil, List.cons_append, List.nil_append]
  after_results_simp
  rw [h14]
  generalize (dats m 0 c).arrAt 14 cfg0.N = X
  rfl

/-- The third result: row 0 of the attention-weights output. -/
theorem tail6 (c : Dev nD) :
    tailV m c main_v6 = extractStridedSlice S1x512 ![0, 0] ((dats m 0 c).arrAt 15 cfg0.N) slices_S16x512_S1x512_0_0 := by
  have h15 : Pipeline.withArrays (cfgs 0).spec c (V0 m c) (fun w => (dats m 0 c).arrAt w (cfgs 0).N) (Proc.devRef .tc main_v4_2)
      = (dats m 0 c).arrAt 15 cfg0.N := Pipeline.withArrays_arr spec0 launch0.win.arr_inj c _ _ 15
  unfold tailV Pipeline.afterTail₀
  show StableHlo.after (List.flatten [hostOps1, hostOps1_1, hostOps1_2]) _ (Proc.devRef .tc main_v6) = _
  simp only [hostOps1, hostOps1_1, hostOps1_2, List.flatten_cons, List.flatten_nil, List.append_nil, List.cons_append, List.nil_append]
  after_results_simp
  rw [h15]

end Cert.KernelIdeal.Body

end
-- ==== Proof.LibKernelHost.lean ====
import Idealize.ShloMosaic.Lib.ValueIdx
import Idealize.ShloMosaic.Lib.Pipeline.Value
import Idealize.ShloMosaic.Lib.ValueLayout
import Idealize.ShloMosaic.Lib.KernelVsHost
import Idealize.ShloMosaic.Lib.IdealHost
import Idealize.ShloMosaic.PureOps.Ideal.Laws
import Idealize.ShloMosaic.PureOps.Reduce

/-! One value, two spellings, at the ideal values and at rank 2: a matrix product into a zero accumulator whose right
operand is contracted on its last axis is the host's product with the transposed right operand (both are the sum over
`k` of `l (a, k) * r (b, k)`); a row maximum or row sum is the host's reduction; the logistic is
`1 / (1 + exp (−x))`; a vector cast to one row is its broadcast along axis 1; a one-entry vector cast to a 1×1 matrix and
broadcast along a row is the host's two broadcasts of it. Also the two products, a bias row and a row broadcast read at
an index by coordinates. -/

noncomputable section

namespace Cert.LibBridge

open Idealize.ShloMosaic Idealize.ShloMosaic.ValueIdx

/-! ## The two contraction sums over `Fin K` -/

/-- Dimension numbers of a product `M×K` by `N×K`: both operands contracted on their last axis, no batch axis. -/
abbrev DimsT {M K N : Nat} (d : DotDims ⟨2, ![M, K]⟩ ⟨2, ![N, K]⟩ ⟨2, ![M, N]⟩) : Prop :=
  d.lhsContracting = [1] ∧ d.rhsContracting = [1] ∧ d.lhsNonContracting = [0] ∧ d.rhsNonContracting = [0] ∧
    d.lhsBatch = [] ∧ d.rhsBatch = []

/-- Dimension numbers of a plain product `M×K` by `K×N`, no batch axis. -/
abbrev DimsPlain {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1] ∧
    d.lhsBatch = [] ∧ d.rhsBatch = []

/-- The contraction sum of a product whose right operand is contracted on its LAST axis (`M×K` by `N×K`), at `(a, b)`:
    the sum over `k` of `l (a, k) * r (b, k)`. -/
theorem dot_sum_T {M K N : Nat} (d : DotDims ⟨2, ![M, K]⟩ ⟨2, ![N, K]⟩ ⟨2, ![M, N]⟩) (hd : DimsT d)
    (l : (⟨2, ![M, K]⟩ : Shape).Idx → EReal) (r : (⟨2, ![N, K]⟩ : Shape).Idx → EReal) (a : Fin M) (b : Fin N) :
    ∑ k : d.contr.Idx, l (d.lhsIdx (ix2 a b) k) * r (d.rhsIdx (ix2 a b) k) = ∑ k : Fin K, l (ix2 a k) * r (ix2 b k) := by
  obtain ⟨hlc, hrc, hln, hrn, hlb, hrb⟩ := hd
  obtain ⟨lc, rc, ln, rn, lb, rb, wf⟩ := d
  simp only at hlc hrc hln hrn hlb hrb
  subst hlc hrc hln hrn hlb hrb
  generalize hD : (⟨[1], [1], [0], [0], [], [], wf⟩ : DotDims ⟨2, ![M, K]⟩ ⟨2, ![N, K]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun i _ => ?_
  have hl : D.lhsIdx (ix2 a b) ((contrEquiv1 D K hr hs).symm i) = ix2 a i :=
    Shape.idx_ext₂ (by subst hD; rfl)
      ((D.lhsIdx_val_of_single (by subst hD; rfl) _ _).trans (contrEquiv1_symm_val D K hr hs i))
  have hrr : D.rhsIdx (ix2 a b) ((contrEquiv1 D K hr hs).symm i) = ix2 b i :=
    Shape.idx_ext₂ (by subst hD; rfl)
      ((D.rhsIdx_val_of_single (by subst hD; rfl) _ _).trans (contrEquiv1_symm_val D K hr hs i))
  rw [hl, hrr]

/-- The contraction sum of a plain product (`M×K` by `K×N`), at `(a, b)`: the sum over `k` of `l (a, k) * r (k, b)`. -/
theorem dot_sum_plain {M K N : Nat} (d : DotDims ⟨2, ![M, K]⟩ ⟨2, ![K, N]⟩ ⟨2, ![M, N]⟩) (hd : DimsPlain d)
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨hlc, hrc, hln, hrn, hlb, hrb⟩ := hd
  obtain ⟨lc, rc, ln, rn, lb, rb, wf⟩ := d
  simp only at hlc hrc hln hrn hlb hrb
  subst hlc hrc hln hrn hlb hrb
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun i _ => ?_
  have hl : D.lhsIdx (ix2 a b) ((contrEquiv1 D K hr hs).symm i) = ix2 a i :=
    Shape.idx_ext₂ (by subst hD; rfl)
      ((D.lhsIdx_val_of_single (by subst hD; rfl) _ _).trans (contrEquiv1_symm_val D K hr hs i))
  have hrr : D.rhsIdx (ix2 a b) ((contrEquiv1 D K hr hs).symm i) = ix2 i b :=
    Shape.idx_ext₂ ((D.rhsIdx_val_of_single (by subst hD; rfl) _ _).trans (contrEquiv1_symm_val D K hr hs i))
      (by subst hD; rfl)
  rw [hl, hrr]

/-! ## The two products read at an index -/

/-- A product into the zero splat, right operand contracted on its last axis, at `(a, b)`. -/
theorem matmulT_apply {M K N : Nat} (d : DotDims ⟨2, ![M, K]⟩ ⟨2, ![N, K]⟩ ⟨2, ![M, N]⟩) (hd : DimsT d)
    (prec : Option ContractPrecision) (l : FVec Ideal ⟨2, ![M, K]⟩ .f32) (r : FVec Ideal ⟨2, ![N, K]⟩ .f32) (a : Fin M) (b : Fin N) :
    matmul d prec l r (constant ⟨2, ![M, N]⟩ .f32 0x00000000#32) (ix2 a b) = ∑ k : Fin K, l (ix2 a k) * r (ix2 b k) :=
  (Ideal.matmul_constant_zero_apply d prec l r (ix2 a b)).trans (dot_sum_T d hd l r a b)

/-- The host's plain product at `(a, b)`. -/
theorem dotGeneral_plain_apply {M K N : Nat} (d : DotDims ⟨2, ![M, K]⟩ ⟨2, ![K, N]⟩ ⟨2, ![M, N]⟩) (hd : DimsPlain d)
    (prec : Option ContractPrecision) (l : FVec Ideal ⟨2, ![M, K]⟩ .f32) (r : FVec Ideal ⟨2, ![K, N]⟩ .f32) (a : Fin M) (b : Fin N) :
    Host.dotGeneral d prec l r (ix2 a b) = ∑ k : Fin K, l (ix2 a k) * r (ix2 k b) :=
  (Ideal.dotGeneral_apply d prec .single l r (ix2 a b)).trans (dot_sum_plain d hd l r a b)

/-- The host's product with a transposed right operand, at `(a, b)`. -/
theorem dotGeneral_transpose_apply {M K N : Nat} (d : DotDims ⟨2, ![M, K]⟩ ⟨2, ![K, N]⟩ ⟨2, ![M, N]⟩) (hd : DimsPlain d)
    (prec : Option ContractPrecision) (ht : (⟨2, ![N, K]⟩ : Shape).Transposes [1, 0] ⟨2, ![K, N]⟩)
    (l : FVec Ideal ⟨2, ![M, K]⟩ .f32) (r : FVec Ideal ⟨2, ![N, K]⟩ .f32) (a : Fin M) (b : Fin N) :
    Host.dotGeneral d prec l (transpose ⟨2, ![K, N]⟩ [1, 0] r ht) (ix2 a b) = ∑ k : Fin K, l (ix2 a k) * r (ix2 b k) := by
  rw [dotGeneral_plain_apply d hd]
  exact Finset.sum_congr rfl fun k _ => by rw [transpose_ix2_apply]

/-- A product into the zero splat against a weight contracted on its last axis IS the host's product with the
    transposed weight. -/
theorem matmulT_eq_dotGeneral_transpose {M K N : Nat} (dk : DotDims ⟨2, ![M, K]⟩ ⟨2, ![N, K]⟩ ⟨2, ![M, N]⟩) (hk : DimsT dk)
    (dr : DotDims ⟨2, ![M, K]⟩ ⟨2, ![K, N]⟩ ⟨2, ![M, N]⟩) (hr : DimsPlain dr) (prec prec' : Option ContractPrecision)
    (ht : (⟨2, ![N, K]⟩ : Shape).Transposes [1, 0] ⟨2, ![K, N]⟩)
    (l : FVec Ideal ⟨2, ![M, K]⟩ .f32) (r : FVec Ideal ⟨2, ![N, K]⟩ .f32) :
    matmul dk prec l r (constant ⟨2, ![M, N]⟩ .f32 0x00000000#32)
      = Host.dotGeneral dr prec' l (transpose ⟨2, ![K, N]⟩ [1, 0] r ht) := by
  funext j
  obtain ⟨a, b, rfl⟩ : ∃ (a : Fin M) (b : Fin N), j = ix2 a b := ⟨j 0, j 1, eq_ix2 j⟩
  rw [matmulT_apply dk hk, dotGeneral_transpose_apply dr hr]

/-! ## Elementwise operations -/

section Elementwise
variable {s : Shape} {φ : FTy}

/-- The kernel's exponential is the host's. -/
theorem exp_eq_hostExp (x : FVec Ideal s φ) : exp x = Host.exp x := rfl
/-- The kernel's hyperbolic tangent is the host's. -/
theorem tanh_eq_hostTanh (x : FVec Ideal s φ) : tanh x = Host.tanh x := rfl
/-- The kernel's quotient is the host's. -/
theorem divf_eq_hostDivf (x y : FVec Ideal s φ) : divf x y = Host.divf x y := rfl

/-- A scalar splat is the host's broadcast of the rank-0 constant. -/
theorem broadcast_eq_broadcastInDim_constant {t : Shape} (h : (⟨0, ![]⟩ : Shape).BroadcastsInDim t ![]) (w : BitVec φ.bits) :
    broadcast t (Scalar.ofBits (F := Ideal) φ w) = broadcastInDim t ![] h (constant (F := Ideal) ⟨0, ![]⟩ φ w) :=
  (broadcastInDim_constant (F := Ideal) (s := ⟨0, ![]⟩) (t := t) ![] h w).symm

/-- The logistic is `1 / (1 + exp (−x))`, in the host's operations. -/
theorem logistic_eq (h : (⟨0, ![]⟩ : Shape).BroadcastsInDim s ![]) (x : FVec Ideal s .f32) :
    logistic x = Host.divf (broadcastInDim s ![] h (constant (F := Ideal) ⟨0, ![]⟩ .f32 0x3F800000#32))
      (addf (broadcastInDim s ![] h (constant (F := Ideal) ⟨0, ![]⟩ .f32 0x3F800000#32)) (Host.exp (Host.negf x))) := by
  funext j
  show Ideal.logistic (x j) = Ideal.div (Ideal.ofBits .f32 0x3F800000#32) (Ideal.ofBits .f32 0x3F800000#32 + Ideal.exp (-(x j)))
  rw [Ideal.ofBits_one_f32]
  rfl

end Elementwise

/-! ## Reductions over one axis -/

section Reductions
variable {s t u : Shape} {φ : FTy} {a : Fin s.rank}

/-- A kernel's maximum over one axis from its accumulator's value is the host's reduce with a maximum body from the same
    constant. -/
theorem multiReduction_maximumf_eq_hostReduce (src : FVec Ideal s φ) (acc : BitVec φ.bits) (h : s.Reduces [a] t)
    (hφ : FKind.Formats φ) (hacc : acc = FKind.maximumf.neutral φ hφ) (h' : s.ReducesTo [a] t) (hu : 0 < u.numel) :
    multiReduction .maximumf [a] t src acc h hφ hacc
      = Host.reduce FloatOps.maximumf src (constant (F := Ideal) u φ acc) h' hu := by
  funext j
  rw [Ideal.multiReduction_maximumf_single src acc h hφ hacc j, Host.reduce_eq_fold_single FloatOps.maximumf src _ h' h hu j]
  rfl

end Reductions

/-! ## Layout -/

section Layout
variable {α : Type}

/-- A vector of `n` entries cast to one row is its broadcast along axis 1. -/
theorem shapeCast_row_eq_broadcastInDim {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  obtain ⟨p, c, rfl⟩ : ∃ (p : Fin 1) (c : Fin n), i = ix2 p c := ⟨i 0, i 1, eq_ix2 i⟩
  rw [shapeCast_a_1a_apply]
  refine (broadcastInDim_apply ![1] hd x (ix2 p c) (ix1 c) fun ax => ?_).symm
  match ax with
  | ⟨0, _⟩ =>
    show c.val = if n = 1 then 0 else c.val
    split
    · have := c.isLt; omega
    · rfl

/-- A vector broadcast along axis 1 of a one-row matrix, at `(p, c)`. -/
theorem broadcastInDim_row_apply {n : Nat} (x : (⟨1, ![n]⟩ : Shape).Idx → α)
    (hd : (⟨1, ![n]⟩ : Shape).BroadcastsInDim ⟨2, ![1, n]⟩ ![1]) (p : Fin 1) (c : Fin n) :
    broadcastInDim ⟨2, ![1, n]⟩ ![1] hd x (ix2 p c) = x (ix1 c) := by
  refine broadcastInDim_apply ![1] hd x (ix2 p c) (ix1 c) fun ax => ?_
  match ax with
  | ⟨0, _⟩ =>
    show c.val = if n = 1 then 0 else c.val
    split
    · have := c.isLt; omega
    · rfl

/-- Every index of the one-entry vector shape is the same. -/
theorem idx1_one (j k : (⟨1, ![1]⟩ : Shape).Idx) : j = k := by
  have hj : (j 0).val < 1 := (j 0).isLt
  have hk : (k 0).val < 1 := (k 0).isLt
  rw [eq_ix1 j, eq_ix1 k]
  exact congrArg ix1 (Fin.ext (by omega))

/-- A one-entry vector cast to a 1×1 matrix and broadcast along a row is the host's two broadcasts of it. -/
theorem broadcastTo_shapeCast_one_eq {n : Nat} (z : (⟨1, ![1]⟩ : Shape).Idx → α)
    (hsc : (⟨1, ![1]⟩ : Shape).ShapeCasts ⟨2, ![1, 1]⟩) (hb : (⟨2, ![1, 1]⟩ : Shape).Broadcasts ⟨2, ![1, n]⟩)
    (h1 : (⟨1, ![1]⟩ : Shape).BroadcastsInDim ⟨2, ![1, 1]⟩ ![0])
    (h2 : (⟨2, ![1, 1]⟩ : Shape).BroadcastsInDim ⟨2, ![1, n]⟩ ![0, 1]) :
    broadcastTo ⟨2, ![1, n]⟩ (shapeCast ⟨2, ![1, 1]⟩ z hsc) hb
      = broadcastInDim ⟨2, ![1, n]⟩ ![0, 1] h2 (broadcastInDim ⟨2, ![1, 1]⟩ ![0] h1 z) := by
  funext j
  unfold broadcastTo shapeCast broadcastInDim
  exact congrArg z (idx1_one _ _)

end Layout

end Cert.LibBridge

end
-- ==== Proof.PayParts.lean ====
import proofs.«416905_j23579370455621_3_alg».proof.Proof.Gen.KernelIdeal.Skeleton
import proofs.«416905_j23579370455621_3_alg».proof.Proof.RefSpec
import proofs.«416905_j23579370455621_3_alg».proof.Proof.LibKernelHost
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

/-! The kernel body's pieces in the vector vocabulary (attention logits, row softmax, GRU input, gate row, GRU step), each
equal at the ideal values to the decoder step's function of the same name in the host program's vocabulary, and the
body's named values as compositions of the pieces. -/

noncomputable section

namespace Cert.PayParts

open Cert.KernelIdeal Cert.KernelIdeal.Gen Idealize.ShloMosaic Idealize.ShloMosaic.ValueIdx Cert.LibBridge

/-! ## The identity casts -/

theorem pay6_eq (v : FVec Ideal S1x1024 .f32) : k0_pay6 v = v := shapeCast_self v _
theorem pay7_eq (v : FVec Ideal S1x1024 .f32) : k0_pay7 v = v := shapeCast_self v _
theorem pay2_eq (v : FVec Ideal S1x512 .f32) : k0_pay2 v = v := shapeCast_self v _

/-! ## The products against a transposed weight -/

/-- The attention product. -/
theorem mm_attn (l : FVec Ideal S1x2048 .f32) (r : FVec Ideal S512x2048 .f32) :
    matmul dot_S1x2048_S512x2048_S1x512_1_1_0_0_n_n none l r (constant S1x512 .f32 0x00000000#32)
      = Host.dotGeneral Cert.ReferenceIdeal.dot_S1x2048_S2048x512_S1x512_1_0_0_1_n_n none l
          (transpose Cert.ReferenceIdeal.S2048x512 [1, 0] r Cert.ReferenceIdeal.Gen.transposes_S512x2048_S2048x512_1_0) :=
  matmulT_eq_dotGeneral_transpose _ ⟨rfl, rfl, rfl, rfl, rfl, rfl⟩ _ ⟨rfl, rfl, rfl, rfl, rfl, rfl⟩ none none _ l r

/-- The combine product. -/
theorem mm_comb (l : FVec Ideal S1x2048 .f32) (r : FVec Ideal S1024x2048 .f32) :
    matmul dot_S1x2048_S1024x2048_S1x1024_1_1_0_0_n_n none l r (constant S1x1024 .f32 0x00000000#32)
      = Host.dotGeneral Cert.ReferenceIdeal.dot_S1x2048_S2048x1024_S1x1024_1_0_0_1_n_n none l
          (transpose Cert.ReferenceIdeal.S2048x1024 [1, 0] r Cert.ReferenceIdeal.Gen.transposes_S1024x2048_S2048x1024_1_0) :=
  matmulT_eq_dotGeneral_transpose _ ⟨rfl, rfl, rfl, rfl, rfl, rfl⟩ _ ⟨rfl, rfl, rfl, rfl, rfl, rfl⟩ none none _ l r

/-- A gate product. -/
theorem mm_gate (l : FVec Ideal S1x1024 .f32) (r : FVec Ideal S3072x1024 .f32) :
    matmul dot_S1x1024_S3072x1024_S1x3072_1_1_0_0_n_n none l r (constant S1x3072 .f32 0x00000000#32)
      = Host.dotGeneral Cert.ReferenceIdeal.dot_S1x1024_S1024x3072_S1x3072_1_0_0_1_n_n none l
          (transpose Cert.ReferenceIdeal.S1024x3072 [1, 0] r Cert.ReferenceIdeal.Gen.transposes_S3072x1024_S1024x3072_1_0) :=
  matmulT_eq_dotGeneral_transpose _ ⟨rfl, rfl, rfl, rfl, rfl, rfl⟩ _ ⟨rfl, rfl, rfl, rfl, rfl, rfl⟩ none none _ l r

/-- The attention-applied product has the same dimension numbers in both programs. -/
theorem dot_apply_eq : dot_S1x512_S512x1024_S1x1024_1_0_0_1_n_n = Cert.ReferenceIdeal.dot_S1x512_S512x1024_S1x1024_1_0_0_1_n_n := rfl

/-- The attention-applied product. -/
theorem mm_apply (l : FVec Ideal S1x512 .f32) (r : FVec Ideal S512x1024 .f32) :
    matmul dot_S1x512_S512x1024_S1x1024_1_0_0_1_n_n none l r (constant S1x1024 .f32 0x00000000#32)
      = Host.dotGeneral Cert.ReferenceIdeal.dot_S1x512_S512x1024_S1x1024_1_0_0_1_n_n none l r := by
  rw [← dot_apply_eq]
  exact matmul_zero_eq_dotGeneral _ none l r

/-! ## The attention logits -/

/-- The attention logits in the kernel's spelling. -/
def alK (e0 h0 : FVec Ideal S1x1024 .f32) (W : FVec Ideal S512x2048 .f32) (b : FVec Ideal S512 .f32) : FVec Ideal S1x512 .f32 :=
  addf (matmul dot_S1x2048_S512x2048_S1x512_1_1_0_0_n_n none
      (concatenate S1x2048 1 [⟨S1x1024, k0_pay6 e0⟩, ⟨S1x1024, k0_pay7 h0⟩] concatenates_S1x1024_S1x1024_S1x2048_d1)
      W (constant S1x512 .f32 0x00000000#32))
    (shapeCast S1x512 b shapeCasts_S512_S1x512)

theorem alK_eq (e0 h0 : FVec Ideal S1x1024 .f32) (W : FVec Ideal S512x2048 .f32) (b : FVec Ideal S512 .f32) :
    alK e0 h0 W b = Cert.RefSpec.alR e0 h0 W b := by
  unfold alK Cert.RefSpec.alR
  rw [pay6_eq, pay7_eq, mm_attn, shapeCast_row_eq_broadcastInDim b _ Cert.ReferenceIdeal.Gen.bcast_S512_S1x512_1]

/-! ## The row softmax -/

/-- The row maximum laid along the row, in the kernel's spelling. -/
def rowMaxK (x : FVec Ideal S1x512 .f32) : FVec Ideal S1x512 .f32 :=
  broadcastTo S1x512 (shapeCast S1x1 (maximumf (broadcast S1 (Scalar.ofBits .f32 0xFF800000#32))
    (multiReduction .maximumf [1] S1 x 0xFF800000#32 reduces_S1x512_S1 (.inl rfl) rfl)) shapeCasts_S1_S1x1) broadcasts_S1x1_S1x512

/-- The row softmax in the kernel's spelling. -/
def softK (x : FVec Ideal S1x512 .f32) : FVec Ideal S1x512 .f32 :=
  divf (exp (subf x (rowMaxK x)))
    (broadcastTo S1x512 (shapeCast S1x1 (multiReduction .add [1] S1 (exp (subf x (rowMaxK x))) 0x00000000#32 reduces_S1x512_S1 (.inl rfl) rfl)
      shapeCasts_S1_S1x1) broadcasts_S1x1_S1x512)

theorem maxK_eq (x : FVec Ideal S1x512 .f32) :
    multiReduction .maximumf [1] S1 x 0xFF800000#32 reduces_S1x512_S1 (.inl rfl) rfl
      = Host.reduce FloatOps.maximumf x (constant (F := Ideal) Cert.ReferenceIdeal.S_ .f32 0xFF800000#32)
          Cert.ReferenceIdeal.Gen.reducesTo_S1x512_S1_d1 Cert.ReferenceIdeal.Gen.h_S_ :=
  multiReduction_maximumf_eq_hostReduce x _ _ _ _ _ _

theorem sumK_eq (x : FVec Ideal S1x512 .f32) :
    multiReduction .add [1] S1 x 0x00000000#32 reduces_S1x512_S1 (.inl rfl) rfl
      = Host.reduceAdd x (constant (F := Ideal) Cert.ReferenceIdeal.S_ .f32 0x00000000#32)
          Cert.ReferenceIdeal.Gen.reducesTo_S1x512_S1_d1 Cert.ReferenceIdeal.Gen.h_S_ :=
  multiReduction_add_eq_hostReduceAdd x _ _ _ _ _ _ _ Ideal.ofBits_zero_f32

theorem rowMaxK_eq (x : FVec Ideal S1x512 .f32) :
    rowMaxK x = broadcastInDim Cert.ReferenceIdeal.S1x512 ![0, 1] Cert.ReferenceIdeal.Gen.bcast_S1x1_S1x512_0_1
      (broadcastInDim Cert.ReferenceIdeal.S1x1 ![0] Cert.ReferenceIdeal.Gen.bcast_S1_S1x1_0
        (maximumf (broadcastInDim Cert.ReferenceIdeal.S1 ![] Cert.ReferenceIdeal.Gen.bcast_S_S1 (constant (F := Ideal) Cert.ReferenceIdeal.S_ .f32 0xFF800000#32))
          (Host.reduce FloatOps.maximumf x (constant (F := Ideal) Cert.ReferenceIdeal.S_ .f32 0xFF800000#32)
            Cert.ReferenceIdeal.Gen.reducesTo_S1x512_S1_d1 Cert.ReferenceIdeal.Gen.h_S_))) := by
  unfold rowMaxK
  rw [broadcastTo_shapeCast_one_eq _ _ _ Cert.ReferenceIdeal.Gen.bcast_S1_S1x1_0 Cert.ReferenceIdeal.Gen.bcast_S1x1_S1x512_0_1,
    broadcast_eq_broadcastInDim_constant Cert.ReferenceIdeal.Gen.bcast_S_S1, maxK_eq]

theorem softK_eq (x : FVec Ideal S1x512 .f32) : softK x = Cert.RefSpec.softmaxR x := by
  unfold softK Cert.RefSpec.softmaxR
  rw [rowMaxK_eq, exp_eq_hostExp, sumK_eq,
    broadcastTo_shapeCast_one_eq _ _ _ Cert.ReferenceIdeal.Gen.bcast_S1_S1x1_0 Cert.ReferenceIdeal.Gen.bcast_S1x1_S1x512_0_1,
    divf_eq_hostDivf]

/-! ## The GRU's input -/

/-- The GRU's input in the kernel's spelling. -/
def xK (e0 : FVec Ideal S1x1024 .f32) (aw : FVec Ideal S1x512 .f32) (enc : FVec Ideal S512x1024 .f32)
    (cW : FVec Ideal S1024x2048 .f32) (cb : FVec Ideal S1024 .f32) : FVec Ideal S1x1024 .f32 :=
  maximumf
    (addf (matmul dot_S1x2048_S1024x2048_S1x1024_1_1_0_0_n_n none
        (concatenate S1x2048 1 [⟨S1x1024, k0_pay6 e0⟩,
            ⟨S1x1024, matmul dot_S1x512_S512x1024_S1x1024_1_0_0_1_n_n none aw enc (constant S1x1024 .f32 0x00000000#32)⟩]
          concatenates_S1x1024_S1x1024_S1x2048_d1)
        cW (constant S1x1024 .f32 0x00000000#32))
      (shapeCast S1x1024 cb shapeCasts_S1024_S1x1024))
    (broadcast S1x1024 (Scalar.ofBits .f32 0x00000000#32))

theorem xK_eq (e0 : FVec Ideal S1x1024 .f32) (aw : FVec Ideal S1x512 .f32) (enc : FVec Ideal S512x1024 .f32)
    (cW : FVec Ideal S1024x2048 .f32) (cb : FVec Ideal S1024 .f32) : xK e0 aw enc cW cb = Cert.RefSpec.xR e0 aw enc cW cb := by
  unfold xK Cert.RefSpec.xR
  rw [pay6_eq, mm_apply, mm_comb, shapeCast_row_eq_broadcastInDim cb _ Cert.ReferenceIdeal.Gen.bcast_S1024_S1x1024_1,
    broadcast_eq_broadcastInDim_constant Cert.ReferenceIdeal.Gen.bcast_S_S1x1024]

/-! ## A gate row -/

/-- A gate pre-activation in the kernel's spelling. -/
def gateK (v : FVec Ideal S1x1024 .f32) (W : FVec Ideal S3072x1024 .f32) (b : FVec Ideal S3072 .f32) : FVec Ideal S1x3072 .f32 :=
  addf (matmul dot_S1x1024_S3072x1024_S1x3072_1_1_0_0_n_n none v W (constant S1x3072 .f32 0x00000000#32))
    (shapeCast S1x3072 b shapeCasts_S3072_S1x3072)

theorem gateK_eq (v : FVec Ideal S1x1024 .f32) (W : FVec Ideal S3072x1024 .f32) (b : FVec Ideal S3072 .f32) :
    gateK v W b = Cert.RefSpec.gateR v W b := by
  unfold gateK Cert.RefSpec.gateR
  rw [mm_gate, shapeCast_row_eq_broadcastInDim b _ Cert.ReferenceIdeal.Gen.bcast_S3072_S1x3072_1]

/-! ## The GRU step -/

/-- One GRU step in the kernel's spelling. -/
def gruK (gi gh : FVec Ideal S1x3072 .f32) (h0 : FVec Ideal S1x1024 .f32) : FVec Ideal S1x1024 .f32 :=
  addf
    (mulf
      (subf (broadcast S1x1024 (Scalar.ofBits .f32 0x3F800000#32))
        (logistic (addf (extractStridedSlice S1x1024 ![0, 1024] gi slices_S1x3072_o0_1024_S1x1024)
          (extractStridedSlice S1x1024 ![0, 1024] gh slices_S1x3072_o0_1024_S1x1024))))
      (tanh (addf (extractStridedSlice S1x1024 ![0, 2048] gi slices_S1x3072_o0_2048_S1x1024)
        (mulf (logistic (addf (extractStridedSlice S1x1024 ![0, 0] gi slices_S1x3072_o0_0_S1x1024)
            (extractStridedSlice S1x1024 ![0, 0] gh slices_S1x3072_o0_0_S1x1024)))
          (extractStridedSlice S1x1024 ![0, 2048] gh slices_S1x3072_o0_2048_S1x1024)))))
    (mulf (logistic (addf (extractStridedSlice S1x1024 ![0, 1024] gi slices_S1x3072_o0_1024_S1x1024)
      (extractStridedSlice S1x1024 ![0, 1024] gh slices_S1x3072_o0_1024_S1x1024))) h0)

theorem sig_eq (x : FVec Ideal S1x1024 .f32) : logistic x = Cert.RefSpec.sigR x :=
  logistic_eq Cert.ReferenceIdeal.Gen.bcast_S_S1x1024 x

theorem gruK_eq (gi gh : FVec Ideal S1x3072 .f32) (h0 : FVec Ideal S1x1024 .f32) : gruK gi gh h0 = Cert.RefSpec.gruR gi gh h0 := by
  unfold gruK Cert.RefSpec.gruR
  rw [sig_eq, sig_eq, tanh_eq_hostTanh, broadcast_eq_broadcastInDim_constant Cert.ReferenceIdeal.Gen.bcast_S_S1x1024]

/-! ## The body's named values as compositions -/

theorem pay8_unfold (e0 h0 : FVec Ideal S1x1024 .f32) (W : FVec Ideal S512x2048 .f32) (b : FVec Ideal S512 .f32) :
    k0_pay8 e0 h0 W b = softK (alK e0 h0 W b) := rfl

theorem pay9_unfold (e0 h0 : FVec Ideal S1x1024 .f32) (aW : FVec Ideal S512x2048 .f32) (ab : FVec Ideal S512 .f32)
    (enc : FVec Ideal S512x1024 .f32) (cW : FVec Ideal S1024x2048 .f32) (cb : FVec Ideal S1024 .f32)
    (Wih : FVec Ideal S3072x1024 .f32) (bih : FVec Ideal S3072 .f32) :
    k0_pay9 e0 h0 aW ab enc cW cb Wih bih = gateK (xK e0 (k0_pay8 e0 h0 aW ab) enc cW cb) Wih bih := rfl

theorem pay1_unfold (h0 : FVec Ideal S1x1024 .f32) (gi : FVec Ideal S1x3072 .f32) (Whh : FVec Ideal S3072x1024 .f32)
    (bhh : FVec Ideal S3072 .f32) : k0_pay1 h0 gi Whh bhh = gruK gi (gateK h0 Whh bhh) h0 :=
  shapeCast_self _ _

/-- The attention weights the body computes are the softmax of the attention logits. -/
theorem pay8_eq (e0 h0 : FVec Ideal S1x1024 .f32) (W : FVec Ideal S512x2048 .f32) (b : FVec Ideal S512 .f32) :
    k0_pay8 e0 h0 W b = Cert.RefSpec.awR e0 h0 W b := by
  rw [pay8_unfold, alK_eq, softK_eq]
  rfl

end Cert.PayParts

end
-- ==== Proof.PayBridge.lean ====
import proofs.«416905_j23579370455621_3_alg».proof.Proof.Gen.KernelIdeal.Skeleton
import proofs.«416905_j23579370455621_3_alg».proof.Proof.RefSpec
import proofs.«416905_j23579370455621_3_alg».proof.Proof.LibKernelHost
import proofs.«416905_j23579370455621_3_alg».proof.Proof.PayParts
import Idealize.ShloMosaic.Lib.ValueIdx
import Idealize.ShloMosaic.Lib.Pipeline.Value
import Idealize.ShloMosaic.Lib.ValueLayout
import Idealize.ShloMosaic.PureOps.Ideal.Laws

/-! At the ideal values the kernel body's named values are the decoder step's functions: a matrix product
into a zero accumulator against a transposed weight is the host's product with the transpose, a lane
maximum or sum is the host's reduction, the logistic is 1 / (1 + exp (−x)), a bias row cast to one row
is its broadcast. Also the logits tile, the logits and the two row broadcasts read at an index. -/

noncomputable section

namespace Cert.PayBridge

open Cert.KernelIdeal Cert.KernelIdeal.Gen Idealize.ShloMosaic Idealize.ShloMosaic.ValueIdx

/-- The attention weights the body keeps are the softmax of the attention logits. -/
theorem aw_eq (e0 h0 : FVec Ideal S1x1024 .f32) (attnW : FVec Ideal S512x2048 .f32) (attnb : FVec Ideal S512 .f32) :
    k0_pay2 (k0_pay8 e0 h0 attnW attnb) = Cert.RefSpec.awR e0 h0 attnW attnb := by
  rw [Cert.PayParts.pay2_eq, Cert.PayParts.pay8_eq]

/-- The hidden state the body keeps is the GRU step's. -/
theorem hn_eq (e0 h0 : FVec Ideal S1x1024 .f32) (enc : FVec Ideal S512x1024 .f32) (attnW : FVec Ideal S512x2048 .f32)
    (attnb : FVec Ideal S512 .f32) (combW : FVec Ideal S1024x2048 .f32) (combb : FVec Ideal S1024 .f32)
    (Wih Whh : FVec Ideal S3072x1024 .f32) (bih bhh : FVec Ideal S3072 .f32) :
    k0_pay1 (k0_pay7 h0) (k0_pay9 e0 h0 attnW attnb enc combW combb Wih bih) Whh bhh
      = Cert.RefSpec.hnR e0 h0 enc attnW attnb combW combb Wih Whh bih bhh := by
  rw [Cert.PayParts.pay7_eq, Cert.PayParts.pay1_unfold, Cert.PayParts.pay9_unfold, Cert.PayParts.pay8_eq, Cert.PayParts.xK_eq,
    Cert.PayParts.gateK_eq, Cert.PayParts.gateK_eq, Cert.PayParts.gruK_eq]
  rfl

/-- A logits tile at lane `j`: the hidden state against row `j` of the weight tile, plus the bias there. -/
theorem pay3_apply (hn : FVec Ideal S1x1024 .f32) (w : FVec Ideal S2048x1024 .f32) (b : FVec Ideal S2048 .f32) (j : Fin 2048) :
    k0_pay3 hn w b (ix2 0 j) = (∑ k : Fin 1024, hn (ix2 0 k) * w (ix2 j k)) + b (ix1 j) := by
  show addf (matmul dot_S1x1024_S2048x1024_S1x2048_1_1_0_0_n_n none hn w (constant S1x2048 .f32 0x00000000#32))
    (shapeCast S1x2048 b shapeCasts_S2048_S1x2048) (ix2 0 j) = _
  rw [addf_apply, Cert.LibBridge.matmulT_apply _ ⟨rfl, rfl, rfl, rfl, rfl, rfl⟩, shapeCast_a_1a_apply]

/-- The logits at vocabulary entry `v`: the hidden state against row `v` of the output weight, plus the bias there. -/
theorem logitsR_apply (hn : FVec Ideal S1x1024 .f32) (outW : FVec Ideal Cert.ReferenceIdeal.S50257x1024 .f32)
    (outb : FVec Ideal Cert.ReferenceIdeal.S50257 .f32) (v : Fin 50257) :
    Cert.RefSpec.logitsR hn outW outb (ix2 0 v) = (∑ k : Fin 1024, hn (ix2 0 k) * outW (ix2 v k)) + outb (ix1 v) := by
  unfold Cert.RefSpec.logitsR
  rw [addf_apply, Cert.LibBridge.dotGeneral_transpose_apply _ ⟨rfl, rfl, rfl, rfl, rfl, rfl⟩, Cert.LibBridge.broadcastInDim_row_apply]

/-- The hidden state broadcast to eight rows, at row `r`. -/
theorem pay4_apply (s : FVec Ideal S1x1024 .f32) (r : Fin 8) (k : Fin 1024) : k0_pay4 s (ix2 r k) = s (ix2 0 k) := by
  show broadcastTo S8x1024 (shapeCast S1x1024 s shapeCasts_S1x1024_S1x1024) broadcasts_S1x1024_S8x1024 (ix2 r k) = _
  rw [shapeCast_self, broadcastTo_1b_ab_apply]

/-- The attention weights broadcast to eight rows, at row `r`. -/
theorem pay5_apply (s : FVec Ideal S1x512 .f32) (r : Fin 8) (k : Fin 512) : k0_pay5 s (ix2 r k) = s (ix2 0 k) := by
  show broadcastTo S8x512 (shapeCast S1x512 s shapeCasts_S1x512_S1x512) broadcasts_S1x512_S8x512 (ix2 r k) = _
  rw [shapeCast_self, broadcastTo_1b_ab_apply]

end Cert.PayBridge

end
-- ==== Proof.KI.Final.lean ====
import proofs.«416905_j23579370455621_3_alg».proof.Proof.KI.Frame
import proofs.«416905_j23579370455621_3_alg».proof.Proof.PayBridge
import Idealize.ShloMosaic.Lib.Pipeline.Value
import Idealize.ShloMosaic.Lib.ValueIdx

/-! The three output arrays after the run. The logits array is written tile by tile: the tile at point `t` covers
entries 2048·k … of the vocabulary (k the tile's index, the last tile cut at 50257), and each entry is the hidden
state against that row of the output weight plus the bias — together the whole logits row. The two small outputs
hold, in their first eight rows, the hidden state and the attention weights broadcast (core 0's block). -/

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The grid's index facts -/

/-- The logits window writes back at every point but the repeated last tile's first visit. -/
theorem final_flush13 : ∀ t : Fin cfg0.N, (cfg0.win 13).flush t = (t.val != 24) :=
  (by decide +kernel : ∀ t : Fin grid0.N, win0_13.flush t = (t.val != 24))

/-- The logits window's block sits at row 0 and at tile `min t 24` of the vocabulary axis. -/
theorem final_idx13 : ∀ t : Fin cfg0.N, win0_13.index t (0 : Fin 2) = 0 ∧ win0_13.index t (1 : Fin 2) = min t.val 24 :=
  (by decide +kernel : ∀ t : Fin grid0.N, _)

/-- The weight window's block sits at the same tile of its row axis, and at column 0. -/
theorem final_idx11 : ∀ t : Fin cfg0.N, win0_11.index t (0 : Fin 2) = min t.val 24 ∧ win0_11.index t (1 : Fin 2) = 0 :=
  (by decide +kernel : ∀ t : Fin grid0.N, _)

/-- The bias window's block sits at the same tile. -/
theorem final_idx12 : ∀ t : Fin cfg0.N, win0_12.index t (0 : Fin 1) = min t.val 24 :=
  (by decide +kernel : ∀ t : Fin grid0.N, _)

/-- How much of each of the three tiles lies inside its array: all 2048 entries, or what is left before entry 50257. -/
theorem final_xs13 : ∀ t : Fin cfg0.N, win0_13.xsize (grid0.coords t) (0 : Fin 2) = 1
    ∧ win0_13.xsize (grid0.coords t) (1 : Fin 2) = min 2048 (50257 - min t.val 24 * 2048) :=
  (by decide +kernel : ∀ t : Fin grid0.N, _)
theorem final_xs11 : ∀ t : Fin cfg0.N, win0_11.xsize (grid0.coords t) (0 : Fin 2) = min 2048 (50257 - min t.val 24 * 2048)
    ∧ win0_11.xsize (grid0.coords t) (1 : Fin 2) = 1024 :=
  (by decide +kernel : ∀ t : Fin grid0.N, _)
theorem final_xs12 : ∀ t : Fin cfg0.N, win0_12.xsize (grid0.coords t) (0 : Fin 1) = min 2048 (50257 - min t.val 24 * 2048) :=
  (by decide +kernel : ∀ t : Fin grid0.N, _)

/-! ## A tile's buffer read at a lane inside the array -/

/-- Row `j` of the weight tile at point `t` is row `2048 · min t 24 + j` of the weight, when that row exists. -/
theorem final_fillW_apply (W : Vec Ideal S50257x1024 .f32) (t : Fin cfg0.N) (j : Fin 2048) (k : Fin 1024) (v : Fin 50257)
    (hv : v.val = min t.val 24 * 2048 + j.val) :
    win0_11.fill (grid0.coords t) zW (((cfg0.win 11).blk t).view.read (Elt Ideal) W) (ix2 j k) = W (ix2 v k) := by
  have hx := final_xs11 t
  have hvlt : v.val < 50257 := v.isLt
  have hj : j.val < 2048 := j.isLt
  have hm : win0_11.moved (grid0.coords t) (ix2 j k) = true := (win0_11.moved_iff _ _).mpr fun a => by
    match a with
    | ⟨0, _⟩ => show j.val < win0_11.xsize (grid0.coords t) (0 : Fin 2); rw [hx.1]; omega
    | ⟨1, _⟩ => show k.val < win0_11.xsize (grid0.coords t) (1 : Fin 2); rw [hx.2]; exact k.isLt
  unfold Window.fill
  rw [dif_pos hm]
  show W (((cfg0.win 11).blk t).view.emb _) = W (ix2 v k)
  refine congrArg W (funext fun a => Fin.ext ?_)
  match a with
  | ⟨0, _⟩ => show win0_11.index t (0 : Fin 2) * 2048 + 1 * j.val = v.val; rw [(final_idx11 t).1, hv]; omega
  | ⟨1, _⟩ => show win0_11.index t (1 : Fin 2) * 1024 + 1 * k.val = k.val; rw [(final_idx11 t).2]; omega

/-- Entry `j` of the bias tile at point `t` is entry `2048 · min t 24 + j` of the bias, when that entry exists. -/
theorem final_fillB_apply (B : Vec Ideal S50257 .f32) (t : Fin cfg0.N) (j : Fin 2048) (v : Fin 50257)
    (hv : v.val = min t.val 24 * 2048 + j.val) :
    win0_12.fill (grid0.coords t) zB (((cfg0.win 12).blk t).view.read (Elt Ideal) B) (ix1 j) = B (ix1 v) := by
  have hx := final_xs12 t
  have hvlt : v.val < 50257 := v.isLt
  have hj : j.val < 2048 := j.isLt
  have hm : win0_12.moved (grid0.coords t) (ix1 j) = true := (win0_12.moved_iff _ _).mpr fun a => by
    match a with
    | ⟨0, _⟩ => show j.val < win0_12.xsize (grid0.coords t) (0 : Fin 1); rw [hx]; omega
  unfold Window.fill
  rw [dif_pos hm]
  show B (((cfg0.win 12).blk t).view.emb _) = B (ix1 v)
  refine congrArg B (funext fun a => Fin.ext ?_)
  match a with
  | ⟨0, _⟩ => show win0_12.index t (0 : Fin 1) * 2048 + 1 * j.val = v.val; rw [final_idx12 t, hv]; omega

/-! ## What a point writes back is its tile of the logits row -/

/-- Over plain arrays: the logits tile computed from the weight and bias tiles, on its lanes inside the vocabulary, is
    the logits row read through the point's block. -/
theorem final_tile_eq (hn : Vec Ideal S1x1024 .f32) (W : Vec Ideal S50257x1024 .f32) (B : Vec Ideal S50257 .f32) (t : Fin cfg0.N) :
    win0_13.cut (grid0.coords t) (k0_pay3 hn (win0_11.fill (grid0.coords t) zW (((cfg0.win 11).blk t).view.read (Elt Ideal) W))
        (win0_12.fill (grid0.coords t) zB (((cfg0.win 12).blk t).view.read (Elt Ideal) B)))
      = ((cfg0.win 13).blk t).view.read (Elt Ideal) (Cert.RefSpec.logitsR (F := Ideal) hn W B) := by
  funext y
  have hx := final_xs13 t
  have hy0 : (y 0).val < win0_13.xsize (grid0.coords t) (0 : Fin 2) := (y 0).isLt
  have hy1 : (y 1).val < win0_13.xsize (grid0.coords t) (1 : Fin 2) := (y 1).isLt
  rw [hx.1] at hy0
  rw [hx.2] at hy1
  have hj : (y 1).val < 2048 := by omega
  have hv : min t.val 24 * 2048 + (y 1).val < 50257 := by omega
  show k0_pay3 hn _ _ (win0_13.xinj (grid0.coords t) y) = Cert.RefSpec.logitsR (F := Ideal) hn W B (((cfg0.win 13).blk t).view.emb y)
  have e1 : win0_13.xinj (grid0.coords t) y = ix2 (0 : Fin 1) (⟨(y 1).val, hj⟩ : Fin 2048) := funext fun a => Fin.ext (by
    match a with
    | ⟨0, _⟩ => show (y 0).val = 0; omega
    | ⟨1, _⟩ => rfl)
  have e2 : ((cfg0.win 13).blk t).view.emb y = ix2 (0 : Fin 1) (⟨min t.val 24 * 2048 + (y 1).val, hv⟩ : Fin 50257) := funext fun a => Fin.ext (by
    match a with
    | ⟨0, _⟩ => show win0_13.index t (0 : Fin 2) * 1 + 1 * (y 0).val = 0; rw [(final_idx13 t).1]; omega
    | ⟨1, _⟩ => show win0_13.index t (1 : Fin 2) * 2048 + 1 * (y 1).val = min t.val 24 * 2048 + (y 1).val; rw [(final_idx13 t).2]; omega)
  rw [e1, e2, Cert.PayBridge.pay3_apply, Cert.PayBridge.logitsR_apply]
  rw [final_fillB_apply B t ⟨(y 1).val, hj⟩ ⟨min t.val 24 * 2048 + (y 1).val, hv⟩ rfl]
  refine congrArg (· + _) (Finset.sum_congr rfl fun k _ => ?_)
  rw [final_fillW_apply W t ⟨(y 1).val, hj⟩ k ⟨min t.val 24 * 2048 + (y 1).val, hv⟩ rfl]

/-- What point `t` writes back to the logits array is its block of the logits row of the kept hidden state. -/
theorem final_flushed13_eq (c : Dev nD) (t : Fin cfg0.N) :
    (dats m 0 c).flushed 13 t
      = ((cfg0.win 13).blk t).view.read (Elt Ideal) (Cert.RefSpec.logitsR (F := Ideal) (HN m c) (V m c main_arg12) (V m c main_arg13)) := by
  show (cfg0.win 13).cut (grid0.coords t) ((dats m 0 c).after 13 t) = _
  rw [after13]
  unfold tileW tileB iblk
  show win0_13.cut (grid0.coords t) (k0_pay3 (HN m c) (win0_11.fill (grid0.coords t) zW (((cfg0.win 11).blk t).view.read (Elt Ideal) (V m c main_arg12)))
        (win0_12.fill (grid0.coords t) zB (((cfg0.win 12).blk t).view.read (Elt Ideal) (V m c main_arg13)))) = _
  generalize HN m c = hn
  generalize V m c main_arg12 = W
  generalize V m c main_arg13 = B
  exact final_tile_eq hn W B t

/-! ## The tiles cover the vocabulary -/

/-- An entry of the logits array is in point `t`'s block iff each coordinate is in the block's range inside the array. -/
theorem final_mem_blk13 (t : Fin cfg0.N) (i : S1x50257.Idx) :
    i ∈ ((cfg0.win 13).blk t).view.set ↔ ∀ a : Fin 2, win0_13.index t a * S1x2048.size a ≤ (i a).val
      ∧ (i a).val < win0_13.index t a * S1x2048.size a + win0_13.xsize (grid0.coords t) a := by
  show i ∈ ((View.whole main_v4_0).slice (win0_13.rect t)).set ↔ _
  rw [View.set_slice_whole, Rect.mem_set_unit]
  exact Iff.rfl

/-- Every entry of the logits array is in the block of a point that writes back: entry `v` below 24 · 2048 in tile
    `v / 2048`'s own point, a later entry in the last point's. -/
theorem final_cover13 (i : S1x50257.Idx) : ∃ t : Fin cfg0.N, (cfg0.win 13).flush t = true ∧ i ∈ ((cfg0.win 13).blk t).view.set := by
  have h0 : (i 0).val < 1 := (i 0).isLt
  have h1 : (i 1).val < 50257 := (i 1).isLt
  have hN : grid0.N = 26 := N_0
  by_cases hv : (i 1).val < 49152
  · refine ⟨⟨(i 1).val / 2048, show _ < grid0.N by omega⟩, ?_, ?_⟩
    · rw [final_flush13]; simp only [bne_iff_ne, ne_eq]; omega
    · rw [final_mem_blk13]
      intro a
      match a with
      | ⟨0, _⟩ =>
        show win0_13.index _ (0 : Fin 2) * 1 ≤ (i 0).val ∧ (i 0).val < win0_13.index _ (0 : Fin 2) * 1 + win0_13.xsize _ (0 : Fin 2)
        rw [(final_idx13 _).1, (final_xs13 _).1]; omega
      | ⟨1, _⟩ =>
        show win0_13.index _ (1 : Fin 2) * 2048 ≤ (i 1).val ∧ (i 1).val < win0_13.index _ (1 : Fin 2) * 2048 + win0_13.xsize _ (1 : Fin 2)
        rw [(final_idx13 _).2, (final_xs13 _).2]; show min ((i 1).val / 2048) 24 * 2048 ≤ _ ∧ _ < min ((i 1).val / 2048) 24 * 2048 + min 2048 (50257 - min ((i 1).val / 2048) 24 * 2048); omega
  · refine ⟨⟨25, show _ < grid0.N by omega⟩, ?_, ?_⟩
    · rw [final_flush13]; rfl
    · rw [final_mem_blk13]
      intro a
      match a with
      | ⟨0, _⟩ =>
        show win0_13.index _ (0 : Fin 2) * 1 ≤ (i 0).val ∧ (i 0).val < win0_13.index _ (0 : Fin 2) * 1 + win0_13.xsize _ (0 : Fin 2)
        rw [(final_idx13 _).1, (final_xs13 _).1]; omega
      | ⟨1, _⟩ =>
        show win0_13.index _ (1 : Fin 2) * 2048 ≤ (i 1).val ∧ (i 1).val < win0_13.index _ (1 : Fin 2) * 2048 + win0_13.xsize _ (1 : Fin 2)
        rw [(final_idx13 _).2, (final_xs13 _).2]; show min 25 24 * 2048 ≤ _ ∧ _ < min 25 24 * 2048 + min 2048 (50257 - min 25 24 * 2048); omega

/-! ## The two small outputs -/

/-- The small outputs' blocks sit at the core's eight rows, at column 0. -/
theorem final_idx14 : ∀ t : Fin cfg0.N, win0_14.index t (0 : Fin 2) = t.val / 13 ∧ win0_14.index t (1 : Fin 2) = 0 :=
  (by decide +kernel : ∀ t : Fin grid0.N, _)
theorem final_idx15 : ∀ t : Fin cfg0.N, win0_15.index t (0 : Fin 2) = t.val / 13 ∧ win0_15.index t (1 : Fin 2) = 0 :=
  (by decide +kernel : ∀ t : Fin grid0.N, _)

/-- Over a plain row: the row broadcast to eight rows is, through any point's block, the sixteen-row array whose every row is the row. -/
theorem final_bcast14_eq (hn : Vec Ideal S1x1024 .f32) (t : Fin cfg0.N) :
    (cfg0.win 14).cut (grid0.coords t) (k0_pay4 hn)
      = ((cfg0.win 14).blk t).view.read (Elt Ideal) (fun i : S16x1024.Idx => hn (ix2 (0 : Fin 1) (i 1 : Fin 1024))) := by
  funext y
  have h0 : (y 0).val < 8 := (y 0).isLt
  have h1 : (y 1).val < 1024 := (y 1).isLt
  show k0_pay4 hn (win0_14.xinj (grid0.coords t) y) = hn (ix2 (0 : Fin 1) ((((cfg0.win 14).blk t).view.emb y) 1 : Fin 1024))
  have e1 : win0_14.xinj (grid0.coords t) y = ix2 (⟨(y 0).val, h0⟩ : Fin 8) (⟨(y 1).val, h1⟩ : Fin 1024) := funext fun a => Fin.ext (by
    match a with
    | ⟨0, _⟩ => rfl
    | ⟨1, _⟩ => rfl)
  rw [e1, Cert.PayBridge.pay4_apply]
  refine congrArg hn (funext fun a => Fin.ext ?_)
  match a with
  | ⟨0, _⟩ => rfl
  | ⟨1, _⟩ => show (y 1).val = win0_14.index t (1 : Fin 2) * 1024 + 1 * (y 1).val; rw [(final_idx14 t).2]; omega

theorem final_bcast15_eq (aw : Vec Ideal S1x512 .f32) (t : Fin cfg0.N) :
    (cfg0.win 15).cut (grid0.coords t) (k0_pay5 aw)
      = ((cfg0.win 15).blk t).view.read (Elt Ideal) (fun i : S16x512.Idx => aw (ix2 (0 : Fin 1) (i 1 : Fin 512))) := by
  funext y
  have h0 : (y 0).val < 8 := (y 0).isLt
  have h1 : (y 1).val < 512 := (y 1).isLt
  show k0_pay5 aw (win0_15.xinj (grid0.coords t) y) = aw (ix2 (0 : Fin 1) ((((cfg0.win 15).blk t).view.emb y) 1 : Fin 512))
  have e1 : win0_15.xinj (grid0.coords t) y = ix2 (⟨(y 0).val, h0⟩ : Fin 8) (⟨(y 1).val, h1⟩ : Fin 512) := funext fun a => Fin.ext (by
    match a with
    | ⟨0, _⟩ => rfl
    | ⟨1, _⟩ => rfl)
  rw [e1, Cert.PayBridge.pay5_apply]
  refine congrArg aw (funext fun a => Fin.ext ?_)
  match a with
  | ⟨0, _⟩ => rfl
  | ⟨1, _⟩ => show (y 1).val = win0_15.index t (1 : Fin 2) * 512 + 1 * (y 1).val; rw [(final_idx15 t).2]; omega

/-- What a point writes back to the first small output is its block of the array whose every row is the kept hidden state. -/
theorem final_flushed14_eq (c : Dev nD) (t : Fin cfg0.N) :
    (dats m 0 c).flushed 14 t
      = ((cfg0.win 14).blk t).view.read (Elt Ideal) (fun i : S16x1024.Idx => HN m c (ix2 (0 : Fin 1) (i 1 : Fin 1024))) := by
  show (cfg0.win 14).cut (grid0.coords t) ((dats m 0 c).after 14 t) = _
  rw [after14]
  exact final_bcast14_eq (HN m c) t

theorem final_flushed15_eq (c : Dev nD) (t : Fin cfg0.N) :
    (dats m 0 c).flushed 15 t
      = ((cfg0.win 15).blk t).view.read (Elt Ideal) (fun i : S16x512.Idx => AW m c (ix2 (0 : Fin 1) (i 1 : Fin 512))) := by
  show (cfg0.win 15).cut (grid0.coords t) ((dats m 0 c).after 15 t) = _
  rw [after15]
  exact final_bcast15_eq (AW m c) t

/-- An entry of a small output is in point `t`'s block iff each coordinate is in the block's range. -/
theorem final_mem_blk14 (t : Fin cfg0.N) (i : S16x1024.Idx) :
    i ∈ ((cfg0.win 14).blk t).view.set ↔ ∀ a : Fin 2, win0_14.index t a * S8x1024.size a ≤ (i a).val
      ∧ (i a).val < win0_14.index t a * S8x1024.size a + S8x1024.size a := by
  show i ∈ ((View.whole main_v4_1).slice (win0_14.rect t)).set ↔ _
  rw [View.set_slice_whole, Rect.mem_set_unit]
  exact Iff.rfl
theorem final_mem_blk15 (t : Fin cfg0.N) (i : S16x512.Idx) :
    i ∈ ((cfg0.win 15).blk t).view.set ↔ ∀ a : Fin 2, win0_15.index t a * S8x512.size a ≤ (i a).val
      ∧ (i a).val < win0_15.index t a * S8x512.size a + S8x512.size a := by
  show i ∈ ((View.whole main_v4_2).slice (win0_15.rect t)).set ↔ _
  rw [View.set_slice_whole, Rect.mem_set_unit]
  exact Iff.rfl

/-- Core 0's last point. -/
abbrev final_t12 : Fin cfg0.N := ⟨12, by decide⟩

/-- The logits array after the last write-back is the logits row of the kept hidden state. -/
theorem final13 (c : Dev nD) :
    (dats m 0 c).arrAt 13 cfg0.N = Cert.RefSpec.logitsR (F := Ideal) (HN m c) (V m c main_arg12) (V m c main_arg13) :=
  (dats m 0 c).arrAt_eq_of_cover 13 _ (fun t _ => final_flushed13_eq m c t) final_cover13

/-- Row 0 of the first small output is the kept hidden state. -/
theorem final14 (c : Dev nD) :
    extractStridedSlice S1x1024 ![0, 0] ((dats m 0 c).arrAt 14 cfg0.N) slices_S16x1024_S1x1024_0_0 = HN m c := by
  funext j
  have hj0 : (j 0).val < 1 := (j 0).isLt
  have hj1 : (j 1).val < 1024 := (j 1).isLt
  rw [extractStridedSlice_apply ![0, 0] _ slices_S16x1024_S1x1024_0_0 j (ix2 (0 : Fin 16) (⟨(j 1).val, hj1⟩ : Fin 1024)) (fun a => by
    match a with
    | ⟨0, _⟩ => show 0 = 0 + (j 0).val; omega
    | ⟨1, _⟩ => show (j 1).val = 0 + (j 1).val; omega)]
  have hmem : ix2 (0 : Fin 16) (⟨(j 1).val, hj1⟩ : Fin 1024) ∈ ((cfg0.win 14).blk final_t12).view.set := by
    rw [final_mem_blk14]
    intro a
    match a with
    | ⟨0, _⟩ => show win0_14.index final_t12 (0 : Fin 2) * 8 ≤ 0 ∧ 0 < win0_14.index final_t12 (0 : Fin 2) * 8 + 8; rw [(final_idx14 final_t12).1]; decide
    | ⟨1, _⟩ => show win0_14.index final_t12 (1 : Fin 2) * 1024 ≤ (j 1).val ∧ (j 1).val < win0_14.index final_t12 (1 : Fin 2) * 1024 + 1024; rw [(final_idx14 final_t12).2]; omega
  rw [(dats m 0 c).arrAt_apply_of_mem 14 _ (fun t _ => final_flushed14_eq m c t) cfg0.N final_t12 _ (by decide) ((flush0_14 final_t12).mpr rfl) hmem]
  refine congrArg (HN m c) (funext fun a => Fin.ext ?_)
  match a with
  | ⟨0, _⟩ => show 0 = (j 0).val; omega
  | ⟨1, _⟩ => rfl

/-- Row 0 of the second small output is the kept attention weights. -/
theorem final15 (c : Dev nD) :
    extractStridedSlice S1x512 ![0, 0] ((dats m 0 c).arrAt 15 cfg0.N) slices_S16x512_S1x512_0_0 = AW m c := by
  funext j
  have hj0 : (j 0).val < 1 := (j 0).isLt
  have hj1 : (j 1).val < 512 := (j 1).isLt
  rw [extractStridedSlice_apply ![0, 0] _ slices_S16x512_S1x512_0_0 j (ix2 (0 : Fin 16) (⟨(j 1).val, hj1⟩ : Fin 512)) (fun a => by
    match a with
    | ⟨0, _⟩ => show 0 = 0 + (j 0).val; omega
    | ⟨1, _⟩ => show (j 1).val = 0 + (j 1).val; omega)]
  have hmem : ix2 (0 : Fin 16) (⟨(j 1).val, hj1⟩ : Fin 512) ∈ ((cfg0.win 15).blk final_t12).view.set := by
    rw [final_mem_blk15]
    intro a
    match a with
    | ⟨0, _⟩ => show win0_15.index final_t12 (0 : Fin 2) * 8 ≤ 0 ∧ 0 < win0_15.index final_t12 (0 : Fin 2) * 8 + 8; rw [(final_idx15 final_t12).1]; decide
    | ⟨1, _⟩ => show win0_15.index final_t12 (1 : Fin 2) * 512 ≤ (j 1).val ∧ (j 1).val < win0_15.index final_t12 (1 : Fin 2) * 512 + 512; rw [(final_idx15 final_t12).2]; omega
  rw [(dats m 0 c).arrAt_apply_of_mem 15 _ (fun t _ => final_flushed15_eq m c t) cfg0.N final_t12 _ (by decide) ((flush0_15 final_t12).mpr rfl) hmem]
  refine congrArg (AW m c) (funext fun a => Fin.ext ?_)
  match a with
  | ⟨0, _⟩ => show 0 = (j 0).val; omega
  | ⟨1, _⟩ => rfl

end Cert.KernelIdeal.Body

end
-- ==== Proof.KI.Results.lean ====
import proofs.«416905_j23579370455621_3_alg».proof.Proof.KI.Tail
import proofs.«416905_j23579370455621_3_alg».proof.Proof.KI.Final
import proofs.«416905_j23579370455621_3_alg».proof.Proof.PayBridge
import proofs.«416905_j23579370455621_3_alg».proof.Proof.Take
import proofs.«416905_j23579370455621_3_alg».proof.Defs

/-! The idealized kernel's results as functions of its arguments. Under the precondition the looked-up embedding row is the
reference's, the kept hidden state and attention weights are the decoder step's, and the three results are the
log-softmax of the logits row, the hidden state with a leading unit axis, and the attention weights. -/

set_option maxRecDepth 16384

noncomputable section

namespace Cert.KernelIdeal.Body

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The embedding row, the previous state, the new hidden state and the attention weights, from the arguments. -/
def E0 (c : Dev nD) : FVec Ideal S1x1024 .f32 := Cert.RefSpec.e0R (F := Ideal) (m ((c.tc : Thread nD τ).loc main_arg3)) (m ((c.tc : Thread nD τ).loc main_arg0))
def H0 (c : Dev nD) : FVec Ideal S1x1024 .f32 := Cert.RefSpec.h0R (F := Ideal) (m ((c.tc : Thread nD τ).loc main_arg1))
def HNm (c : Dev nD) : FVec Ideal S1x1024 .f32 :=
  Cert.RefSpec.hnR (F := Ideal) (E0 m c) (H0 m c) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
def AWm (c : Dev nD) : FVec Ideal S1x512 .f32 := Cert.RefSpec.awR (F := Ideal) (E0 m c) (H0 m c) (m ((c.tc : Thread nD τ).loc main_arg4)) (m ((c.tc : Thread nD τ).loc main_arg5))

theorem arr0_eq_E0 (hpre : Cert.Pre_KernelIdeal m) (c : Dev nD) : arr0 m c = E0 m c := by
  rw [arr0_eq]; exact Cert.Take.e0K_eq_of_pre _ _ _ _ _ _ _ _ _ _ _ _ _ _ (hpre c)

/-- The kept hidden state is the decoder step's. -/
theorem HN_eq (hpre : Cert.Pre_KernelIdeal m) (c : Dev nD) : HN m c = HNm m c := by
  unfold HN hnOf HNm
  rw [Cert.PayBridge.hn_eq, arr0_eq_E0 m hpre c, arr1_eq m c]
  unfold H0
  rw [show arr2 m c = (m ((c.tc : Thread nD τ).loc main_arg2)) from V_main_arg2 m c, show arr3 m c = (m ((c.tc : Thread nD τ).loc main_arg4)) from V_main_arg4 m c,
    show arr4 m c = (m ((c.tc : Thread nD τ).loc main_arg5)) from V_main_arg5 m c, show arr5 m c = (m ((c.tc : Thread nD τ).loc main_arg6)) from V_main_arg6 m c,
    show arr6 m c = (m ((c.tc : Thread nD τ).loc main_arg7)) from V_main_arg7 m c, show arr7 m c = (m ((c.tc : Thread nD τ).loc main_arg8)) from V_main_arg8 m c,
    show arr8 m c = (m ((c.tc : Thread nD τ).loc main_arg9)) from V_main_arg9 m c, show arr9 m c = (m ((c.tc : Thread nD τ).loc main_arg10)) from V_main_arg10 m c,
    show arr10 m c = (m ((c.tc : Thread nD τ).loc main_arg11)) from V_main_arg11 m c]

/-- The kept attention weights are the decoder step's. -/
theorem AW_eq (hpre : Cert.Pre_KernelIdeal m) (c : Dev nD) : AW m c = AWm m c := by
  unfold AW awOf AWm
  rw [Cert.PayBridge.aw_eq, arr0_eq_E0 m hpre c, arr1_eq m c]
  unfold H0
  rw [show arr3 m c = (m ((c.tc : Thread nD τ).loc main_arg4)) from V_main_arg4 m c, show arr4 m c = (m ((c.tc : Thread nD τ).loc main_arg5)) from V_main_arg5 m c]

set_option maxHeartbeats 4000000 in
/-- The idealized kernel's run with its three results named: every weakly fair execution terminates with the log-softmax of the
    logits row, the new hidden state and the attention weights, the arguments unchanged. -/
theorem run_results (hpre : Cert.Pre_KernelIdeal m) :
    θ_run defs (onTc (τ := τ) (main (F := Ideal))) ⟨m, fun _ => 0, ρ⟩ (fun r => ∀ c : Dev nD,
      r.2.mem ((c.tc : Thread nD τ).loc main_v7) = Cert.RefSpec.lsR (F := Ideal) (Cert.RefSpec.logitsR (F := Ideal) (HNm m c) (m ((c.tc : Thread nD τ).loc main_arg12)) (m ((c.tc : Thread nD τ).loc main_arg13)))
      ∧ r.2.mem ((c.tc : Thread nD τ).loc main_v8) = Cert.RefSpec.hn3R (F := Ideal) (HNm m c)
      ∧ r.2.mem ((c.tc : Thread nD τ).loc main_v6) = AWm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun r h c => ?_) (run_main m ρ)
  have h7 := ((h c).2 main_v7 (Pipeline.mem_restRefs_of main_v7 (by decide) (by decide))).trans (tail7 m c)
  have h8 := ((h c).2 main_v8 (Pipeline.mem_restRefs_of main_v8 (by decide) (by decide))).trans (tail8 m c)
  have h6 := ((h c).2 main_v6 (Pipeline.mem_restRefs_of main_v6 (by decide) (by decide))).trans (tail6 m c)
  rw [final13 m c, V_main_arg12 m c, V_main_arg13 m c, HN_eq m hpre c] at h7
  rw [final14 m c, HN_eq m hpre c] at h8
  rw [final15 m c, AW_eq m hpre c] at h6
  refine ⟨h7, h8, h6, ?_, ?_, ?_, ?_, ?_, ?_, ?_, ?_, ?_, ?_, ?_, ?_, ?_, ?_⟩
  · exact (((h c).2 main_arg0 (Pipeline.mem_restRefs_of main_arg0 (by decide) (by decide))).trans (W_main_arg0 m (dats m) c))
  · exact (((h c).2 main_arg1 (Pipeline.mem_restRefs_of main_arg1 (by decide) (by decide))).trans (W_main_arg1 m (dats m) c))
  · exact ((h c).1 2).trans (((dats m 0 c).arrAt_in 2 rfl _).trans ((A_eq m c 2).trans (V_main_arg2 m c)))
  · exact (((h c).2 main_arg3 (Pipeline.mem_restRefs_of main_arg3 (by decide) (by decide))).trans (W_main_arg3 m (dats m) c))
  · exact ((h c).1 3).trans (((dats m 0 c).arrAt_in 3 rfl _).trans ((A_eq m c 3).trans (V_main_arg4 m c)))
  · exact ((h c).1 4).trans (((dats m 0 c).arrAt_in 4 rfl _).trans ((A_eq m c 4).trans (V_main_arg5 m c)))
  · exact ((h c).1 5).trans (((dats m 0 c).arrAt_in 5 rfl _).trans ((A_eq m c 5).trans (V_main_arg6 m c)))
  · exact ((h c).1 6).trans (((dats m 0 c).arrAt_in 6 rfl _).trans ((A_eq m c 6).trans (V_main_arg7 m c)))
  · exact ((h c).1 7).trans (((dats m 0 c).arrAt_in 7 rfl _).trans ((A_eq m c 7).trans (V_main_arg8 m c)))
  · exact ((h c).1 8).trans (((dats m 0 c).arrAt_in 8 rfl _).trans ((A_eq m c 8).trans (V_main_arg9 m c)))
  · exact ((h c).1 9).trans (((dats m 0 c).arrAt_in 9 rfl _).trans ((A_eq m c 9).trans (V_main_arg10 m c)))
  · exact ((h c).1 10).trans (((dats m 0 c).arrAt_in 10 rfl _).trans ((A_eq m c 10).trans (V_main_arg11 m c)))
  · exact ((h c).1 11).trans (((dats m 0 c).arrAt_in 11 rfl _).trans ((A_eq m c 11).trans (V_main_arg12 m c)))
  · exact ((h c).1 12).trans (((dats m 0 c).arrAt_in 12 rfl _).trans ((A_eq m c 12).trans (V_main_arg13 m c)))

end Cert.KernelIdeal.Body

end
-- ==== Proof.RefRun.lean ====
import proofs.«416905_j23579370455621_3_alg».proof.Proof.Gen.ReferenceIdeal
import proofs.«416905_j23579370455621_3_alg».proof.Proof.RefSpec
import Idealize.ShloMosaic.Lib.StableHlo.Run
import Idealize.ShloMosaic.Lib.Pipeline.Regions

/-! The reference program's run, written over its operation list cut into eight stretches: the embedding row and
the previous state as rows; the attention weights and the attended encoding; the combined input before the relu;
the relu; the GRU step; the output logits; their log-softmax; the new state as a 1×1×1024 array. Each stretch's
results are stated through the decoder-step functions of the values it starts from, and the run is their
composition. -/

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Operations 1 to 12 of the program, in order. -/
abbrev c1 : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_v6 main_v7 rfl shapeCasts_S1x1024_S1x1x1024,
    reshape main_v7 main_v8 rfl shapeCasts_S1x1x1024_S1x1024,
    reshape main_arg1 main_v9 rfl shapeCasts_S1x1x1024_S1x1024 ]

set_option maxRecDepth 8192 in
/-- Operations 13 to 32 of the program, in order. -/
abbrev c2 : List (HloOp τ sig (Elt F)) :=
  [ binary main_v8 main_v9 main_v10 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v11 ((transpose S2048x512 [1, 0] · transposes_S512x2048_S2048x512_1_0) : (⟨S512x2048, .f32⟩ : BufTy).Contents (Elt F) → (⟨S2048x512, .f32⟩ : BufTy).Contents (Elt F)),
    binary main_v10 main_v11 main_v12 ((fun l r => Host.dotGeneral dot_S1x2048_S2048x512_S1x512_1_0_0_1_n_n none l r) : (⟨S1x2048, .f32⟩ : BufTy).Contents (Elt F) → (⟨S2048x512, .f32⟩ : BufTy).Contents (Elt F) → (⟨S1x512, .f32⟩ : BufTy).Contents (Elt F)),
    unary main_arg5 main_v13 (broadcastInDim S1x512 ![1] bcast_S512_S1x512_1 : (⟨S512, .f32⟩ : BufTy).Contents (Elt F) → (⟨S1x512, .f32⟩ : BufTy).Contents (Elt F)),
    binary main_v12 main_v13 main_v14 (addf : (⟨S1x512, .f32⟩ : BufTy).Contents (Elt F) → (⟨S1x512, .f32⟩ : BufTy).Contents (Elt F) → (⟨S1x512, .f32⟩ : BufTy).Contents (Elt F)),
    nullary main_cst (constant S_ .f32 0xFF800000#32),
    binary main_v14 main_cst main_v15 ((fun x v => Host.reduce FloatOps.maximumf x v reducesTo_S1x512_S1_d1 h_S_) : (⟨S1x512, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v16 (broadcastInDim S1 ![] bcast_S_S1 : (⟨S_, .f32⟩ : BufTy).Contents (Elt F) → (⟨S1, .f32⟩ : BufTy).Contents (Elt F)),
    binary main_v16 main_v15 main_v17 (maximumf : (⟨S1, .f32⟩ : BufTy).Contents (Elt F) → (⟨S1, .f32⟩ : BufTy).Contents (Elt F) → (⟨S1, .f32⟩ : BufTy).Contents (Elt F)),
    unary main_v17 main_v18 (broadcastInDim S1x1 ![0] bcast_S1_S1x1_0 : (⟨S1, .f32⟩ : BufTy).Contents (Elt F) → (⟨S1x1, .f32⟩ : BufTy).Contents (Elt F)),
    unary main_v18 main_v19 (broadcastInDim S1x512 ![0, 1] bcast_S1x1_S1x512_0_1 : (⟨S1x1, .f32⟩ : BufTy).Contents (Elt F) → (⟨S1x512, .f32⟩ : BufTy).Contents (Elt F)),
    binary main_v14 main_v19 main_v20 (subf : (⟨S1x512, .f32⟩ : BufTy).Contents (Elt F) → (⟨S1x512, .f32⟩ : BufTy).Contents (Elt F) → (⟨S1x512, .f32⟩ : BufTy).Contents (Elt F)),
    unary main_v20 main_v21 (Host.exp : (⟨S1x512, .f32⟩ : BufTy).Contents (Elt F) → (⟨S1x512, .f32⟩ : BufTy).Contents (Elt F)),
    nullary main_cst_2 (constant S_ .f32 0x00000000#32),
    binary main_v21 main_cst_2 main_v22 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    unary main_v22 main_v23 (broadcastInDim S1x1 ![0] bcast_S1_S1x1_0 : (⟨S1, .f32⟩ : BufTy).Contents (Elt F) → (⟨S1x1, .f32⟩ : BufTy).Contents (Elt F)),
    unary main_v23 main_v24 (broadcastInDim S1x512 ![0, 1] bcast_S1x1_S1x512_0_1 : (⟨S1x1, .f32⟩ : BufTy).Contents (Elt F) → (⟨S1x512, .f32⟩ : BufTy).Contents (Elt F)),
    binary main_v21 main_v24 main_v25 (Host.divf : (⟨S1x512, .f32⟩ : BufTy).Contents (Elt F) → (⟨S1x512, .f32⟩ : BufTy).Contents (Elt F) → (⟨S1x512, .f32⟩ : BufTy).Contents (Elt F)),
    binary main_v25 main_arg2 main_v26 ((fun l r => Host.dotGeneral dot_S1x512_S512x1024_S1x1024_1_0_0_1_n_n none l r) : (⟨S1x512, .f32⟩ : BufTy).Contents (Elt F) → (⟨S512x1024, .f32⟩ : BufTy).Contents (Elt F) → (⟨S1x1024, .f32⟩ : BufTy).Contents (Elt F)) ]

set_option maxRecDepth 8192 in
/-- Operations 33 to 37 of the program, in order. -/
abbrev c3 : List (HloOp τ sig (Elt F)) :=
  [ binary main_v8 main_v26 main_v27 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v28 ((transpose S2048x1024 [1, 0] · transposes_S1024x2048_S2048x1024_1_0) : (⟨S1024x2048, .f32⟩ : BufTy).Contents (Elt F) → (⟨S2048x1024, .f32⟩ : BufTy).Contents (Elt F)),
    binary main_v27 main_v28 main_v29 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v30 (broadcastInDim S1x1024 ![1] bcast_S1024_S1x1024_1 : (⟨S1024, .f32⟩ : BufTy).Contents (Elt F) → (⟨S1x1024, .f32⟩ : BufTy).Contents (Elt F)),
    binary main_v29 main_v30 main_v31 (addf : (⟨S1x1024, .f32⟩ : BufTy).Contents (Elt F) → (⟨S1x1024, .f32⟩ : BufTy).Contents (Elt F) → (⟨S1x1024, .f32⟩ : BufTy).Contents (Elt F)) ]

set_option maxRecDepth 8192 in
/-- Operations 38 to 40 of the program, in order. -/
abbrev c4 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v31) (TRef.of (T := ⟨S1x1024, .f32⟩) main_call0_v0) (TRef.of (T := ⟨S1x1024, .f32⟩) main_v32) maximumf ]

set_option maxRecDepth 8192 in
/-- Operations 41 to 81 of the program, in order. -/
abbrev c5 : List (HloOp τ sig (Elt F)) :=
  [ unary main_arg8 main_v33 ((transpose S1024x3072 [1, 0] · transposes_S3072x1024_S1024x3072_1_0) : (⟨S3072x1024, .f32⟩ : BufTy).Contents (Elt F) → (⟨S1024x3072, .f32⟩ : BufTy).Contents (Elt F)),
    binary main_v32 main_v33 main_v34 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v35 (broadcastInDim S1x3072 ![1] bcast_S3072_S1x3072_1 : (⟨S3072, .f32⟩ : BufTy).Contents (Elt F) → (⟨S1x3072, .f32⟩ : BufTy).Contents (Elt F)),
    binary main_v34 main_v35 main_v36 (addf : (⟨S1x3072, .f32⟩ : BufTy).Contents (Elt F) → (⟨S1x3072, .f32⟩ : BufTy).Contents (Elt F) → (⟨S1x3072, .f32⟩ : BufTy).Contents (Elt F)),
    unary main_arg9 main_v37 ((transpose S1024x3072 [1, 0] · transposes_S3072x1024_S1024x3072_1_0) : (⟨S3072x1024, .f32⟩ : BufTy).Contents (Elt F) → (⟨S1024x3072, .f32⟩ : BufTy).Contents (Elt F)),
    binary main_v9 main_v37 main_v38 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v39 (broadcastInDim S1x3072 ![1] bcast_S3072_S1x3072_1 : (⟨S3072, .f32⟩ : BufTy).Contents (Elt F) → (⟨S1x3072, .f32⟩ : BufTy).Contents (Elt F)),
    binary main_v38 main_v39 main_v40 (addf : (⟨S1x3072, .f32⟩ : BufTy).Contents (Elt F) → (⟨S1x3072, .f32⟩ : BufTy).Contents (Elt F) → (⟨S1x3072, .f32⟩ : BufTy).Contents (Elt F)),
    unary main_v36 main_v41 ((extractStridedSlice S1x1024 ![0, 0] · slices_S1x3072_S1x1024_0_0) : (⟨S1x3072, .f32⟩ : BufTy).Contents (Elt F) → (⟨S1x1024, .f32⟩ : BufTy).Contents (Elt F)),
    unary main_v36 main_v42 ((extractStridedSlice S1x1024 ![0, 1024] · slices_S1x3072_S1x1024_0_1024) : (⟨S1x3072, .f32⟩ : BufTy).Contents (Elt F) → (⟨S1x1024, .f32⟩ : BufTy).Contents (Elt F)),
    unary main_v36 main_v43 ((extractStridedSlice S1x1024 ![0, 2048] · slices_S1x3072_S1x1024_0_2048) : (⟨S1x3072, .f32⟩ : BufTy).Contents (Elt F) → (⟨S1x1024, .f32⟩ : BufTy).Contents (Elt F)),
    unary main_v40 main_v44 ((extractStridedSlice S1x1024 ![0, 0] · slices_S1x3072_S1x1024_0_0) : (⟨S1x3072, .f32⟩ : BufTy).Contents (Elt F) → (⟨S1x1024, .f32⟩ : BufTy).Contents (Elt F)),
    unary main_v40 main_v45 ((extractStridedSlice S1x1024 ![0, 1024] · slices_S1x3072_S1x1024_0_1024) : (⟨S1x3072, .f32⟩ : BufTy).Contents (Elt F) → (⟨S1x1024, .f32⟩ : BufTy).Contents (Elt F)),
    unary main_v40 main_v46 ((extractStridedSlice S1x1024 ![0, 2048] · slices_S1x3072_S1x1024_0_2048) : (⟨S1x3072, .f32⟩ : BufTy).Contents (Elt F) → (⟨S1x1024, .f32⟩ : BufTy).Contents (Elt F)),
    binary main_v41 main_v44 main_v47 (addf : (⟨S1x1024, .f32⟩ : BufTy).Contents (Elt F) → (⟨S1x1024, .f32⟩ : BufTy).Contents (Elt F) → (⟨S1x1024, .f32⟩ : BufTy).Contents (Elt F)),
    unary main_v47 main_v48 (Host.negf : (⟨S1x1024, .f32⟩ : BufTy).Contents (Elt F) → (⟨S1x1024, .f32⟩ : BufTy).Contents (Elt F)),
    unary main_v48 main_v49 (Host.exp : (⟨S1x1024, .f32⟩ : BufTy).Contents (Elt F) → (⟨S1x1024, .f32⟩ : BufTy).Contents (Elt F)),
    nullary main_cst_3 (constant S_ .f32 0x3F800000#32),
    unary main_cst_3 main_v50 (broadcastInDim S1x1024 ![] bcast_S_S1x1024 : (⟨S_, .f32⟩ : BufTy).Contents (Elt F) → (⟨S1x1024, .f32⟩ : BufTy).Contents (Elt F)),
    binary main_v50 main_v49 main_v51 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v52 (broadcastInDim S1x1024 ![] bcast_S_S1x1024 : (⟨S_, .f32⟩ : BufTy).Contents (Elt F) → (⟨S1x1024, .f32⟩ : BufTy).Contents (Elt F)),
    binary main_v52 main_v51 main_v53 (Host.divf : (⟨S1x1024, .f32⟩ : BufTy).Contents (Elt F) → (⟨S1x1024, .f32⟩ : BufTy).Contents (Elt F) → (⟨S1x1024, .f32⟩ : BufTy).Contents (Elt F)),
    binary main_v42 main_v45 main_v54 (addf : (⟨S1x1024, .f32⟩ : BufTy).Contents (Elt F) → (⟨S1x1024, .f32⟩ : BufTy).Contents (Elt F) → (⟨S1x1024, .f32⟩ : BufTy).Contents (Elt F)),
    unary main_v54 main_v55 (Host.negf : (⟨S1x1024, .f32⟩ : BufTy).Contents (Elt F) → (⟨S1x1024, .f32⟩ : BufTy).Contents (Elt F)),
    unary main_v55 main_v56 (Host.exp : (⟨S1x1024, .f32⟩ : BufTy).Contents (Elt F) → (⟨S1x1024, .f32⟩ : BufTy).Contents (Elt F)),
    nullary main_cst_5 (constant S_ .f32 0x3F800000#32),
    unary main_cst_5 main_v57 (broadcastInDim S1x1024 ![] bcast_S_S1x1024 : (⟨S_, .f32⟩ : BufTy).Contents (Elt F) → (⟨S1x1024, .f32⟩ : BufTy).Contents (Elt F)),
    binary main_v57 main_v56 main_v58 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v59 (broadcastInDim S1x1024 ![] bcast_S_S1x1024 : (⟨S_, .f32⟩ : BufTy).Contents (Elt F) → (⟨S1x1024, .f32⟩ : BufTy).Contents (Elt F)),
    binary main_v59 main_v58 main_v60 (Host.divf : (⟨S1x1024, .f32⟩ : BufTy).Contents (Elt F) → (⟨S1x1024, .f32⟩ : BufTy).Contents (Elt F) → (⟨S1x1024, .f32⟩ : BufTy).Contents (Elt F)),
    binary main_v53 main_v46 main_v61 (mulf : (⟨S1x1024, .f32⟩ : BufTy).Contents (Elt F) → (⟨S1x1024, .f32⟩ : BufTy).Contents (Elt F) → (⟨S1x1024, .f32⟩ : BufTy).Contents (Elt F)),
    binary main_v43 main_v61 main_v62 (addf : (⟨S1x1024, .f32⟩ : BufTy).Contents (Elt F) → (⟨S1x1024, .f32⟩ : BufTy).Contents (Elt F) → (⟨S1x1024, .f32⟩ : BufTy).Contents (Elt F)),
    unary main_v62 main_v63 (Host.tanh : (⟨S1x1024, .f32⟩ : BufTy).Contents (Elt F) → (⟨S1x1024, .f32⟩ : BufTy).Contents (Elt F)),
    nullary main_cst_7 (constant S_ .f32 0x3F800000#32),
    unary main_cst_7 main_v64 (broadcastInDim S1x1024 ![] bcast_S_S1x1024 : (⟨S_, .f32⟩ : BufTy).Contents (Elt F) → (⟨S1x1024, .f32⟩ : BufTy).Contents (Elt F)),
    binary main_v64 main_v60 main_v65 (subf : (⟨S1x1024, .f32⟩ : BufTy).Contents (Elt F) → (⟨S1x1024, .f32⟩ : BufTy).Contents (Elt F) → (⟨S1x1024, .f32⟩ : BufTy).Contents (Elt F)),
    binary main_v65 main_v63 main_v66 (mulf : (⟨S1x1024, .f32⟩ : BufTy).Contents (Elt F) → (⟨S1x1024, .f32⟩ : BufTy).Contents (Elt F) → (⟨S1x1024, .f32⟩ : BufTy).Contents (Elt F)),
    binary main_v60 main_v9 main_v67 (mulf : (⟨S1x1024, .f32⟩ : BufTy).Contents (Elt F) → (⟨S1x1024, .f32⟩ : BufTy).Contents (Elt F) → (⟨S1x1024, .f32⟩ : BufTy).Contents (Elt F)),
    binary main_v66 main_v67 main_v68 (addf : (⟨S1x1024, .f32⟩ : BufTy).Contents (Elt F) → (⟨S1x1024, .f32⟩ : BufTy).Contents (Elt F) → (⟨S1x1024, .f32⟩ : BufTy).Contents (Elt F)) ]

set_option maxRecDepth 8192 in
/-- Operations 82 to 85 of the program, in order. -/
abbrev c6 : List (HloOp τ sig (Elt F)) :=
  [ unary main_arg12 main_v69 ((transpose S1024x50257 [1, 0] · transposes_S50257x1024_S1024x50257_1_0) : (⟨S50257x1024, .f32⟩ : BufTy).Contents (Elt F) → (⟨S1024x50257, .f32⟩ : BufTy).Contents (Elt F)),
    binary main_v68 main_v69 main_v70 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v71 (broadcastInDim S1x50257 ![1] bcast_S50257_S1x50257_1 : (⟨S50257, .f32⟩ : BufTy).Contents (Elt F) → (⟨S1x50257, .f32⟩ : BufTy).Contents (Elt F)),
    binary main_v70 main_v71 main_v72 (addf : (⟨S1x50257, .f32⟩ : BufTy).Contents (Elt F) → (⟨S1x50257, .f32⟩ : BufTy).Contents (Elt F) → (⟨S1x50257, .f32⟩ : BufTy).Contents (Elt F)) ]

set_option maxRecDepth 8192 in
/-- Operations 86 to 100 of the program, in order. -/
abbrev c7 : List (HloOp τ sig (Elt F)) :=
  [ TRef.nullary (TRef.of (T := ⟨S_, .f32⟩) main_call1_cst) (constant S_ .f32 0xFF800000#32),
    TRef.binary (TRef.of (T := ⟨S1x50257, .f32⟩) main_v72) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v72) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v73) subf ]

set_option maxRecDepth 8192 in
/-- Operations 101 to 101 of the program, in order. -/
abbrev c8 : List (HloOp τ sig (Elt F)) :=
  [ unary main_v68 main_v74 (broadcastInDim S1x1x1024 ![1, 2] bcast_S1x1024_S1x1x1024_1_2 : (⟨S1x1024, .f32⟩ : BufTy).Contents (Elt F) → (⟨S1x1x1024, .f32⟩ : BufTy).Contents (Elt F)) ]

/-- The program is the stretches run one after the other. -/
theorem main_eq (c : Dev nD) : main (F := F) c = seq (c1 ++ c2 ++ c3 ++ c4 ++ c5 ++ c6 ++ c7 ++ c8) := by
  chain_rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem c1_sub : (c1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub .., reshape_bufs_sub .., reshape_bufs_sub ..⟩
set_option maxRecDepth 8192 in
theorem c1_fresh : (c1 : List (HloOp τ sig (Elt F))).Forall fun op => op.fresh = ∅ :=
  ⟨rfl, rfl, rfl, rfl, rfl, rfl, rfl, rfl, rfl, rfl, rfl, rfl⟩

set_option maxRecDepth 8192 in
theorem c2_sub : (c2 : List (HloOp τ sig (Elt F))).Forall fun op => op.bufs ⊆ tcRefs τ sig :=
  ⟨binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
set_option maxRecDepth 8192 in
theorem c2_fresh : (c2 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 8192 in
theorem c3_sub : (c3 : List (HloOp τ sig (Elt F))).Forall fun op => op.bufs ⊆ tcRefs τ sig :=
  ⟨binary_bufs_sub .., unary_bufs_sub .., binary_bufs_sub .., unary_bufs_sub .., binary_bufs_sub ..⟩
set_option maxRecDepth 8192 in
theorem c3_fresh : (c3 : List (HloOp τ sig (Elt F))).Forall fun op => op.fresh = ∅ :=
  ⟨rfl, rfl, rfl, rfl, rfl⟩

set_option maxRecDepth 8192 in
theorem c4_sub : (c4 : List (HloOp τ sig (Elt F))).Forall fun op => op.bufs ⊆ tcRefs τ sig :=
  ⟨nullary_bufs_sub .., unary_bufs_sub .., binary_bufs_sub ..⟩
set_option maxRecDepth 8192 in
theorem c4_fresh : (c4 : List (HloOp τ sig (Elt F))).Forall fun op => op.fresh = ∅ :=
  ⟨rfl, rfl, rfl⟩

set_option maxRecDepth 8192 in
theorem c5_sub : (c5 : List (HloOp τ sig (Elt F))).Forall fun op => op.bufs ⊆ tcRefs τ sig :=
  ⟨unary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
set_option maxRecDepth 8192 in
theorem c5_fresh : (c5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem c6_sub : (c6 : List (HloOp τ sig (Elt F))).Forall fun op => op.bufs ⊆ tcRefs τ sig :=
  ⟨unary_bufs_sub .., binary_bufs_sub .., unary_bufs_sub .., binary_bufs_sub ..⟩
set_option maxRecDepth 8192 in
theorem c6_fresh : (c6 : List (HloOp τ sig (Elt F))).Forall fun op => op.fresh = ∅ :=
  ⟨rfl, rfl, rfl, rfl⟩

set_option maxRecDepth 8192 in
theorem c7_sub : (c7 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
set_option maxRecDepth 8192 in
theorem c7_fresh : (c7 : List (HloOp τ sig (Elt F))).Forall fun op => op.fresh = ∅ :=
  ⟨rfl, rfl, rfl, rfl, rfl, rfl, rfl, rfl, rfl, rfl, rfl, rfl, rfl, rfl, rfl⟩

set_option maxRecDepth 8192 in
theorem c8_sub : (c8 : List (HloOp τ sig (Elt F))).Forall fun op => op.bufs ⊆ tcRefs τ sig :=
  unary_bufs_sub _ _ _ _ _
set_option maxRecDepth 8192 in
theorem c8_fresh : (c8 : List (HloOp τ sig (Elt F))).Forall fun op => op.fresh = ∅ :=
  rfl

/-! ## The values the stretches pass on -/

/-- The combined input before the relu: [e0, att] · comb_Wᵀ + comb_b. -/
def preR (e0 att : FVec F S1x1024 .f32) (combW : FVec F S1024x2048 .f32) (combb : FVec F S1024 .f32) : FVec F S1x1024 .f32 :=
  addf (Host.dotGeneral dot_S1x2048_S2048x1024_S1x1024_1_0_0_1_n_n none
      (concatenate S1x2048 1 [⟨S1x1024, e0⟩, ⟨S1x1024, att⟩] concatenates_S1x1024_S1x1024_S1x2048_d1)
      (transpose S2048x1024 [1, 0] combW transposes_S1024x2048_S2048x1024_1_0))
    (broadcastInDim S1x1024 ![1] bcast_S1024_S1x1024_1 combb)

/-- The embedding row the token selects, from the launch contents. -/
def e0r (m : (ℓ : Loc nD τ sig) → Buf (Elt F) ℓ) (c : Dev nD) : FVec F S1x1024 .f32 :=
  Cert.RefSpec.e0R (m ((c.tc : Thread nD τ).loc main_arg3)) (m ((c.tc : Thread nD τ).loc main_arg0))

/-- The previous hidden state as a 1×1024 row, from the launch contents. -/
def h0r (m : (ℓ : Loc nD τ sig) → Buf (Elt F) ℓ) (c : Dev nD) : FVec F S1x1024 .f32 :=
  Cert.RefSpec.h0R (m ((c.tc : Thread nD τ).loc main_arg1))

/-- The new hidden state, from the launch contents. -/
def hnr (m : (ℓ : Loc nD τ sig) → Buf (Elt F) ℓ) (c : Dev nD) : FVec F S1x1024 .f32 :=
  Cert.RefSpec.hnR (e0r m c) (h0r m c) (m ((c.tc : Thread nD τ).loc main_arg2)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11))

/-! ## A called function's typed references: the transports along a literal reference's type are the identity -/

/-- Contents carried to a typed reference's buffer and back are unchanged. -/
theorem ofBuf_toBuf {T : BufTy} (x : TRef sig T) (v : T.Contents (Elt F)) : x.ofBuf (x.toBuf v) = v := by
  obtain ⟨r, h, h1, h2⟩ := x
  subst h
  rfl

/-- Reading a literal reference's buffer at the reference's own type is the buffer's contents. -/
theorem ofBuf_lit (r : Ref sig .tc) (h1 : r.space ≠ .host) (h2 : r.isScoped = false) (v : r.ty.Contents (Elt F)) :
    (TRef.of (T := r.ty) r rfl h1 h2).ofBuf v = v := rfl

/-- Writing a literal reference's buffer at the reference's own type is the contents written. -/
theorem toBuf_lit (r : Ref sig .tc) (h1 : r.space ≠ .host) (h2 : r.isScoped = false) (v : r.ty.Contents (Elt F)) :
    (TRef.of (T := r.ty) r rfl h1 h2).toBuf v = v := rfl

/-! ## Stretch 1: the embedding row and the previous state as rows -/

theorem c1_v8 (V : Valuation τ sig (Elt F)) :
    after c1 V (Proc.devRef .tc main_v8) = Cert.RefSpec.e0R (V (Proc.devRef .tc main_arg3)) (V (Proc.devRef .tc main_arg0)) := by
  after_results_simp <;> rfl

theorem c1_v9 (V : Valuation τ sig (Elt F)) :
    after c1 V (Proc.devRef .tc main_v9) = Cert.RefSpec.h0R (V (Proc.devRef .tc main_arg1)) := by
  after_results_simp <;> rfl

theorem c1_keep_arg0 (V : Valuation τ sig (Elt F)) : after c1 V (Proc.devRef .tc main_arg0) = V (Proc.devRef .tc main_arg0) := by
  after_results_simp <;> rfl
theorem c1_keep_arg1 (V : Valuation τ sig (Elt F)) : after c1 V (Proc.devRef .tc main_arg1) = V (Proc.devRef .tc main_arg1) := by
  after_results_simp <;> rfl
theorem c1_keep_arg2 (V : Valuation τ sig (Elt F)) : after c1 V (Proc.devRef .tc main_arg2) = V (Proc.devRef .tc main_arg2) := by
  after_results_simp <;> rfl
theorem c1_keep_arg3 (V : Valuation τ sig (Elt F)) : after c1 V (Proc.devRef .tc main_arg3) = V (Proc.devRef .tc main_arg3) := by
  after_results_simp <;> rfl
theorem c1_keep_arg4 (V : Valuation τ sig (Elt F)) : after c1 V (Proc.devRef .tc main_arg4) = V (Proc.devRef .tc main_arg4) := by
  after_results_simp <;> rfl
theorem c1_keep_arg5 (V : Valuation τ sig (Elt F)) : after c1 V (Proc.devRef .tc main_arg5) = V (Proc.devRef .tc main_arg5) := by
  after_results_simp <;> rfl
theorem c1_keep_arg6 (V : Valuation τ sig (Elt F)) : after c1 V (Proc.devRef .tc main_arg6) = V (Proc.devRef .tc main_arg6) := by
  after_results_simp <;> rfl
theorem c1_keep_arg7 (V : Valuation τ sig (Elt F)) : after c1 V (Proc.devRef .tc main_arg7) = V (Proc.devRef .tc main_arg7) := by
  after_results_simp <;> rfl
theorem c1_keep_arg8 (V : Valuation τ sig (Elt F)) : after c1 V (Proc.devRef .tc main_arg8) = V (Proc.devRef .tc main_arg8) := by
  after_results_simp <;> rfl
theorem c1_keep_arg9 (V : Valuation τ sig (Elt F)) : after c1 V (Proc.devRef .tc main_arg9) = V (Proc.devRef .tc main_arg9) := by
  after_results_simp <;> rfl
theorem c1_keep_arg10 (V : Valuation τ sig (Elt F)) : after c1 V (Proc.devRef .tc main_arg10) = V (Proc.devRef .tc main_arg10) := by
  after_results_simp <;> rfl
theorem c1_keep_arg11 (V : Valuation τ sig (Elt F)) : after c1 V (Proc.devRef .tc main_arg11) = V (Proc.devRef .tc main_arg11) := by
  after_results_simp <;> rfl
theorem c1_keep_arg12 (V : Valuation τ sig (Elt F)) : after c1 V (Proc.devRef .tc main_arg12) = V (Proc.devRef .tc main_arg12) := by
  after_results_simp <;> rfl
theorem c1_keep_arg13 (V : Valuation τ sig (Elt F)) : after c1 V (Proc.devRef .tc main_arg13) = V (Proc.devRef .tc main_arg13) := by
  after_results_simp <;> rfl

/-! ## Stretch 2: the attention weights and the attended encoding -/

theorem c2_v25 (V : Valuation τ sig (Elt F)) :
    after c2 V (Proc.devRef .tc main_v25) = Cert.RefSpec.awR (V (Proc.devRef .tc main_v8)) (V (Proc.devRef .tc main_v9)) (V (Proc.devRef .tc main_arg4)) (V (Proc.devRef .tc main_arg5)) := by
  after_results_simp <;> rfl

theorem c2_v26 (V : Valuation τ sig (Elt F)) :
    after c2 V (Proc.devRef .tc main_v26) = Host.dotGeneral dot_S1x512_S512x1024_S1x1024_1_0_0_1_n_n none
      (Cert.RefSpec.awR (V (Proc.devRef .tc main_v8)) (V (Proc.devRef .tc main_v9)) (V (Proc.devRef .tc main_arg4)) (V (Proc.devRef .tc main_arg5))) (V (Proc.devRef .tc main_arg2)) := by
  after_results_simp <;> rfl

theorem c2_keep_v8 (V : Valuation τ sig (Elt F)) : after c2 V (Proc.devRef .tc main_v8) = V (Proc.devRef .tc main_v8) := by
  after_results_simp <;> rfl
theorem c2_keep_v9 (V : Valuation τ sig (Elt F)) : after c2 V (Proc.devRef .tc main_v9) = V (Proc.devRef .tc main_v9) := by
  after_results_simp <;> rfl
theorem c2_keep_arg0 (V : Valuation τ sig (Elt F)) : after c2 V (Proc.devRef .tc main_arg0) = V (Proc.devRef .tc main_arg0) := by
  after_results_simp <;> rfl
theorem c2_keep_arg1 (V : Valuation τ sig (Elt F)) : after c2 V (Proc.devRef .tc main_arg1) = V (Proc.devRef .tc main_arg1) := by
  after_results_simp <;> rfl
theorem c2_keep_arg2 (V : Valuation τ sig (Elt F)) : after c2 V (Proc.devRef .tc main_arg2) = V (Proc.devRef .tc main_arg2) := by
  after_results_simp <;> rfl
theorem c2_keep_arg3 (V : Valuation τ sig (Elt F)) : after c2 V (Proc.devRef .tc main_arg3) = V (Proc.devRef .tc main_arg3) := by
  after_results_simp <;> rfl
theorem c2_keep_arg4 (V : Valuation τ sig (Elt F)) : after c2 V (Proc.devRef .tc main_arg4) = V (Proc.devRef .tc main_arg4) := by
  after_results_simp <;> rfl
theorem c2_keep_arg5 (V : Valuation τ sig (Elt F)) : after c2 V (Proc.devRef .tc main_arg5) = V (Proc.devRef .tc main_arg5) := by
  after_results_simp <;> rfl
theorem c2_keep_arg6 (V : Valuation τ sig (Elt F)) : after c2 V (Proc.devRef .tc main_arg6) = V (Proc.devRef .tc main_arg6) := by
  after_results_simp <;> rfl
theorem c2_keep_arg7 (V : Valuation τ sig (Elt F)) : after c2 V (Proc.devRef .tc main_arg7) = V (Proc.devRef .tc main_arg7) := by
  after_results_simp <;> rfl
theorem c2_keep_arg8 (V : Valuation τ sig (Elt F)) : after c2 V (Proc.devRef .tc main_arg8) = V (Proc.devRef .tc main_arg8) := by
  after_results_simp <;> rfl
theorem c2_keep_arg9 (V : Valuation τ sig (Elt F)) : after c2 V (Proc.devRef .tc main_arg9) = V (Proc.devRef .tc main_arg9) := by
  after_results_simp <;> rfl
theorem c2_keep_arg10 (V : Valuation τ sig (Elt F)) : after c2 V (Proc.devRef .tc main_arg10) = V (Proc.devRef .tc main_arg10) := by
  after_results_simp <;> rfl
theorem c2_keep_arg11 (V : Valuation τ sig (Elt F)) : after c2 V (Proc.devRef .tc main_arg11) = V (Proc.devRef .tc main_arg11) := by
  after_results_simp <;> rfl
theorem c2_keep_arg12 (V : Valuation τ sig (Elt F)) : after c2 V (Proc.devRef .tc main_arg12) = V (Proc.devRef .tc main_arg12) := by
  after_results_simp <;> rfl
theorem c2_keep_arg13 (V : Valuation τ sig (Elt F)) : after c2 V (Proc.devRef .tc main_arg13) = V (Proc.devRef .tc main_arg13) := by
  after_results_simp <;> rfl

/-! ## Stretch 3: the combined input before the relu -/

theorem c3_v31 (V : Valuation τ sig (Elt F)) :
    after c3 V (Proc.devRef .tc main_v31) = preR (V (Proc.devRef .tc main_v8)) (V (Proc.devRef .tc main_v26)) (V (Proc.devRef .tc main_arg6)) (V (Proc.devRef .tc main_arg7)) := by
  after_results_simp <;> rfl

theorem c3_keep_v9 (V : Valuation τ sig (Elt F)) : after c3 V (Proc.devRef .tc main_v9) = V (Proc.devRef .tc main_v9) := by
  after_results_simp <;> rfl
theorem c3_keep_v25 (V : Valuation τ sig (Elt F)) : after c3 V (Proc.devRef .tc main_v25) = V (Proc.devRef .tc main_v25) := by
  after_results_simp <;> rfl
theorem c3_keep_arg0 (V : Valuation τ sig (Elt F)) : after c3 V (Proc.devRef .tc main_arg0) = V (Proc.devRef .tc main_arg0) := by
  after_results_simp <;> rfl
theorem c3_keep_arg1 (V : Valuation τ sig (Elt F)) : after c3 V (Proc.devRef .tc main_arg1) = V (Proc.devRef .tc main_arg1) := by
  after_results_simp <;> rfl
theorem c3_keep_arg2 (V : Valuation τ sig (Elt F)) : after c3 V (Proc.devRef .tc main_arg2) = V (Proc.devRef .tc main_arg2) := by
  after_results_simp <;> rfl
theorem c3_keep_arg3 (V : Valuation τ sig (Elt F)) : after c3 V (Proc.devRef .tc main_arg3) = V (Proc.devRef .tc main_arg3) := by
  after_results_simp <;> rfl
theorem c3_keep_arg4 (V : Valuation τ sig (Elt F)) : after c3 V (Proc.devRef .tc main_arg4) = V (Proc.devRef .tc main_arg4) := by
  after_results_simp <;> rfl
theorem c3_keep_arg5 (V : Valuation τ sig (Elt F)) : after c3 V (Proc.devRef .tc main_arg5) = V (Proc.devRef .tc main_arg5) := by
  after_results_simp <;> rfl
theorem c3_keep_arg6 (V : Valuation τ sig (Elt F)) : after c3 V (Proc.devRef .tc main_arg6) = V (Proc.devRef .tc main_arg6) := by
  after_results_simp <;> rfl
theorem c3_keep_arg7 (V : Valuation τ sig (Elt F)) : after c3 V (Proc.devRef .tc main_arg7) = V (Proc.devRef .tc main_arg7) := by
  after_results_simp <;> rfl
theorem c3_keep_arg8 (V : Valuation τ sig (Elt F)) : after c3 V (Proc.devRef .tc main_arg8) = V (Proc.devRef .tc main_arg8) := by
  after_results_simp <;> rfl
theorem c3_keep_arg9 (V : Valuation τ sig (Elt F)) : after c3 V (Proc.devRef .tc main_arg9) = V (Proc.devRef .tc main_arg9) := by
  after_results_simp <;> rfl
theorem c3_keep_arg10 (V : Valuation τ sig (Elt F)) : after c3 V (Proc.devRef .tc main_arg10) = V (Proc.devRef .tc main_arg10) := by
  after_results_simp <;> rfl
theorem c3_keep_arg11 (V : Valuation τ sig (Elt F)) : after c3 V (Proc.devRef .tc main_arg11) = V (Proc.devRef .tc main_arg11) := by
  after_results_simp <;> rfl
theorem c3_keep_arg12 (V : Valuation τ sig (Elt F)) : after c3 V (Proc.devRef .tc main_arg12) = V (Proc.devRef .tc main_arg12) := by
  after_results_simp <;> rfl
theorem c3_keep_arg13 (V : Valuation τ sig (Elt F)) : after c3 V (Proc.devRef .tc main_arg13) = V (Proc.devRef .tc main_arg13) := by
  after_results_simp <;> rfl

/-! ## Stretch 4: the relu -/

theorem c4_v32 (V : Valuation τ sig (Elt F)) :
    after c4 V (Proc.devRef .tc main_v32) = maximumf (V (Proc.devRef .tc main_v31)) (broadcastInDim S1x1024 ![] bcast_S_S1x1024 (constant S_ .f32 0x00000000#32)) := by
  after_results_simp
  simp only [ofBuf_toBuf, ofBuf_lit, toBuf_lit]
  rfl

theorem c4_keep_v9 (V : Valuation τ sig (Elt F)) : after c4 V (Proc.devRef .tc main_v9) = V (Proc.devRef .tc main_v9) := by
  after_results_simp <;> rfl
theorem c4_keep_v25 (V : Valuation τ sig (Elt F)) : after c4 V (Proc.devRef .tc main_v25) = V (Proc.devRef .tc main_v25) := by
  after_results_simp <;> rfl
theorem c4_keep_arg0 (V : Valuation τ sig (Elt F)) : after c4 V (Proc.devRef .tc main_arg0) = V (Proc.devRef .tc main_arg0) := by
  after_results_simp <;> rfl
theorem c4_keep_arg1 (V : Valuation τ sig (Elt F)) : after c4 V (Proc.devRef .tc main_arg1) = V (Proc.devRef .tc main_arg1) := by
  after_results_simp <;> rfl
theorem c4_keep_arg2 (V : Valuation τ sig (Elt F)) : after c4 V (Proc.devRef .tc main_arg2) = V (Proc.devRef .tc main_arg2) := by
  after_results_simp <;> rfl
theorem c4_keep_arg3 (V : Valuation τ sig (Elt F)) : after c4 V (Proc.devRef .tc main_arg3) = V (Proc.devRef .tc main_arg3) := by
  after_results_simp <;> rfl
theorem c4_keep_arg4 (V : Valuation τ sig (Elt F)) : after c4 V (Proc.devRef .tc main_arg4) = V (Proc.devRef .tc main_arg4) := by
  after_results_simp <;> rfl
theorem c4_keep_arg5 (V : Valuation τ sig (Elt F)) : after c4 V (Proc.devRef .tc main_arg5) = V (Proc.devRef .tc main_arg5) := by
  after_results_simp <;> rfl
theorem c4_keep_arg6 (V : Valuation τ sig (Elt F)) : after c4 V (Proc.devRef .tc main_arg6) = V (Proc.devRef .tc main_arg6) := by
  after_results_simp <;> rfl
theorem c4_keep_arg7 (V : Valuation τ sig (Elt F)) : after c4 V (Proc.devRef .tc main_arg7) = V (Proc.devRef .tc main_arg7) := by
  after_results_simp <;> rfl
theorem c4_keep_arg8 (V : Valuation τ sig (Elt F)) : after c4 V (Proc.devRef .tc main_arg8) = V (Proc.devRef .tc main_arg8) := by
  after_results_simp <;> rfl
theorem c4_keep_arg9 (V : Valuation τ sig (Elt F)) : after c4 V (Proc.devRef .tc main_arg9) = V (Proc.devRef .tc main_arg9) := by
  after_results_simp <;> rfl
theorem c4_keep_arg10 (V : Valuation τ sig (Elt F)) : after c4 V (Proc.devRef .tc main_arg10) = V (Proc.devRef .tc main_arg10) := by
  after_results_simp <;> rfl
theorem c4_keep_arg11 (V : Valuation τ sig (Elt F)) : after c4 V (Proc.devRef .tc main_arg11) = V (Proc.devRef .tc main_arg11) := by
  after_results_simp <;> rfl
theorem c4_keep_arg12 (V : Valuation τ sig (Elt F)) : after c4 V (Proc.devRef .tc main_arg12) = V (Proc.devRef .tc main_arg12) := by
  after_results_simp <;> rfl
theorem c4_keep_arg13 (V : Valuation τ sig (Elt F)) : after c4 V (Proc.devRef .tc main_arg13) = V (Proc.devRef .tc main_arg13) := by
  after_results_simp <;> rfl

/-! ## Stretch 5: the GRU step -/

theorem c5_v68 (V : Valuation τ sig (Elt F)) :
    after c5 V (Proc.devRef .tc main_v68) = Cert.RefSpec.gruR (Cert.RefSpec.gateR (V (Proc.devRef .tc main_v32)) (V (Proc.devRef .tc main_arg8)) (V (Proc.devRef .tc main_arg10)))
      (Cert.RefSpec.gateR (V (Proc.devRef .tc main_v9)) (V (Proc.devRef .tc main_arg9)) (V (Proc.devRef .tc main_arg11))) (V (Proc.devRef .tc main_v9)) := by
  after_results_simp <;> rfl

theorem c5_keep_v25 (V : Valuation τ sig (Elt F)) : after c5 V (Proc.devRef .tc main_v25) = V (Proc.devRef .tc main_v25) := by
  after_results_simp <;> rfl
theorem c5_keep_arg0 (V : Valuation τ sig (Elt F)) : after c5 V (Proc.devRef .tc main_arg0) = V (Proc.devRef .tc main_arg0) := by
  after_results_simp <;> rfl
theorem c5_keep_arg1 (V : Valuation τ sig (Elt F)) : after c5 V (Proc.devRef .tc main_arg1) = V (Proc.devRef .tc main_arg1) := by
  after_results_simp <;> rfl
theorem c5_keep_arg2 (V : Valuation τ sig (Elt F)) : after c5 V (Proc.devRef .tc main_arg2) = V (Proc.devRef .tc main_arg2) := by
  after_results_simp <;> rfl
theorem c5_keep_arg3 (V : Valuation τ sig (Elt F)) : after c5 V (Proc.devRef .tc main_arg3) = V (Proc.devRef .tc main_arg3) := by
  after_results_simp <;> rfl
theorem c5_keep_arg4 (V : Valuation τ sig (Elt F)) : after c5 V (Proc.devRef .tc main_arg4) = V (Proc.devRef .tc main_arg4) := by
  after_results_simp <;> rfl
theorem c5_keep_arg5 (V : Valuation τ sig (Elt F)) : after c5 V (Proc.devRef .tc main_arg5) = V (Proc.devRef .tc main_arg5) := by
  after_results_simp <;> rfl
theorem c5_keep_arg6 (V : Valuation τ sig (Elt F)) : after c5 V (Proc.devRef .tc main_arg6) = V (Proc.devRef .tc main_arg6) := by
  after_results_simp <;> rfl
theorem c5_keep_arg7 (V : Valuation τ sig (Elt F)) : after c5 V (Proc.devRef .tc main_arg7) = V (Proc.devRef .tc main_arg7) := by
  after_results_simp <;> rfl
theorem c5_keep_arg8 (V : Valuation τ sig (Elt F)) : after c5 V (Proc.devRef .tc main_arg8) = V (Proc.devRef .tc main_arg8) := by
  after_results_simp <;> rfl
theorem c5_keep_arg9 (V : Valuation τ sig (Elt F)) : after c5 V (Proc.devRef .tc main_arg9) = V (Proc.devRef .tc main_arg9) := by
  after_results_simp <;> rfl
theorem c5_keep_arg10 (V : Valuation τ sig (Elt F)) : after c5 V (Proc.devRef .tc main_arg10) = V (Proc.devRef .tc main_arg10) := by
  after_results_simp <;> rfl
theorem c5_keep_arg11 (V : Valuation τ sig (Elt F)) : after c5 V (Proc.devRef .tc main_arg11) = V (Proc.devRef .tc main_arg11) := by
  after_results_simp <;> rfl
theorem c5_keep_arg12 (V : Valuation τ sig (Elt F)) : after c5 V (Proc.devRef .tc main_arg12) = V (Proc.devRef .tc main_arg12) := by
  after_results_simp <;> rfl
theorem c5_keep_arg13 (V : Valuation τ sig (Elt F)) : after c5 V (Proc.devRef .tc main_arg13) = V (Proc.devRef .tc main_arg13) := by
  after_results_simp <;> rfl

/-! ## Stretch 6: the output logits -/

theorem c6_v72 (V : Valuation τ sig (Elt F)) :
    after c6 V (Proc.devRef .tc main_v72) = Cert.RefSpec.logitsR (V (Proc.devRef .tc main_v68)) (V (Proc.devRef .tc main_arg12)) (V (Proc.devRef .tc main_arg13)) := by
  after_results_simp <;> rfl

theorem c6_keep_v68 (V : Valuation τ sig (Elt F)) : after c6 V (Proc.devRef .tc main_v68) = V (Proc.devRef .tc main_v68) := by
  after_results_simp <;> rfl
theorem c6_keep_v25 (V : Valuation τ sig (Elt F)) : after c6 V (Proc.devRef .tc main_v25) = V (Proc.devRef .tc main_v25) := by
  after_results_simp <;> rfl
theorem c6_keep_arg0 (V : Valuation τ sig (Elt F)) : after c6 V (Proc.devRef .tc main_arg0) = V (Proc.devRef .tc main_arg0) := by
  after_results_simp <;> rfl
theorem c6_keep_arg1 (V : Valuation τ sig (Elt F)) : after c6 V (Proc.devRef .tc main_arg1) = V (Proc.devRef .tc main_arg1) := by
  after_results_simp <;> rfl
theorem c6_keep_arg2 (V : Valuation τ sig (Elt F)) : after c6 V (Proc.devRef .tc main_arg2) = V (Proc.devRef .tc main_arg2) := by
  after_results_simp <;> rfl
theorem c6_keep_arg3 (V : Valuation τ sig (Elt F)) : after c6 V (Proc.devRef .tc main_arg3) = V (Proc.devRef .tc main_arg3) := by
  after_results_simp <;> rfl
theorem c6_keep_arg4 (V : Valuation τ sig (Elt F)) : after c6 V (Proc.devRef .tc main_arg4) = V (Proc.devRef .tc main_arg4) := by
  after_results_simp <;> rfl
theorem c6_keep_arg5 (V : Valuation τ sig (Elt F)) : after c6 V (Proc.devRef .tc main_arg5) = V (Proc.devRef .tc main_arg5) := by
  after_results_simp <;> rfl
theorem c6_keep_arg6 (V : Valuation τ sig (Elt F)) : after c6 V (Proc.devRef .tc main_arg6) = V (Proc.devRef .tc main_arg6) := by
  after_results_simp <;> rfl
theorem c6_keep_arg7 (V : Valuation τ sig (Elt F)) : after c6 V (Proc.devRef .tc main_arg7) = V (Proc.devRef .tc main_arg7) := by
  after_results_simp <;> rfl
theorem c6_keep_arg8 (V : Valuation τ sig (Elt F)) : after c6 V (Proc.devRef .tc main_arg8) = V (Proc.devRef .tc main_arg8) := by
  after_results_simp <;> rfl
theorem c6_keep_arg9 (V : Valuation τ sig (Elt F)) : after c6 V (Proc.devRef .tc main_arg9) = V (Proc.devRef .tc main_arg9) := by
  after_results_simp <;> rfl
theorem c6_keep_arg10 (V : Valuation τ sig (Elt F)) : after c6 V (Proc.devRef .tc main_arg10) = V (Proc.devRef .tc main_arg10) := by
  after_results_simp <;> rfl
theorem c6_keep_arg11 (V : Valuation τ sig (Elt F)) : after c6 V (Proc.devRef .tc main_arg11) = V (Proc.devRef .tc main_arg11) := by
  after_results_simp <;> rfl
theorem c6_keep_arg12 (V : Valuation τ sig (Elt F)) : after c6 V (Proc.devRef .tc main_arg12) = V (Proc.devRef .tc main_arg12) := by
  after_results_simp <;> rfl
theorem c6_keep_arg13 (V : Valuation τ sig (Elt F)) : after c6 V (Proc.devRef .tc main_arg13) = V (Proc.devRef .tc main_arg13) := by
  after_results_simp <;> rfl

/-! ## Stretch 7: the log-softmax -/

theorem c7_v73 (V : Valuation τ sig (Elt F)) :
    after c7 V (Proc.devRef .tc main_v73) = Cert.RefSpec.lsR (V (Proc.devRef .tc main_v72)) := by
  after_results_simp
  simp only [ofBuf_toBuf, ofBuf_lit, toBuf_lit]
  rfl

theorem c7_keep_v68 (V : Valuation τ sig (Elt F)) : after c7 V (Proc.devRef .tc main_v68) = V (Proc.devRef .tc main_v68) := by
  after_results_simp <;> rfl
theorem c7_keep_v25 (V : Valuation τ sig (Elt F)) : after c7 V (Proc.devRef .tc main_v25) = V (Proc.devRef .tc main_v25) := by
  after_results_simp <;> rfl
theorem c7_keep_arg0 (V : Valuation τ sig (Elt F)) : after c7 V (Proc.devRef .tc main_arg0) = V (Proc.devRef .tc main_arg0) := by
  after_results_simp <;> rfl
theorem c7_keep_arg1 (V : Valuation τ sig (Elt F)) : after c7 V (Proc.devRef .tc main_arg1) = V (Proc.devRef .tc main_arg1) := by
  after_results_simp <;> rfl
theorem c7_keep_arg2 (V : Valuation τ sig (Elt F)) : after c7 V (Proc.devRef .tc main_arg2) = V (Proc.devRef .tc main_arg2) := by
  after_results_simp <;> rfl
theorem c7_keep_arg3 (V : Valuation τ sig (Elt F)) : after c7 V (Proc.devRef .tc main_arg3) = V (Proc.devRef .tc main_arg3) := by
  after_results_simp <;> rfl
theorem c7_keep_arg4 (V : Valuation τ sig (Elt F)) : after c7 V (Proc.devRef .tc main_arg4) = V (Proc.devRef .tc main_arg4) := by
  after_results_simp <;> rfl
theorem c7_keep_arg5 (V : Valuation τ sig (Elt F)) : after c7 V (Proc.devRef .tc main_arg5) = V (Proc.devRef .tc main_arg5) := by
  after_results_simp <;> rfl
theorem c7_keep_arg6 (V : Valuation τ sig (Elt F)) : after c7 V (Proc.devRef .tc main_arg6) = V (Proc.devRef .tc main_arg6) := by
  after_results_simp <;> rfl
theorem c7_keep_arg7 (V : Valuation τ sig (Elt F)) : after c7 V (Proc.devRef .tc main_arg7) = V (Proc.devRef .tc main_arg7) := by
  after_results_simp <;> rfl
theorem c7_keep_arg8 (V : Valuation τ sig (Elt F)) : after c7 V (Proc.devRef .tc main_arg8) = V (Proc.devRef .tc main_arg8) := by
  after_results_simp <;> rfl
theorem c7_keep_arg9 (V : Valuation τ sig (Elt F)) : after c7 V (Proc.devRef .tc main_arg9) = V (Proc.devRef .tc main_arg9) := by
  after_results_simp <;> rfl
theorem c7_keep_arg10 (V : Valuation τ sig (Elt F)) : after c7 V (Proc.devRef .tc main_arg10) = V (Proc.devRef .tc main_arg10) := by
  after_results_simp <;> rfl
theorem c7_keep_arg11 (V : Valuation τ sig (Elt F)) : after c7 V (Proc.devRef .tc main_arg11) = V (Proc.devRef .tc main_arg11) := by
  after_results_simp <;> rfl
theorem c7_keep_arg12 (V : Valuation τ sig (Elt F)) : after c7 V (Proc.devRef .tc main_arg12) = V (Proc.devRef .tc main_arg12) := by
  after_results_simp <;> rfl
theorem c7_keep_arg13 (V : Valuation τ sig (Elt F)) : after c7 V (Proc.devRef .tc main_arg13) = V (Proc.devRef .tc main_arg13) := by
  after_results_simp <;> rfl

/-! ## Stretch 8: the new state as a 1×1×1024 array -/

theorem c8_v74 (V : Valuation τ sig (Elt F)) :
    after c8 V (Proc.devRef .tc main_v74) = Cert.RefSpec.hn3R (V (Proc.devRef .tc main_v68)) := by
  after_results_simp <;> rfl

theorem c8_keep_v73 (V : Valuation τ sig (Elt F)) : after c8 V (Proc.devRef .tc main_v73) = V (Proc.devRef .tc main_v73) := by
  after_results_simp <;> rfl
theorem c8_keep_v25 (V : Valuation τ sig (Elt F)) : after c8 V (Proc.devRef .tc main_v25) = V (Proc.devRef .tc main_v25) := by
  after_results_simp <;> rfl
theorem c8_keep_arg0 (V : Valuation τ sig (Elt F)) : after c8 V (Proc.devRef .tc main_arg0) = V (Proc.devRef .tc main_arg0) := by
  after_results_simp <;> rfl
theorem c8_keep_arg1 (V : Valuation τ sig (Elt F)) : after c8 V (Proc.devRef .tc main_arg1) = V (Proc.devRef .tc main_arg1) := by
  after_results_simp <;> rfl
theorem c8_keep_arg2 (V : Valuation τ sig (Elt F)) : after c8 V (Proc.devRef .tc main_arg2) = V (Proc.devRef .tc main_arg2) := by
  after_results_simp <;> rfl
theorem c8_keep_arg3 (V : Valuation τ sig (Elt F)) : after c8 V (Proc.devRef .tc main_arg3) = V (Proc.devRef .tc main_arg3) := by
  after_results_simp <;> rfl
theorem c8_keep_arg4 (V : Valuation τ sig (Elt F)) : after c8 V (Proc.devRef .tc main_arg4) = V (Proc.devRef .tc main_arg4) := by
  after_results_simp <;> rfl
theorem c8_keep_arg5 (V : Valuation τ sig (Elt F)) : after c8 V (Proc.devRef .tc main_arg5) = V (Proc.devRef .tc main_arg5) := by
  after_results_simp <;> rfl
theorem c8_keep_arg6 (V : Valuation τ sig (Elt F)) : after c8 V (Proc.devRef .tc main_arg6) = V (Proc.devRef .tc main_arg6) := by
  after_results_simp <;> rfl
theorem c8_keep_arg7 (V : Valuation τ sig (Elt F)) : after c8 V (Proc.devRef .tc main_arg7) = V (Proc.devRef .tc main_arg7) := by
  after_results_simp <;> rfl
theorem c8_keep_arg8 (V : Valuation τ sig (Elt F)) : after c8 V (Proc.devRef .tc main_arg8) = V (Proc.devRef .tc main_arg8) := by
  after_results_simp <;> rfl
theorem c8_keep_arg9 (V : Valuation τ sig (Elt F)) : after c8 V (Proc.devRef .tc main_arg9) = V (Proc.devRef .tc main_arg9) := by
  after_results_simp <;> rfl
theorem c8_keep_arg10 (V : Valuation τ sig (Elt F)) : after c8 V (Proc.devRef .tc main_arg10) = V (Proc.devRef .tc main_arg10) := by
  after_results_simp <;> rfl
theorem c8_keep_arg11 (V : Valuation τ sig (Elt F)) : after c8 V (Proc.devRef .tc main_arg11) = V (Proc.devRef .tc main_arg11) := by
  after_results_simp <;> rfl
theorem c8_keep_arg12 (V : Valuation τ sig (Elt F)) : after c8 V (Proc.devRef .tc main_arg12) = V (Proc.devRef .tc main_arg12) := by
  after_results_simp <;> rfl
theorem c8_keep_arg13 (V : Valuation τ sig (Elt F)) : after c8 V (Proc.devRef .tc main_arg13) = V (Proc.devRef .tc main_arg13) := by
  after_results_simp <;> rfl

/-! ## The whole line -/

/-- A property of every operation of two lines holds of every operation of their concatenation. -/
theorem forall_app {P : HloOp τ sig (Elt F) → Prop} {l₁ l₂ : List (HloOp τ sig (Elt F))} (h₁ : l₁.Forall P) (h₂ : l₂.Forall P) :
    (l₁ ++ l₂).Forall P :=
  List.forall_iff_forall_mem.2 fun op h =>
    (List.mem_append.1 h).elim (List.forall_iff_forall_mem.1 h₁ op) (List.forall_iff_forall_mem.1 h₂ op)

/-- Two lines run one after the other leave what the second leaves from what the first left. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem ops_sub : (c1 ++ c2 ++ c3 ++ c4 ++ c5 ++ c6 ++ c7 ++ c8 : List (HloOp τ sig (Elt F))).Forall fun op => op.bufs ⊆ tcRefs τ sig :=
  (forall_app (forall_app (forall_app (forall_app (forall_app (forall_app (forall_app c1_sub c2_sub) c3_sub) c4_sub) c5_sub) c6_sub) c7_sub) c8_sub)

theorem ops_fresh : (c1 ++ c2 ++ c3 ++ c4 ++ c5 ++ c6 ++ c7 ++ c8 : List (HloOp τ sig (Elt F))).Forall fun op => op.fresh = ∅ :=
  (forall_app (forall_app (forall_app (forall_app (forall_app (forall_app (forall_app c1_fresh c2_fresh) c3_fresh) c4_fresh) c5_fresh) c6_fresh) c7_fresh) c8_fresh)

/-- The new hidden state as a function of a device's contents. -/
def hnV (V : Valuation τ sig (Elt F)) : FVec F S1x1024 .f32 :=
  Cert.RefSpec.hnR (Cert.RefSpec.e0R (V (Proc.devRef .tc main_arg3)) (V (Proc.devRef .tc main_arg0))) (Cert.RefSpec.h0R (V (Proc.devRef .tc main_arg1))) (V (Proc.devRef .tc main_arg2)) (V (Proc.devRef .tc main_arg4))
    (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))

theorem res_v73 (V : Valuation τ sig (Elt F)) :
    after (c1 ++ c2 ++ c3 ++ c4 ++ c5 ++ c6 ++ c7 ++ c8) V (Proc.devRef .tc main_v73) = Cert.RefSpec.lsR (Cert.RefSpec.logitsR (hnV V) (V (Proc.devRef .tc main_arg12)) (V (Proc.devRef .tc main_arg13))) := by
  simp only [after_app]
  rw [c8_keep_v73, c7_v73, c6_v72, c5_v68, c5_keep_arg12, c5_keep_arg13, c4_v32, c4_keep_arg8, c4_keep_arg10, c4_keep_v9, c4_keep_arg9, c4_keep_arg11, c4_keep_arg12, c4_keep_arg13, c3_v31, c3_keep_arg8, c3_keep_arg10, c3_keep_v9, c3_keep_arg9, c3_keep_arg11, c3_keep_arg12, c3_keep_arg13, c2_keep_v8, c2_v26, c2_keep_arg6, c2_keep_arg7, c2_keep_arg8, c2_keep_arg10, c2_keep_v9, c2_keep_arg9, c2_keep_arg11, c2_keep_arg12, c2_keep_arg13, c1_v8, c1_v9, c1_keep_arg4, c1_keep_arg5, c1_keep_arg2, c1_keep_arg6, c1_keep_arg7, c1_keep_arg8, c1_keep_arg10, c1_keep_arg9, c1_keep_arg11, c1_keep_arg12, c1_keep_arg13]
  rfl

theorem res_v74 (V : Valuation τ sig (Elt F)) :
    after (c1 ++ c2 ++ c3 ++ c4 ++ c5 ++ c6 ++ c7 ++ c8) V (Proc.devRef .tc main_v74) = Cert.RefSpec.hn3R (hnV V) := by
  simp only [after_app]
  rw [c8_v74, c7_keep_v68, c6_keep_v68, c5_v68, c4_v32, c4_keep_arg8, c4_keep_arg10, c4_keep_v9, c4_keep_arg9, c4_keep_arg11, c3_v31, c3_keep_arg8, c3_keep_arg10, c3_keep_v9, c3_keep_arg9, c3_keep_arg11, c2_keep_v8, c2_v26, c2_keep_arg6, c2_keep_arg7, c2_keep_arg8, c2_keep_arg10, c2_keep_v9, c2_keep_arg9, c2_keep_arg11, c1_v8, c1_v9, c1_keep_arg4, c1_keep_arg5, c1_keep_arg2, c1_keep_arg6, c1_keep_arg7, c1_keep_arg8, c1_keep_arg10, c1_keep_arg9, c1_keep_arg11]
  rfl

theorem res_v25 (V : Valuation τ sig (Elt F)) :
    after (c1 ++ c2 ++ c3 ++ c4 ++ c5 ++ c6 ++ c7 ++ c8) V (Proc.devRef .tc main_v25) = Cert.RefSpec.awR (Cert.RefSpec.e0R (V (Proc.devRef .tc main_arg3)) (V (Proc.devRef .tc main_arg0))) (Cert.RefSpec.h0R (V (Proc.devRef .tc main_arg1))) (V (Proc.devRef .tc main_arg4)) (V (Proc.devRef .tc main_arg5)) := by
  simp only [after_app]
  rw [c8_keep_v25, c7_keep_v25, c6_keep_v25, c5_keep_v25, c4_keep_v25, c3_keep_v25, c2_v25, c1_v8, c1_v9, c1_keep_arg4, c1_keep_arg5]

theorem res_arg0 (V : Valuation τ sig (Elt F)) :
    after (c1 ++ c2 ++ c3 ++ c4 ++ c5 ++ c6 ++ c7 ++ c8) V (Proc.devRef .tc main_arg0) = V (Proc.devRef .tc main_arg0) := by
  simp only [after_app]
  rw [c8_keep_arg0, c7_keep_arg0, c6_keep_arg0, c5_keep_arg0, c4_keep_arg0, c3_keep_arg0, c2_keep_arg0, c1_keep_arg0]
theorem res_arg1 (V : Valuation τ sig (Elt F)) :
    after (c1 ++ c2 ++ c3 ++ c4 ++ c5 ++ c6 ++ c7 ++ c8) V (Proc.devRef .tc main_arg1) = V (Proc.devRef .tc main_arg1) := by
  simp only [after_app]
  rw [c8_keep_arg1, c7_keep_arg1, c6_keep_arg1, c5_keep_arg1, c4_keep_arg1, c3_keep_arg1, c2_keep_arg1, c1_keep_arg1]
theorem res_arg2 (V : Valuation τ sig (Elt F)) :
    after (c1 ++ c2 ++ c3 ++ c4 ++ c5 ++ c6 ++ c7 ++ c8) V (Proc.devRef .tc main_arg2) = V (Proc.devRef .tc main_arg2) := by
  simp only [after_app]
  rw [c8_keep_arg2, c7_keep_arg2, c6_keep_arg2, c5_keep_arg2, c4_keep_arg2, c3_keep_arg2, c2_keep_arg2, c1_keep_arg2]
theorem res_arg3 (V : Valuation τ sig (Elt F)) :
    after (c1 ++ c2 ++ c3 ++ c4 ++ c5 ++ c6 ++ c7 ++ c8) V (Proc.devRef .tc main_arg3) = V (Proc.devRef .tc main_arg3) := by
  simp only [after_app]
  rw [c8_keep_arg3, c7_keep_arg3, c6_keep_arg3, c5_keep_arg3, c4_keep_arg3, c3_keep_arg3, c2_keep_arg3, c1_keep_arg3]
theorem res_arg4 (V : Valuation τ sig (Elt F)) :
    after (c1 ++ c2 ++ c3 ++ c4 ++ c5 ++ c6 ++ c7 ++ c8) V (Proc.devRef .tc main_arg4) = V (Proc.devRef .tc main_arg4) := by
  simp only [after_app]
  rw [c8_keep_arg4, c7_keep_arg4, c6_keep_arg4, c5_keep_arg4, c4_keep_arg4, c3_keep_arg4, c2_keep_arg4, c1_keep_arg4]
theorem res_arg5 (V : Valuation τ sig (Elt F)) :
    after (c1 ++ c2 ++ c3 ++ c4 ++ c5 ++ c6 ++ c7 ++ c8) V (Proc.devRef .tc main_arg5) = V (Proc.devRef .tc main_arg5) := by
  simp only [after_app]
  rw [c8_keep_arg5, c7_keep_arg5, c6_keep_arg5, c5_keep_arg5, c4_keep_arg5, c3_keep_arg5, c2_keep_arg5, c1_keep_arg5]
theorem res_arg6 (V : Valuation τ sig (Elt F)) :
    after (c1 ++ c2 ++ c3 ++ c4 ++ c5 ++ c6 ++ c7 ++ c8) V (Proc.devRef .tc main_arg6) = V (Proc.devRef .tc main_arg6) := by
  simp only [after_app]
  rw [c8_keep_arg6, c7_keep_arg6, c6_keep_arg6, c5_keep_arg6, c4_keep_arg6, c3_keep_arg6, c2_keep_arg6, c1_keep_arg6]
theorem res_arg7 (V : Valuation τ sig (Elt F)) :
    after (c1 ++ c2 ++ c3 ++ c4 ++ c5 ++ c6 ++ c7 ++ c8) V (Proc.devRef .tc main_arg7) = V (Proc.devRef .tc main_arg7) := by
  simp only [after_app]
  rw [c8_keep_arg7, c7_keep_arg7, c6_keep_arg7, c5_keep_arg7, c4_keep_arg7, c3_keep_arg7, c2_keep_arg7, c1_keep_arg7]
theorem res_arg8 (V : Valuation τ sig (Elt F)) :
    after (c1 ++ c2 ++ c3 ++ c4 ++ c5 ++ c6 ++ c7 ++ c8) V (Proc.devRef .tc main_arg8) = V (Proc.devRef .tc main_arg8) := by
  simp only [after_app]
  rw [c8_keep_arg8, c7_keep_arg8, c6_keep_arg8, c5_keep_arg8, c4_keep_arg8, c3_keep_arg8, c2_keep_arg8, c1_keep_arg8]
theorem res_arg9 (V : Valuation τ sig (Elt F)) :
    after (c1 ++ c2 ++ c3 ++ c4 ++ c5 ++ c6 ++ c7 ++ c8) V (Proc.devRef .tc main_arg9) = V (Proc.devRef .tc main_arg9) := by
  simp only [after_app]
  rw [c8_keep_arg9, c7_keep_arg9, c6_keep_arg9, c5_keep_arg9, c4_keep_arg9, c3_keep_arg9, c2_keep_arg9, c1_keep_arg9]
theorem res_arg10 (V : Valuation τ sig (Elt F)) :
    after (c1 ++ c2 ++ c3 ++ c4 ++ c5 ++ c6 ++ c7 ++ c8) V (Proc.devRef .tc main_arg10) = V (Proc.devRef .tc main_arg10) := by
  simp only [after_app]
  rw [c8_keep_arg10, c7_keep_arg10, c6_keep_arg10, c5_keep_arg10, c4_keep_arg10, c3_keep_arg10, c2_keep_arg10, c1_keep_arg10]
theorem res_arg11 (V : Valuation τ sig (Elt F)) :
    after (c1 ++ c2 ++ c3 ++ c4 ++ c5 ++ c6 ++ c7 ++ c8) V (Proc.devRef .tc main_arg11) = V (Proc.devRef .tc main_arg11) := by
  simp only [after_app]
  rw [c8_keep_arg11, c7_keep_arg11, c6_keep_arg11, c5_keep_arg11, c4_keep_arg11, c3_keep_arg11, c2_keep_arg11, c1_keep_arg11]
theorem res_arg12 (V : Valuation τ sig (Elt F)) :
    after (c1 ++ c2 ++ c3 ++ c4 ++ c5 ++ c6 ++ c7 ++ c8) V (Proc.devRef .tc main_arg12) = V (Proc.devRef .tc main_arg12) := by
  simp only [after_app]
  rw [c8_keep_arg12, c7_keep_arg12, c6_keep_arg12, c5_keep_arg12, c4_keep_arg12, c3_keep_arg12, c2_keep_arg12, c1_keep_arg12]
theorem res_arg13 (V : Valuation τ sig (Elt F)) :
    after (c1 ++ c2 ++ c3 ++ c4 ++ c5 ++ c6 ++ c7 ++ c8) V (Proc.devRef .tc main_arg13) = V (Proc.devRef .tc main_arg13) := by
  simp only [after_app]
  rw [c8_keep_arg13, c7_keep_arg13, c6_keep_arg13, c5_keep_arg13, c4_keep_arg13, c3_keep_arg13, c2_keep_arg13, c1_keep_arg13]

/-- On every device, for any float values, from any memory with zero counters: every weakly fair execution of the
    program terminates with its three results at the decoder step's functions of the arguments' launch contents — the
    log-softmax of the output logits, the new hidden state, the attention weights — and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73)
          = Cert.RefSpec.lsR (Cert.RefSpec.logitsR (hnr m c) (m ((c.tc : Thread nD τ).loc main_arg12)) (m ((c.tc : Thread nD τ).loc main_arg13)))
      ∧ r.2.mem ((c.tc : Thread nD τ).loc main_v74) = Cert.RefSpec.hn3R (hnr m c)
      ∧ r.2.mem ((c.tc : Thread nD τ).loc main_v25) = Cert.RefSpec.awR (e0r m c) (h0r m c) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v73).trans (res_v73 _), (h c main_v74).trans (res_v74 _),
      (h c main_v25).trans (res_v25 _),
      (h c main_arg0).trans (res_arg0 _),
      (h c main_arg1).trans (res_arg1 _),
      (h c main_arg2).trans (res_arg2 _),
      (h c main_arg3).trans (res_arg3 _),
      (h c main_arg4).trans (res_arg4 _),
      (h c main_arg5).trans (res_arg5 _),
      (h c main_arg6).trans (res_arg6 _),
      (h c main_arg7).trans (res_arg7 _),
      (h c main_arg8).trans (res_arg8 _),
      (h c main_arg9).trans (res_arg9 _),
      (h c main_arg10).trans (res_arg10 _),
      (h c main_arg11).trans (res_arg11 _),
      (h c main_arg12).trans (res_arg12 _),
      (h c main_arg13).trans (res_arg13 _)⟩)
    (run_seq scopedRefs_eq scopedSems_eq defs main (fun _ => c1 ++ c2 ++ c3 ++ c4 ++ c5 ++ c6 ++ c7 ++ c8) main_eq (fun _ => ops_sub) m ρ
      (fun _ => List.forall_iff_forall_mem.1 ops_fresh))

end Cert.RefRun

end
-- ==== Proof.lean ====
import proofs.«416905_j23579370455621_3_alg».proof.Defs
import proofs.«416905_j23579370455621_3_alg».proof.Proof.Gen.Kernel
import proofs.«416905_j23579370455621_3_alg».proof.Proof.Gen.KernelIdeal
import proofs.«416905_j23579370455621_3_alg».proof.Proof.Gen.ReferenceIdeal
import proofs.«416905_j23579370455621_3_alg».proof.Proof.Gen.Pre_finite_inputs
import proofs.«416905_j23579370455621_3_alg».proof.Proof.K.Frame
import proofs.«416905_j23579370455621_3_alg».proof.Proof.KI.Results
import proofs.«416905_j23579370455621_3_alg».proof.Proof.RefRun
import Idealize.ShloMosaic.Adequacy
import Idealize.ShloMosaic.Init

/-! A single decoder step with attention: an embedding lookup, attention weights over the encoder outputs (a softmax of
[e0, h0] · attn_Wᵀ + attn_b), the combined input relu ([e0, aw · enc] · comb_Wᵀ + comb_b), one GRU step, and the log-softmax
of the output projection. The kernel computes the decoder step once per core into two scratch rows and streams the output
weight in tiles of 2048 rows, each tile's logits being the hidden state against the tile's rows plus the bias; the reference
computes the same sums over the whole arrays. Over the extended reals a sum does not depend on its tiling, a product into
a zero accumulator against a weight's rows is the product with the transposed weight, and the logistic is 1 / (1 + exp (−x)),
so both programs compute one function of the arguments — provided the token indexes the embedding table, which the
precondition states (outside that range the kernel's lookup fills in a constant where the reference's clamps). -/

noncomputable section

namespace Cert.Proof

open Idealize.ShloMosaic Idealize.SL.Sem

/-- The five claims: the three frames, the (empty) idealization ledger, and the equality of results, the reference's
    results rewritten from its own arguments to the kernel's, which agree. -/
theorem claim : Cert.Claim := ⟨Cert.Kernel.Gen.facts, Cert.KernelIdeal.Gen.facts, Cert.ReferenceIdeal.Gen.facts, Cert.Pre_finite_inputs.Gen.facts,
  fun m ρ _ => Cert.Kernel.Body.frame (F := Bits) m ρ,
  fun m ρ _ => Cert.KernelIdeal.Body.frame m ρ,
  fun m ρ _ => (θ_run Cert.ReferenceIdeal.defs _ _).mono (fun _ h c => (h c).2.2.2) (Cert.RefRun.run (F := Ideal) m ρ),
  trivial,
  fun m ρ m' ρ' hpre hagree =>
    ⟨fun c => Cert.RefSpec.lsR (F := Ideal) (Cert.RefSpec.logitsR (F := Ideal) (Cert.KernelIdeal.Body.HNm m c) (m ((c.tc : Thread Cert.KernelIdeal.nD Cert.KernelIdeal.τ).loc Cert.KernelIdeal.main_arg12)) (m ((c.tc : Thread Cert.KernelIdeal.nD Cert.KernelIdeal.τ).loc Cert.KernelIdeal.main_arg13))),
     fun c => Cert.RefSpec.hn3R (F := Ideal) (Cert.KernelIdeal.Body.HNm m c),
     fun c => Cert.KernelIdeal.Body.AWm m c,
     Cert.KernelIdeal.Body.run_results m ρ hpre,
     (θ_run Cert.ReferenceIdeal.defs _ _).mono (fun r h c => by
        obtain ⟨a0, a1, a2, a3, a4, a5, a6, a7, a8, a9, a10, a11, a12, a13⟩ := hagree c
        refine ⟨?_, ?_, ?_, (h c).2.2.2⟩
        · rw [(h c).1]
          unfold Cert.RefRun.hnr Cert.RefRun.e0r Cert.RefRun.h0r Cert.KernelIdeal.Body.HNm Cert.KernelIdeal.Body.E0 Cert.KernelIdeal.Body.H0
          rw [a0, a1, a2, a3, a4, a5, a6, a7, a8, a9, a10, a11, a12, a13]
        · rw [(h c).2.1]
          unfold Cert.RefRun.hnr Cert.RefRun.e0r Cert.RefRun.h0r Cert.KernelIdeal.Body.HNm Cert.KernelIdeal.Body.E0 Cert.KernelIdeal.Body.H0
          rw [a0, a1, a2, a3, a4, a5, a6, a7, a8, a9, a10, a11]
        · rw [(h c).2.2.1]
          unfold Cert.RefRun.e0r Cert.RefRun.h0r Cert.KernelIdeal.Body.AWm Cert.KernelIdeal.Body.E0 Cert.KernelIdeal.Body.H0
          rw [a0, a1, a3, a4, a5])
      (Cert.RefRun.run (F := Ideal) m' ρ')⟩⟩

end Cert.Proof

end
